-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x64 : Shape := ⟨3, ![128, 512, 64]⟩
abbrev S128x512x512 : Shape := ⟨3, ![128, 512, 512]⟩
abbrev S_ : Shape := ⟨0, ![]⟩

class Facts : Prop where
  bcast_S_S128x512x64 : S_.BroadcastsInDim S128x512x64 (![] : Fin 0 → Fin S128x512x64.rank)
  reducesTo_S128x512x64_S_d0_1_2 : S128x512x64.ReducesTo [0, 1, 2] S_
  h_S_ : 0 < S_.numel

variable [Facts]

def fn {F : FTy → Type} [FloatOps F] (main_arg0 : FVec F S128x512x64 .f32) (main_arg1 : FVec F S128x512x64 .f32) (main_arg2 : IVec S128x512x512 32) : IVec S_ 1 :=
  let main_v0 : FVec F S128x512x64 .f32 := Host.absf main_arg0
  let main_cst : FVec F S_ .f32 := constant S_ .f32 0x7F800000#32
  let main_v1 : FVec F S128x512x64 .f32 := broadcastInDim S128x512x64 ![] bcast_S_S128x512x64 main_cst
  let main_v2 : IVec S128x512x64 1 := cmpf .olt main_v0 main_v1
  let main_c : IVec S_ 1 := constantI S_ 1 1#1
  let main_v3 : IVec S_ 1 := (fun x v => Host.reduce IntOp.andi x v reducesTo_S128x512x64_S_d0_1_2 h_S_) main_v2 main_c
  let main_v4 : FVec F S128x512x64 .f32 := Host.absf main_arg1
  let main_cst_0 : FVec F S_ .f32 := constant S_ .f32 0x7F800000#32
  let main_v5 : FVec F S128x512x64 .f32 := broadcastInDim S128x512x64 ![] bcast_S_S128x512x64 main_cst_0
  let main_v6 : IVec S128x512x64 1 := cmpf .olt main_v4 main_v5
  let main_c_1 : IVec S_ 1 := constantI S_ 1 1#1
  let main_v7 : IVec S_ 1 := (fun x v => Host.reduce IntOp.andi x v reducesTo_S128x512x64_S_d0_1_2 h_S_) main_v6 main_c_1
  let main_v8 : IVec S_ 1 := andi main_v3 main_v7
  main_v8
-- ==== Kernel.lean ====
abbrev S128x512x64 : Shape := ⟨3, ![128, 512, 64]⟩
abbrev S128x512x512 : Shape := ⟨3, ![128, 512, 512]⟩
abbrev S128x512 : Shape := ⟨2, ![128, 512]⟩
abbrev S128x128 : Shape := ⟨2, ![128, 128]⟩
abbrev S8x512x64 : Shape := ⟨3, ![8, 512, 64]⟩
abbrev S8x512x512 : Shape := ⟨3, ![8, 512, 512]⟩
abbrev S8x512 : Shape := ⟨2, ![8, 512]⟩
abbrev S8x128 : Shape := ⟨2, ![8, 128]⟩
abbrev S1x512x64 : Shape := ⟨3, ![1, 512, 64]⟩
abbrev S512x64 : Shape := ⟨2, ![512, 64]⟩
abbrev S64x512 : Shape := ⟨2, ![64, 512]⟩
abbrev S512x512 : Shape := ⟨2, ![512, 512]⟩
abbrev S512 : Shape := ⟨1, ![512]⟩
abbrev S1x512 : Shape := ⟨2, ![1, 512]⟩
abbrev S1 : Shape := ⟨1, ![1]⟩
abbrev S1x1 : Shape := ⟨2, ![1, 1]⟩
abbrev S512x1 : Shape := ⟨2, ![512, 1]⟩
abbrev S1x512x512 : Shape := ⟨3, ![1, 512, 512]⟩
abbrev S128 : Shape := ⟨1, ![128]⟩
abbrev S1x128 : Shape := ⟨2, ![1, 128]⟩
abbrev S128x1 : Shape := ⟨2, ![128, 1]⟩
abbrev S_ : Shape := ⟨0, ![]⟩

abbrev nBuf : Space → Nat
  | .hbm => 11
  | .vmem => 10
  | .smem => 0
  | _ => 0

abbrev bufTy : (tb : Table) → Fin (tcTables nBuf tb) → BufTy
  | .hbm, ⟨0, _⟩ => ⟨S128x512x64, .f32⟩
  | .hbm, ⟨1, _⟩ => ⟨S128x512x64, .f32⟩
  | .hbm, ⟨2, _⟩ => ⟨S128x512x512, .i32⟩
  | .hbm, ⟨3, _⟩ => ⟨S128x512, .f32⟩
  | .hbm, ⟨4, _⟩ => ⟨S128x128, .f32⟩
  | .hbm, ⟨5, _⟩ => ⟨S128x1, .f32⟩
  | .hbm, ⟨6, _⟩ => ⟨S128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S8x512x64, .f32⟩
  | .local _ .vmem, ⟨1, _⟩ => ⟨S8x512x64, .f32⟩
  | .local _ .vmem, ⟨2, _⟩ => ⟨S8x512x64, .f32⟩
  | .local _ .vmem, ⟨3, _⟩ => ⟨S8x512x64, .f32⟩
  | .local _ .vmem, ⟨4, _⟩ => ⟨S8x512x512, .i32⟩
  | .local _ .vmem, ⟨5, _⟩ => ⟨S8x512x512, .i32⟩
  | .local _ .vmem, ⟨6, _⟩ => ⟨S8x512, .f32⟩
  | .local _ .vmem, ⟨7, _⟩ => ⟨S8x512, .f32⟩
  | .local _ .vmem, ⟨8, _⟩ => ⟨S8x128, .f32⟩
  | .local _ .vmem, ⟨9, _⟩ => ⟨S8x128, .f32⟩
  | _, _ => ⟨S128x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S8x512x64_S1x512x64_0_0_0 : ∀ a, (![0, 0, 0] : Fin 3 → Nat) a + S1x512x64.size a ≤ S8x512x64.size a
  h_S1x512x64 : 0 < S1x512x64.numel
  shapeCasts_S1x512x64_S512x64 : S1x512x64.ShapeCasts S512x64
  bitsLt_bf16_f32 : FTy.bits .bf16 < FTy.bits .f32
  transposes_S512x64_p1_0_S64x512 : S512x64.Transposes [1, 0] S64x512
  reduces_S512x512_S512 : S512x512.Reduces [0] S512
  shapeCasts_S512_S1x512 : S512.ShapeCasts S1x512
  broadcasts_S1x512_S512x512 : S1x512.Broadcasts S512x512
  reduces_S1x512_S1 : S1x512.Reduces [1] S1
  shapeCasts_S1_S1x1 : S1.ShapeCasts S1x1
  broadcasts_S1x1_S1x512 : S1x1.Broadcasts S1x512
  reduces_S512x512_S512_2 : S512x512.Reduces [1] S512
  shapeCasts_S512_S512x1 : S512.ShapeCasts S512x1
  broadcasts_S512x1_S512x512 : S512x1.Broadcasts S512x512
  reduces_S512x1_S1 : S512x1.Reduces [0] S1
  broadcasts_S1x1_S512x1 : S1x1.Broadcasts S512x1
  inb_S8x512x512_S1x512x512_0_0_0 : ∀ a, (![0, 0, 0] : Fin 3 → Nat) a + S1x512x512.size a ≤ S8x512x512.size a
  h_S1x512x512 : 0 < S1x512x512.numel
  shapeCasts_S1x512x512_S512x512 : S1x512x512.ShapeCasts S512x512
  natLt_1_32 : 1 < 32
  inb_S8x512_S1x512_0_0 : ∀ a, (![0, 0] : Fin 2 → Nat) a + S1x512.size a ≤ S8x512.size a
  h_S1x512 : 0 < S1x512.numel
  inpos_S1x1_p0_0 : ∀ a, (![0, 0] : Fin 2 → Nat) a < S1x1.size a
  inb_S8x128_S1x128_0_0 : ∀ a, (![0, 0] : Fin 2 → Nat) a + S1x128.size a ≤ S8x128.size a
  h_S1x128 : 0 < S1x128.numel
  shapeCasts_S1x128_S128 : S1x128.ShapeCasts S128
  shapeCasts_S128_S1x128 : S128.ShapeCasts S1x128
  inb_S8x512x64_S1x512x64_1_0_0 : ∀ a, (![1, 0, 0] : Fin 3 → Nat) a + S1x512x64.size a ≤ S8x512x64.size a
  inb_S8x512x512_S1x512x512_1_0_0 : ∀ a, (![1, 0, 0] : Fin 3 → Nat) a + S1x512x512.size a ≤ S8x512x512.size a
  inb_S8x512_S1x512_1_0 : ∀ a, (![1, 0] : Fin 2 → Nat) a + S1x512.size a ≤ S8x512.size a
  inb_S8x128_S1x128_1_0 : ∀ a, (![1, 0] : Fin 2 → Nat) a + S1x128.size a ≤ S8x128.size a
  inb_S8x512x64_S1x512x64_2_0_0 : ∀ a, (![2, 0, 0] : Fin 3 → Nat) a + S1x512x64.size a ≤ S8x512x64.size a
  inb_S8x512x512_S1x512x512_2_0_0 : ∀ a, (![2, 0, 0] : Fin 3 → Nat) a + S1x512x512.size a ≤ S8x512x512.size a
  inb_S8x512_S1x512_2_0 : ∀ a, (![2, 0] : Fin 2 → Nat) a + S1x512.size a ≤ S8x512.size a
  inb_S8x128_S1x128_2_0 : ∀ a, (![2, 0] : Fin 2 → Nat) a + S1x128.size a ≤ S8x128.size a
  inb_S8x512x64_S1x512x64_3_0_0 : ∀ a, (![3, 0, 0] : Fin 3 → Nat) a + S1x512x64.size a ≤ S8x512x64.size a
  inb_S8x512x512_S1x512x512_3_0_0 : ∀ a, (![3, 0, 0] : Fin 3 → Nat) a + S1x512x512.size a ≤ S8x512x512.size a
  inb_S8x512_S1x512_3_0 : ∀ a, (![3, 0] : Fin 2 → Nat) a + S1x512.size a ≤ S8x512.size a
  inb_S8x128_S1x128_3_0 : ∀ a, (![3, 0] : Fin 2 → Nat) a + S1x128.size a ≤ S8x128.size a
  inb_S8x512x64_S1x512x64_4_0_0 : ∀ a, (![4, 0, 0] : Fin 3 → Nat) a + S1x512x64.size a ≤ S8x512x64.size a
  inb_S8x512x512_S1x512x512_4_0_0 : ∀ a, (![4, 0, 0] : Fin 3 → Nat) a + S1x512x512.size a ≤ S8x512x512.size a
  inb_S8x512_S1x512_4_0 : ∀ a, (![4, 0] : Fin 2 → Nat) a + S1x512.size a ≤ S8x512.size a
  inb_S8x128_S1x128_4_0 : ∀ a, (![4, 0] : Fin 2 → Nat) a + S1x128.size a ≤ S8x128.size a
  inb_S8x512x64_S1x512x64_5_0_0 : ∀ a, (![5, 0, 0] : Fin 3 → Nat) a + S1x512x64.size a ≤ S8x512x64.size a
  inb_S8x512x512_S1x512x512_5_0_0 : ∀ a, (![5, 0, 0] : Fin 3 → Nat) a + S1x512x512.size a ≤ S8x512x512.size a
  inb_S8x512_S1x512_5_0 : ∀ a, (![5, 0] : Fin 2 → Nat) a + S1x512.size a ≤ S8x512.size a
  inb_S8x128_S1x128_5_0 : ∀ a, (![5, 0] : Fin 2 → Nat) a + S1x128.size a ≤ S8x128.size a
  inb_S8x512x64_S1x512x64_6_0_0 : ∀ a, (![6, 0, 0] : Fin 3 → Nat) a + S1x512x64.size a ≤ S8x512x64.size a
  inb_S8x512x512_S1x512x512_6_0_0 : ∀ a, (![6, 0, 0] : Fin 3 → Nat) a + S1x512x512.size a ≤ S8x512x512.size a
  inb_S8x512_S1x512_6_0 : ∀ a, (![6, 0] : Fin 2 → Nat) a + S1x512.size a ≤ S8x512.size a
  inb_S8x128_S1x128_6_0 : ∀ a, (![6, 0] : Fin 2 → Nat) a + S1x128.size a ≤ S8x128.size a
  inb_S8x512x64_S1x512x64_7_0_0 : ∀ a, (![7, 0, 0] : Fin 3 → Nat) a + S1x512x64.size a ≤ S8x512x64.size a
  inb_S8x512x512_S1x512x512_7_0_0 : ∀ a, (![7, 0, 0] : Fin 3 → Nat) a + S1x512x512.size a ≤ S8x512x512.size a
  inb_S8x512_S1x512_7_0 : ∀ a, (![7, 0] : Fin 2 → Nat) a + S1x512.size a ≤ S8x512.size a
  inb_S8x128_S1x128_7_0 : ∀ a, (![7, 0] : Fin 2 → Nat) a + S1x128.size a ≤ S8x128.size a
  slices_S128x128_S128x1_0_0 : S128x128.Slices ![0, 0] S128x1
  shapeCasts_S128x1_S128 : S128x1.ShapeCasts S128
  reducesTo_S128_S_d0 : S128.ReducesTo [0] S_
  h_S_ : 0 < S_.numel
  dot_S512x64_S64x512_S512x512_1_0_0_1_n_n_wf : DotDims.WF S512x64 S64x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x64.size a ≤ S128x512x64.size a
  hwx0_0 : ∀ i : grid0.Coords, EltTy.bits .f32 = 32 ∨ (Rect.block (s := S128x512x64) S8x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x64.size a ≤ S128x512x64.size a
  hwx0_1 : ∀ i : grid0.Coords, EltTy.bits .f32 = 32 ∨ (Rect.block (s := S128x512x64) S8x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x512.size a ≤ S128x512x512.size a
  hwx0_2 : ∀ i : grid0.Coords, EltTy.bits .i32 = 32 ∨ (Rect.block (s := S128x512x512) S8x512x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S128x512.size a
  hwx0_3 : ∀ i : grid0.Coords, EltTy.bits .f32 = 32 ∨ (Rect.block (s := S128x512) S8x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S128x128.size a
  hwx0_4 : ∀ i : grid0.Coords, EltTy.bits .f32 = 32 ∨ (Rect.block (s := S128x128) S8x128.size (cc0_transform_4 i) (hinb0_4 i)).WholeWords (EltTy.packing .f32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf

abbrev win0_0 : Pipeline.Window sig grid0 :=
  Pipeline.Window.ofSpec (Memref.whole main_arg0) S8x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S8x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x512x64 : Shape := ⟨3, ![128, 512, 64]⟩
abbrev S128x512x512 : Shape := ⟨3, ![128, 512, 512]⟩
abbrev S_ : Shape := ⟨0, ![]⟩
abbrev S128x512 : Shape := ⟨2, ![128, 512]⟩
abbrev S128x1x512 : Shape := ⟨3, ![128, 1, 512]⟩
abbrev S128 : Shape := ⟨1, ![128]⟩
abbrev S128x1 : Shape := ⟨2, ![128, 1]⟩
abbrev S128x512x1 : Shape := ⟨3, ![128, 512, 1]⟩

abbrev nBuf : Space → Nat
  | .hbm => 154
  | .vmem => 0
  | .smem => 0
  | _ => 0

abbrev hbmTy0_0 (i : Nat) : BufTy := match i % 128 with
  | 0 => ⟨S128x512x64, .f32⟩
  | 1 => ⟨S128x512x64, .f32⟩
  | 2 => ⟨S128x512x512, .i32⟩
  | 3 => ⟨S128x512x512, .f32⟩
  | 4 => ⟨S_, .f32⟩
  | 5 => ⟨S128x512x512, .f32⟩
  | 6 => ⟨S128x512x512, .f32⟩
  | 7 => ⟨S_, .f32⟩
  | 8 => ⟨S128x512x512, .f32⟩
  | 9 => ⟨S128x512x512, .f32⟩
  | 10 => ⟨S_, .f32⟩
  | 11 => ⟨S128x512, .f32⟩
  | 12 => ⟨S_, .f32⟩
  | 13 => ⟨S128x512, .f32⟩
  | 14 => ⟨S_, .f32⟩
  | 15 => ⟨S128x512, .f32⟩
  | 16 => ⟨S128x512, .f32⟩
  | 17 => ⟨S128x512, .f32⟩
  | 18 => ⟨S_, .i32⟩
  | 19 => ⟨S_, .f32⟩
  | 20 => ⟨S128x512, .f32⟩
  | 21 => ⟨S128x1x512, .f32⟩
  | 22 => ⟨S_, .f32⟩
  | 23 => ⟨S128x1x512, .f32⟩
  | 24 => ⟨S128x1x512, .f32⟩
  | 25 => ⟨S128x512x512, .f32⟩
  | 26 => ⟨S128x512x512, .f32⟩
  | 27 => ⟨S128x512x512, .f32⟩
  | 28 => ⟨S_, .f32⟩
  | 29 => ⟨S_, .f32⟩
  | 30 => ⟨S_, .f32⟩
  | 31 => ⟨S_, .f32⟩
  | 32 => ⟨S128x512, .f32⟩
  | 33 => ⟨S128x512, .f32⟩
  | 34 => ⟨S128x512, .f32⟩
  | 35 => ⟨S_, .f32⟩
  | 36 => ⟨S_, .i1⟩
  | 37 => ⟨S_, .f32⟩
  | 38 => ⟨S_, .f32⟩
  | 39 => ⟨S128x512, .f32⟩
  | 40 => ⟨S128x512, .f32⟩
  | 41 => ⟨S128x512, .f32⟩
  | 42 => ⟨S128x512, .f32⟩
  | 43 => ⟨S_, .f32⟩
  | 44 => ⟨S128, .f32⟩
  | 45 => ⟨S_, .f32⟩
  | 46 => ⟨S128, .f32⟩
  | 47 => ⟨S128, .f32⟩
  | 48 => ⟨S128x1, .f32⟩
  | 49 => ⟨S128x512, .f32⟩
  | 50 => ⟨S128x512, .f32⟩
  | 51 => ⟨S128x512, .f32⟩
  | 52 => ⟨S_, .f32⟩
  | 53 => ⟨S128, .f32⟩
  | 54 => ⟨S128x1, .f32⟩
  | 55 => ⟨S128x512, .f32⟩
  | 56 => ⟨S128x512, .f32⟩
  | 57 => ⟨S_, .f32⟩
  | 58 => ⟨S128x512, .f32⟩
  | 59 => ⟨S_, .f32⟩
  | 60 => ⟨S128x512, .f32⟩
  | 61 => ⟨S_, .f32⟩
  | 62 => ⟨S128x512, .f32⟩
  | 63 => ⟨S128x512, .f32⟩
  | 64 => ⟨S128x512, .f32⟩
  | 65 => ⟨S_, .i32⟩
  | 66 => ⟨S_, .f32⟩
  | 67 => ⟨S128x512, .f32⟩
  | 68 => ⟨S128x512x1, .f32⟩
  | 69 => ⟨S_, .f32⟩
  | 70 => ⟨S128x512x1, .f32⟩
  | 71 => ⟨S128x512x1, .f32⟩
  | 72 => ⟨S128x512x512, .f32⟩
  | 73 => ⟨S128x512x512, .f32⟩
  | 74 => ⟨S128x512x512, .f32⟩
  | 75 => ⟨S_, .f32⟩
  | 76 => ⟨S_, .f32⟩
  | 77 => ⟨S_, .f32⟩
  | 78 => ⟨S_, .f32⟩
  | 79 => ⟨S128x512, .f32⟩
  | 80 => ⟨S128x512, .f32⟩
  | 81 => ⟨S128x512, .f32⟩
  | 82 => ⟨S_, .f32⟩
  | 83 => ⟨S_, .i1⟩
  | 84 => ⟨S_, .f32⟩
  | 85 => ⟨S_, .f32⟩
  | 86 => ⟨S128x512, .f32⟩
  | 87 => ⟨S128x512, .f32⟩
  | 88 => ⟨S128x512, .f32⟩
  | 89 => ⟨S128x512, .f32⟩
  | 90 => ⟨S_, .f32⟩
  | 91 => ⟨S128, .f32⟩
  | 92 => ⟨S_, .f32⟩
  | 93 => ⟨S128, .f32⟩
  | 94 => ⟨S128, .f32⟩
  | 95 => ⟨S128x1, .f32⟩
  | 96 => ⟨S128x512, .f32⟩
  | 97 => ⟨S128x512, .f32⟩
  | 98 => ⟨S128x512, .f32⟩
  | 99 => ⟨S_, .f32⟩
  | 100 => ⟨S128, .f32⟩
  | 101 => ⟨S128x1, .f32⟩
  | 102 => ⟨S128x512, .f32⟩
  | 103 => ⟨S128x512, .f32⟩
  | 104 => ⟨S_, .f32⟩
  | 105 => ⟨S_, .f32⟩
  | 106 => ⟨S_, .f32⟩
  | 107 => ⟨S128x512x512, .f32⟩
  | 108 => ⟨S128x512x512, .f32⟩
  | 109 => ⟨S_, .f32⟩
  | 110 => ⟨S128x512x512, .f32⟩
  | 111 => ⟨S128x512x512, .f32⟩
  | 112 => ⟨S128x512x512, .f32⟩
  | 113 => ⟨S128x512x512, .f32⟩
  | 114 => ⟨S_, .f32⟩
  | 115 => ⟨S128x512x512, .f32⟩
  | 116 => ⟨S128x512x512, .f32⟩
  | 117 => ⟨S128x512x512, .f32⟩
  | 118 => ⟨S128x512x512, .f32⟩
  | 119 => ⟨S_, .i32⟩
  | 120 => ⟨S128x512x512, .i32⟩
  | 121 => ⟨S128x512x512, .i1⟩
  | 122 => ⟨S128x512x512, .f32⟩
  | 123 => ⟨S_, .i32⟩
  | 124 => ⟨S128x512x512, .i32⟩
  | 125 => ⟨S128x512x512, .i1⟩
  | 126 => ⟨S128x512x512, .f32⟩
  | 127 => ⟨S128x1x512, .f32⟩
  | _ => ⟨S128x512x64, .f32⟩

abbrev hbmTy0_1 (i : Nat) : BufTy := match i % 128 with
  | 0 => ⟨S128x512x512, .f32⟩
  | 1 => ⟨S128x512x512, .f32⟩
  | 2 => ⟨S128x512x512, .f32⟩
  | 3 => ⟨S_, .f32⟩
  | 4 => ⟨S128, .f32⟩
  | 5 => ⟨S128x512x1, .f32⟩
  | 6 => ⟨S128x512x512, .f32⟩
  | 7 => ⟨S128x512x512, .f32⟩
  | 8 => ⟨S128x512x512, .f32⟩
  | 9 => ⟨S_, .f32⟩
  | 10 => ⟨S128, .f32⟩
  | 11 => ⟨S128x512x512, .f32⟩
  | 12 => ⟨S_, .f32⟩
  | 13 => ⟨S128, .f32⟩
  | 14 => ⟨S_, .f32⟩
  | 15 => ⟨S128, .f32⟩
  | 16 => ⟨S128, .f32⟩
  | 17 => ⟨S128, .f32⟩
  | 18 => ⟨S_, .f32⟩
  | 19 => ⟨S128, .f32⟩
  | 20 => ⟨S128, .f32⟩
  | 21 => ⟨S128, .f32⟩
  | 22 => ⟨S_, .f32⟩
  | 23 => ⟨S_, .f32⟩
  | 24 => ⟨S_, .f32⟩
  | 25 => ⟨S_, .f32⟩
  | _ => ⟨S128x512x64, .f32⟩

abbrev hbmTy (i : Nat) : BufTy := match i / 128 with
  | 0 => hbmTy0_0 i
  | 1 => hbmTy0_1 i
  | _ => ⟨S128x512x64, .f32⟩

abbrev bufTy : (tb : Table) → Fin (tcTables nBuf tb) → BufTy
  | .hbm, ⟨i, _⟩ => hbmTy i
  | _, _ => ⟨S128x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_cst_0 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_cst_1 : Ref sig .tc := ⟨.hbm, 29, rfl⟩
abbrev main_call0_call0_v8 : Ref sig .tc := ⟨.hbm, 30, rfl⟩
abbrev main_call0_call0_cst_2 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_call0_cst_3 : Ref sig .tc := ⟨.hbm, 35, rfl⟩
abbrev main_call0_call0_v12 : Ref sig .tc := ⟨.hbm, 36, rfl⟩
abbrev main_call0_call0_cst_4 : Ref sig .tc := ⟨.hbm, 37, rfl⟩
abbrev main_call0_call0_call0_v0 : Ref sig .tc := ⟨.hbm, 38, rfl⟩
abbrev main_call0_call0_call0_v1 : Ref sig .tc := ⟨.hbm, 39, rfl⟩
abbrev main_call0_v0 : Ref sig .tc := ⟨.hbm, 40, rfl⟩
abbrev main_v10 : Ref sig .tc := ⟨.hbm, 41, rfl⟩
abbrev main_v11 : Ref sig .tc := ⟨.hbm, 42, rfl⟩
abbrev main_cst_4 : Ref sig .tc := ⟨.hbm, 43, rfl⟩
abbrev main_v12 : Ref sig .tc := ⟨.hbm, 44, rfl⟩
abbrev main_cst_5 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_cst_6 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_cst_7 : Ref sig .tc := ⟨.hbm, 57, rfl⟩
abbrev main_v23 : Ref sig .tc := ⟨.hbm, 58, rfl⟩
abbrev main_cst_8 : Ref sig .tc := ⟨.hbm, 59, rfl⟩
abbrev main_v24 : Ref sig .tc := ⟨.hbm, 60, rfl⟩
abbrev main_cst_9 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_c_10 : Ref sig .tc := ⟨.hbm, 65, rfl⟩
abbrev main_call1_call0_cst : Ref sig .tc := ⟨.hbm, 66, rfl⟩
abbrev main_call1_call0_v0 : Ref sig .tc := ⟨.hbm, 67, rfl⟩
abbrev main_call1_call0_v1 : Ref sig .tc := ⟨.hbm, 68, rfl⟩
abbrev main_call1_call0_cst_0 : Ref sig .tc := ⟨.hbm, 69, rfl⟩
abbrev main_call1_call0_v2 : Ref sig .tc := ⟨.hbm, 70, rfl⟩
abbrev main_call1_call0_v3 : Ref sig .tc := ⟨.hbm, 71, rfl⟩
abbrev main_call1_call0_v4 : Ref sig .tc := ⟨.hbm, 72, rfl⟩
abbrev main_call1_call0_v5 : Ref sig .tc := ⟨.hbm, 73, rfl⟩
abbrev main_call1_call0_v6 : Ref sig .tc := ⟨.hbm, 74, rfl⟩
abbrev main_call1_call0_v7 : Ref sig .tc := ⟨.hbm, 75, rfl⟩
abbrev main_call1_call0_cst_1 : Ref sig .tc := ⟨.hbm, 76, rfl⟩
abbrev main_call1_call0_v8 : Ref sig .tc := ⟨.hbm, 77, rfl⟩
abbrev main_call1_call0_cst_2 : Ref sig .tc := ⟨.hbm, 78, rfl⟩
abbrev main_call1_call0_v9 : Ref sig .tc := ⟨.hbm, 79, rfl⟩
abbrev main_call1_call0_v10 : Ref sig .tc := ⟨.hbm, 80, rfl⟩
abbrev main_call1_call0_v11 : Ref sig .tc := ⟨.hbm, 81, rfl⟩
abbrev main_call1_call0_cst_3 : Ref sig .tc := ⟨.hbm, 82, rfl⟩
abbrev main_call1_call0_v12 : Ref sig .tc := ⟨.hbm, 83, rfl⟩
abbrev main_call1_call0_cst_4 : Ref sig .tc := ⟨.hbm, 84, rfl⟩
abbrev main_call1_call0_call0_v0 : Ref sig .tc := ⟨.hbm, 85, rfl⟩
abbrev main_call1_call0_call0_v1 : Ref sig .tc := ⟨.hbm, 86, rfl⟩
abbrev main_call1_v0 : Ref sig .tc := ⟨.hbm, 87, rfl⟩
abbrev main_v28 : Ref sig .tc := ⟨.hbm, 88, rfl⟩
abbrev main_v29 : Ref sig .tc := ⟨.hbm, 89, rfl⟩
abbrev main_cst_11 : Ref sig .tc := ⟨.hbm, 90, rfl⟩
abbrev main_v30 : Ref sig .tc := ⟨.hbm, 91, rfl⟩
abbrev main_cst_12 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_cst_13 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_cst_14 : Ref sig .tc := ⟨.hbm, 104, rfl⟩
abbrev main_cst_15 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_cst_16 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_c_17 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_c_18 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_cst_19 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_cst_20 : Ref sig .tc := ⟨.hbm, 137, rfl⟩
abbrev main_v63 : Ref sig .tc := ⟨.hbm, 138, rfl⟩
abbrev main_v64 : Ref sig .tc := ⟨.hbm, 139, rfl⟩
abbrev main_cst_21 : Ref sig .tc := ⟨.hbm, 140, rfl⟩
abbrev main_v65 : Ref sig .tc := ⟨.hbm, 141, rfl⟩
abbrev main_cst_22 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_cst_23 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_cst_24 : Ref sig .tc := ⟨.hbm, 150, rfl⟩
abbrev main_v72 : Ref sig .tc := ⟨.hbm, 151, rfl⟩
abbrev main_cst_25 : Ref sig .tc := ⟨.hbm, 152, rfl⟩
abbrev main_v73 : Ref sig .tc := ⟨.hbm, 153, rfl⟩

abbrev nD : Nat := 1
abbrev τ : Topo := Topo.v7x

variable {F : FTy → Type} [FloatOps F]

class Facts₀ : Prop where
  bcast_S_S128x512x512 : S_.BroadcastsInDim S128x512x512 (![] : Fin 0 → Fin S128x512x512.rank)
  reducesTo_S128x512x512_S128x512_d1 : S128x512x512.ReducesTo [1] S128x512
  h_S_ : 0 < S_.numel
  bcast_S_S128x512 : S_.BroadcastsInDim S128x512 (![] : Fin 0 → Fin S128x512.rank)
  bcast_S128x512_S128x1x512_0_2 : S128x512.BroadcastsInDim S128x1x512 (![0, 2] : Fin 2 → Fin S128x1x512.rank)
  bcast_S_S128x1x512 : S_.BroadcastsInDim S128x1x512 (![] : Fin 0 → Fin S128x1x512.rank)
  bcast_S128x1x512_S128x512x512_0_1_2 : S128x1x512.BroadcastsInDim S128x512x512 (![0, 1, 2] : Fin 3 → Fin S128x512x512.rank)
  reducesTo_S128x512_S128_d1 : S128x512.ReducesTo [1] S128
  bcast_S_S128 : S_.BroadcastsInDim S128 (![] : Fin 0 → Fin S128.rank)
  bcast_S128_S128x1_0 : S128.BroadcastsInDim S128x1 (![0] : Fin 1 → Fin S128x1.rank)
  bcast_S128x1_S128x512_0_1 : S128x1.BroadcastsInDim S128x512 (![0, 1] : Fin 2 → Fin S128x512.rank)
  reducesTo_S128x512x512_S128x512_d2 : S128x512x512.ReducesTo [2] S128x512
  bcast_S128x512_S128x512x1_0_1 : S128x512.BroadcastsInDim S128x512x1 (![0, 1] : Fin 2 → Fin S128x512x1.rank)
  bcast_S_S128x512x1 : S_.BroadcastsInDim S128x512x1 (![] : Fin 0 → Fin S128x512x1.rank)
  bcast_S128x512x1_S128x512x512_0_1_2 : S128x512x1.BroadcastsInDim S128x512x512 (![0, 1, 2] : Fin 3 → Fin S128x512x512.rank)
  reducesTo_S128x512x512_S128_d1_2 : S128x512x512.ReducesTo [1, 2] S128
  reducesTo_S128_S_d0 : S128.ReducesTo [0] S_
  dot_S128x512x64_S128x512x64_S128x512x512_2_2_1_1_0_0_wf : DotDims.WF S128x512x64 S128x512x64 S128x512x512 [2] [2] [1] [1] [0] [0]

variable [Facts₀]

def dot_S128x512x64_S128x512x64_S128x512x512_2_2_1_1_0_0 : DotDims S128x512x64 S128x512x64 S128x512x512 where
  lhsContracting := [2]
  rhsContracting := [2]
  lhsNonContracting := [1]
  rhsNonContracting := [1]
  lhsBatch := [0]
  rhsBatch := [0]
  wf := dot_S128x512x64_S128x512x64_S128x512x512_2_2_1_1_0_0_wf

class Facts : Prop extends Facts₀ where

variable [Facts]
-- ==== Proof.KernelSample.lean ====
/-
  One sample of the kernel's body as two functions of the sample's three loaded blocks: the body is the same
  computation unrolled over the eight samples of a block, and each sample's two stored values are these functions of
  that sample's rows of the q, k and label blocks.
-/
import proofs.«419364_j58136677319222_3_alg».proof.Proof.Gen.KernelIdeal.Skeleton

noncomputable section

namespace Cert.KernelSample

open Cert.KernelIdeal Cert.KernelIdeal.Gen Idealize.ShloMosaic

variable {F : FTy → Type} [FloatOps F]

/-- One sample's column sharpness (a [1, 512] row) from the sample's q and k rows. -/
def sharpK (a b : Vec F S1x512x64 .f32) : FVec F S1x512 .f32 := k0_pay3 a b

/-- One sample's loss, splat over a [1, 128] row, from the sample's q, k and label rows. -/
def lossK (a b : Vec F S1x512x64 .f32) (l : Vec F S1x512x512 .i32) : FVec F S1x128 .f32 :=
  k0_pay14 (k0_pay6 (k0_pay2 a b) (k0_pay4 a b) k0_pay5) (k0_pay8 (k0_pay2 a b)) (k0_pay9 (k0_pay2 a b))
    (k0_pay11 l) (k0_pay12 l) (k0_pay13 (k0_pay3 a b))

end Cert.KernelSample

end
-- ==== Proof.KernelPieces.lean ====
/- What the body leaves in the two output blocks: eight rows each, row j the per-sample function of sample j's rows
   of the three input blocks (the unrolled body is the same computation eight times). -/
import proofs.«419364_j58136677319222_3_alg».proof.Proof.KernelSample
import proofs.«419364_j58136677319222_3_alg».proof.Proof.Gen.KernelIdeal.Frame

noncomputable section

namespace Cert.KernelSample

open Cert.KernelIdeal Cert.KernelIdeal.Gen Idealize.ShloMosaic

variable {F : FTy → Type} [FloatOps F]

/-! ## Each sample's sharpness row is the one function `sharpK` of that sample's q and k rows

The eight unrolled copies of the body are cut into named values at different places, but each applies the same
operations in the same order to its sample's rows, so each equation holds by unfolding the names. -/

theorem sharpPiece0 (a b : Vec F S1x512x64 .f32) : k0_pay3 a b = sharpK a b := rfl

set_option maxRecDepth 8192 in
theorem sharpPiece1 (a b : Vec F S1x512x64 .f32) : k0_pay18 (k0_pay15 a) (k0_pay16 b) = sharpK a b := rfl

set_option maxRecDepth 8192 in
theorem sharpPiece2 (a b : Vec F S1x512x64 .f32) : k0_pay33 (k0_pay31 a b) (k0_pay32 a b) = sharpK a b := rfl

set_option maxRecDepth 8192 in
theorem sharpPiece3 (a b : Vec F S1x512x64 .f32) :
    k0_pay50 (k0_pay47 a b) (k0_pay48 a b) (k0_pay49 a b) (Scalar.ofBits .f32 0x43FF8000#32) = sharpK a b := rfl

set_option maxRecDepth 8192 in
theorem sharpPiece4 (a b : Vec F S1x512x64 .f32) : k0_pay60 (k0_pay58 a b) (k0_pay59 a b) = sharpK a b := rfl

set_option maxRecDepth 8192 in
theorem sharpPiece5 (a b : Vec F S1x512x64 .f32) : k0_pay69 a b = sharpK a b := rfl

set_option maxRecDepth 8192 in
theorem sharpPiece6 (a b : Vec F S1x512x64 .f32) :
    k0_pay84 (k0_pay82 a b) (Scalar.ofBits .f32 0x3F800000#32) = sharpK a b := rfl

set_option maxRecDepth 8192 in
theorem sharpPiece7 (a b : Vec F S1x512x64 .f32) :
    k0_pay99 (k0_pay96 a b) (k0_pay97 a b) (k0_pay98 a b) = sharpK a b := rfl

/-! ## Each sample's loss row is the one function `lossK` of that sample's q, k and label rows -/

set_option maxRecDepth 8192 in
theorem lossPiece0 (a b : Vec F S1x512x64 .f32) (l : Vec F S1x512x512 .i32) :
    k0_pay14 (k0_pay6 (k0_pay2 a b) (k0_pay4 a b) (k0_pay5 (F := F))) (k0_pay8 (k0_pay2 a b)) (k0_pay9 (k0_pay2 a b)) (k0_pay11 l) (k0_pay12 l) (k0_pay13 (k0_pay3 a b))
      = lossK a b l := rfl

set_option maxRecDepth 8192 in
theorem lossPiece1 (a b : Vec F S1x512x64 .f32) (l : Vec F S1x512x512 .i32) :
    k0_pay30 (k0_pay24 (k0_pay17 (k0_pay15 a) (k0_pay16 b))) (k0_pay27 l) (k0_pay28 (k0_pay17 (k0_pay15 a) (k0_pay16 b)) (k0_pay18 (k0_pay15 a) (k0_pay16 b)) l) (k0_pay29 (k0_pay17 (k0_pay15 a) (k0_pay16 b)) (k0_pay19 (k0_pay15 a) (k0_pay16 b)) (k0_pay20 (k0_pay15 a) (k0_pay16 b)) (k0_pay21 (k0_pay15 a) (k0_pay16 b)) l)
      = lossK a b l := rfl

set_option maxRecDepth 8192 in
theorem lossPiece2 (a b : Vec F S1x512x64 .f32) (l : Vec F S1x512x512 .i32) :
    k0_pay45 (k0_pay41 (k0_pay31 a b) (k0_pay33 (k0_pay31 a b) (k0_pay32 a b)) l) (k0_pay42 (k0_pay31 a b) (k0_pay34 (k0_pay31 a b)) (k0_pay35 (k0_pay31 a b)) l) (k0_pay43 (k0_pay31 a b) l) (k0_pay44 l)
      = lossK a b l := rfl

set_option maxRecDepth 8192 in
theorem lossPiece3 (a b : Vec F S1x512x64 .f32) (l : Vec F S1x512x512 .i32) :
    k0_pay56 (k0_pay55 (k0_pay50 (k0_pay47 a b) (k0_pay48 a b) (k0_pay49 a b) (Scalar.ofBits .f32 0x43FF8000#32)) (k0_pay51 (k0_pay46 a b)) (k0_pay52 (k0_pay46 a b)) (k0_pay53 (k0_pay46 a b)) (k0_pay54 (F := F)) l)
      = lossK a b l := rfl

set_option maxRecDepth 8192 in
theorem lossPiece4 (a b : Vec F S1x512x64 .f32) (l : Vec F S1x512x512 .i32) :
    k0_pay67 (k0_pay60 (k0_pay58 a b) (k0_pay59 a b)) (k0_pay61 (k0_pay57 a b)) (k0_pay63 (k0_pay57 a b)) (k0_pay64 (k0_pay57 a b)) (k0_pay65 l) (k0_pay66 l)
      = lossK a b l := rfl

set_option maxRecDepth 8192 in
theorem lossPiece5 (a b : Vec F S1x512x64 .f32) (l : Vec F S1x512x512 .i32) :
    k0_pay81 (k0_pay73 (k0_pay68 a b) (k0_pay70 a b) (k0_pay71 a b) (k0_pay72 a b)) (k0_pay75 (k0_pay68 a b)) (k0_pay76 (k0_pay68 a b)) (k0_pay78 l) (k0_pay79 l) (k0_pay80 (k0_pay68 a b) (k0_pay69 a b) l)
      = lossK a b l := rfl

set_option maxRecDepth 8192 in
theorem lossPiece6 (a b : Vec F S1x512x64 .f32) (l : Vec F S1x512x512 .i32) :
    k0_pay95 (k0_pay91 l) (k0_pay92 (k0_pay83 (k0_pay82 a b) (Scalar.ofBits .f32 0x3F800000#32)) (k0_pay84 (k0_pay82 a b) (Scalar.ofBits .f32 0x3F800000#32)) l) (k0_pay93 (k0_pay83 (k0_pay82 a b) (Scalar.ofBits .f32 0x3F800000#32)) (k0_pay85 (k0_pay82 a b) (Scalar.ofBits .f32 0x3F800000#32)) (k0_pay86 (k0_pay82 a b) (Scalar.ofBits .f32 0x3F800000#32)) l) (k0_pay94 (k0_pay83 (k0_pay82 a b) (Scalar.ofBits .f32 0x3F800000#32)) l)
      = lossK a b l := rfl

set_option maxRecDepth 8192 in
theorem lossPiece7 (a b : Vec F S1x512x64 .f32) (l : Vec F S1x512x512 .i32) :
    k0_pay1 (k0_pay106 (k0_pay99 (k0_pay96 a b) (k0_pay97 a b) (k0_pay98 a b)) (Scalar.ofBits .f32 0x3F7FFFEF#32) (k0_pay101 (k0_pay96 a b)) l) (k0_pay107 (k0_pay100 (k0_pay96 a b)) (Scalar.ofBits .f32 0x3F7FFFEF#32) (k0_pay101 (k0_pay96 a b)) l) (k0_pay108 (Scalar.ofBits .f32 0x3F7FFFEF#32) (k0_pay101 (k0_pay96 a b)) l)
      = lossK a b l := rfl

/-- The sharpness block: row j is `sharpK` of rows j of the q and k blocks. -/
theorem out3_eq (x0 x1 : Vec F S8x512x64 .f32) (x2 : Vec F S8x512x512 .i32) :
    out0_3 x0 x1 x2 = View.canon
      [⟨r0_30, sharpK (View.ld x0 r0_28) (View.ld x1 r0_28)⟩,
      ⟨r0_26, sharpK (View.ld x0 r0_24) (View.ld x1 r0_24)⟩,
      ⟨r0_22, sharpK (View.ld x0 r0_20) (View.ld x1 r0_20)⟩,
      ⟨r0_18, sharpK (View.ld x0 r0_16) (View.ld x1 r0_16)⟩,
      ⟨r0_14, sharpK (View.ld x0 r0_12) (View.ld x1 r0_12)⟩,
      ⟨r0_10, sharpK (View.ld x0 r0_8) (View.ld x1 r0_8)⟩,
      ⟨r0_6, sharpK (View.ld x0 r0_4) (View.ld x1 r0_4)⟩,
      ⟨r0_2, sharpK (View.ld x0 r0_0) (View.ld x1 r0_0)⟩] := by
  unfold out0_3
  rw [sharpPiece7, sharpPiece6, sharpPiece5, sharpPiece4, sharpPiece3, sharpPiece2, sharpPiece1, sharpPiece0]

/-- The loss block: row j is `lossK` of rows j of the q, k and label blocks. -/
theorem out4_eq (x0 x1 : Vec F S8x512x64 .f32) (x2 : Vec F S8x512x512 .i32) :
    out0_4 x0 x1 x2 = View.canon
      [⟨r0_31, lossK (View.ld x0 r0_28) (View.ld x1 r0_28) (View.ld x2 r0_29)⟩,
      ⟨r0_27, lossK (View.ld x0 r0_24) (View.ld x1 r0_24) (View.ld x2 r0_25)⟩,
      ⟨r0_23, lossK (View.ld x0 r0_20) (View.ld x1 r0_20) (View.ld x2 r0_21)⟩,
      ⟨r0_19, lossK (View.ld x0 r0_16) (View.ld x1 r0_16) (View.ld x2 r0_17)⟩,
      ⟨r0_15, lossK (View.ld x0 r0_12) (View.ld x1 r0_12) (View.ld x2 r0_13)⟩,
      ⟨r0_11, lossK (View.ld x0 r0_8) (View.ld x1 r0_8) (View.ld x2 r0_9)⟩,
      ⟨r0_7, lossK (View.ld x0 r0_4) (View.ld x1 r0_4) (View.ld x2 r0_5)⟩,
      ⟨r0_3, lossK (View.ld x0 r0_0) (View.ld x1 r0_0) (View.ld x2 r0_1)⟩] := by
  unfold out0_4
  rw [lossPiece7, lossPiece6, lossPiece5, lossPiece4, lossPiece3, lossPiece2, lossPiece1, lossPiece0]

end Cert.KernelSample

end
-- ==== Proof.Spec.lean ====
/-
  The mathematics both programs compute, stated once over the extended reals, index by index.

  One sample: from q, k ∈ ℝ^{512×64} the similarity sim(l, s) = (1 + ⟨q_l, k_s⟩)/2; for a family f of 512 values
  its "peak" (max f − mean f)/std f with the unbiased variance (divisor 511); sharp1 is the softmax over s of the
  peak of column s (over l), sharp2 the softmax over l of the peak of row l (over s). With sim clipped to
  [ε, 1 − ε], nll = −log sim, nllNeg = −log(1 − sim), and pos / neg the indicators of label 1 / label 0,
    loss = ½ (Σ nll·sharp1·pos + Σ nll·sharp2·pos) + (Σ nllNeg·neg)/(Σ neg),
  every sum over all (l, s), taken row by row. The batch's result is the sharp1 of every sample and the mean of the
  128 losses. Float literals stay the binary words the two programs share.
-/
import Idealize.ShloMosaic.PureOps.Ideal
import Idealize.ShloMosaic.Lib.ValueIdx

noncomputable section

namespace Cert.Sharpness

open Idealize.ShloMosaic Idealize.ShloMosaic.ValueIdx

abbrev cOne : EReal := Ideal.ofBits .f32 0x3F800000#32
abbrev cHalf : EReal := Ideal.ofBits .f32 0x3F000000#32
abbrev c512 : EReal := Ideal.ofBits .f32 0x44000000#32
abbrev c511 : EReal := Ideal.ofBits .f32 0x43FF8000#32
abbrev c128 : EReal := Ideal.ofBits .f32 0x43000000#32
abbrev cNegInf : EReal := Ideal.ofBits .f32 0xFF800000#32
abbrev cLo : EReal := Ideal.ofBits .f32 0x358637BD#32
abbrev cHi : EReal := Ideal.ofBits .f32 0x3F7FFFEF#32

/-- The similarity of query row `l` and key row `s`: (1 + ⟨q_l, k_s⟩) · ½. -/
def sim (q k : Fin 512 → Fin 64 → EReal) (l s : Fin 512) : EReal :=
  (cOne + ∑ c : Fin 64, q l c * k s c) * cHalf

/-- The mean of 512 values. -/
def mean (f : Fin 512 → EReal) : EReal := Ideal.div (∑ i : Fin 512, f i) c512

/-- (max − mean) / std of 512 values, the variance unbiased (divisor 511). -/
def peak (f : Fin 512 → EReal) : EReal :=
  Ideal.div ((Finset.univ : Finset (Fin 512)).fold max cNegInf f - mean f)
    (Ideal.sqrt (Ideal.div (∑ i : Fin 512, (f i - mean f) * (f i - mean f)) c511))

/-- The softmax of 512 values, shifted by their maximum. -/
def softmax (g : Fin 512 → EReal) (j : Fin 512) : EReal :=
  Ideal.div (Ideal.exp (g j - (Finset.univ : Finset (Fin 512)).fold max cNegInf g))
    (∑ i : Fin 512, Ideal.exp (g i - (Finset.univ : Finset (Fin 512)).fold max cNegInf g))

/-- Column sharpness: the softmax over the keys `s` of the peak of column `s` of the similarity. -/
def sharp1 (q k : Fin 512 → Fin 64 → EReal) (s : Fin 512) : EReal :=
  softmax (fun s' => peak fun l => sim q k l s') s

/-- Row sharpness: the softmax over the queries `l` of the peak of row `l` of the similarity. -/
def sharp2 (q k : Fin 512 → Fin 64 → EReal) (l : Fin 512) : EReal :=
  softmax (fun l' => peak fun s => sim q k l' s) l

/-- A value clipped to [ε, 1 − ε]. -/
def clipOf (x : EReal) : EReal := min cHi (max cLo x)

/-- The indicator of `w = v` as 1 or 0. -/
def ind (w v : BitVec 32) : EReal := (((IntOp.cmpi .eq w v).toNat : ℝ) : EReal)

/-- One sample's loss from its similarity matrix `x`, its column sharpness `s1` (per key), its row sharpness `s2`
    (per query) and its labels: with nll = −log (clip x) and nllNeg = −log (1 − clip x),
    ½ (Σ nll·s1·[lab = 1] + Σ nll·s2·[lab = 1]) + (Σ nllNeg·[lab = 0]) / (Σ [lab = 0]), each sum row by row. -/
def lossOf (x : Fin 512 → Fin 512 → EReal) (s1 s2 : Fin 512 → EReal) (lab : Fin 512 → Fin 512 → BitVec 32) : EReal :=
  ((∑ l : Fin 512, ∑ s : Fin 512, -Ideal.log (clipOf (x l s)) * s1 s * ind (lab l s) 1#32)
      + ∑ l : Fin 512, ∑ s : Fin 512, -Ideal.log (clipOf (x l s)) * s2 l * ind (lab l s) 1#32) * cHalf
    + Ideal.div (∑ l : Fin 512, ∑ s : Fin 512, -Ideal.log (cOne - clipOf (x l s)) * ind (lab l s) 0#32)
        (∑ l : Fin 512, ∑ s : Fin 512, ind (lab l s) 0#32)

/-- One sample's loss from its q, k and labels. -/
def loss (q k : Fin 512 → Fin 64 → EReal) (lab : Fin 512 → Fin 512 → BitVec 32) : EReal :=
  lossOf (sim q k) (sharp1 q k) (sharp2 q k) lab

/-- The mean of the 128 samples' losses. -/
def lossMean (q k : Fin 128 → Fin 512 → Fin 64 → EReal) (lab : Fin 128 → Fin 512 → Fin 512 → BitVec 32) : EReal :=
  Ideal.div (∑ b : Fin 128, loss (q b) (k b) (lab b)) c128

/-- The first result as an array of the two float argument arrays: entry (b, s) is sample `b`'s column sharpness at `s`. -/
def sharpArr (q k : (⟨3, ![128, 512, 64]⟩ : Shape).Idx → EReal) : (⟨2, ![128, 512]⟩ : Shape).Idx → EReal :=
  fun i => sharp1 (fun l c => q (ix3 (i 0 : Fin 128) l c)) (fun s c => k (ix3 (i 0 : Fin 128) s c)) (i 1 : Fin 512)

/-- The per-sample losses laid out as the kernel's padded [128, 128] array: row `b` holds sample `b`'s loss in every lane. -/
def lossPad (q k : (⟨3, ![128, 512, 64]⟩ : Shape).Idx → EReal) (lab : (⟨3, ![128, 512, 512]⟩ : Shape).Idx → BitVec 32) :
    (⟨2, ![128, 128]⟩ : Shape).Idx → EReal :=
  fun i => loss (fun l c => q (ix3 (i 0 : Fin 128) l c)) (fun s c => k (ix3 (i 0 : Fin 128) s c)) (fun l s => lab (ix3 (i 0 : Fin 128) l s))

/-- The second result, a scalar array: the mean loss of the three argument arrays. -/
def lossArr (q k : (⟨3, ![128, 512, 64]⟩ : Shape).Idx → EReal) (lab : (⟨3, ![128, 512, 512]⟩ : Shape).Idx → BitVec 32) :
    (⟨0, ![]⟩ : Shape).Idx → EReal :=
  fun _ => lossMean (fun b l c => q (ix3 b l c)) (fun b s c => k (ix3 b s c)) (fun b l s => lab (ix3 b l s))

end Cert.Sharpness

end
-- ==== Proof.KernelValueA.lean ====
/- One sample of the kernel, first half: the similarity block and the column sharpness, read index by index. -/
import proofs.«419364_j58136677319222_3_alg».proof.Proof.Spec
import proofs.«419364_j58136677319222_3_alg».proof.Proof.KernelSample
import Idealize.ShloMosaic.Lib.ValueIdx
import Idealize.ShloMosaic.Lib.ValueLayout
import Idealize.ShloMosaic.Lib.Pipeline.Value
import Idealize.ShloMosaic.PureOps.Ideal.Laws

noncomputable section

namespace Cert.KernelSample

open Cert.KernelIdeal Cert.KernelIdeal.Gen Idealize.ShloMosaic Idealize.ShloMosaic.ValueIdx

/-- The product's left operand index on its row axis is the result's row. -/
private theorem mm_lhs_0 (j : S512x512.Idx) (k : (dot_S512x64_S64x512_S512x512_1_0_0_1_n_n).contr.Idx) :
    ((dot_S512x64_S64x512_S512x512_1_0_0_1_n_n).lhsIdx j k (0 : Fin 2)).val = (j (0 : Fin 2)).val := by
  unfold DotDims.lhsIdx
  rw [dif_neg (show ¬ (0 : Fin S512x64.rank) ∈ (dot_S512x64_S64x512_S512x512_1_0_0_1_n_n).lhsBatch by decide),
    dif_pos (show (0 : Fin S512x64.rank) ∈ (dot_S512x64_S64x512_S512x512_1_0_0_1_n_n).lhsNonContracting by decide)]
  rfl

private theorem mm_lhs_1 (j : S512x512.Idx) (k : (dot_S512x64_S64x512_S512x512_1_0_0_1_n_n).contr.Idx) :
    ((dot_S512x64_S64x512_S512x512_1_0_0_1_n_n).lhsIdx j k (1 : Fin 2)).val = (k ⟨0, by decide⟩).val :=
  (dot_S512x64_S64x512_S512x512_1_0_0_1_n_n).lhsIdx_val_of_single rfl j k

private theorem mm_rhs_0 (j : S512x512.Idx) (k : (dot_S512x64_S64x512_S512x512_1_0_0_1_n_n).contr.Idx) :
    ((dot_S512x64_S64x512_S512x512_1_0_0_1_n_n).rhsIdx j k (0 : Fin 2)).val = (k ⟨0, by decide⟩).val :=
  (dot_S512x64_S64x512_S512x512_1_0_0_1_n_n).rhsIdx_val_of_single rfl j k

private theorem mm_rhs_1 (j : S512x512.Idx) (k : (dot_S512x64_S64x512_S512x512_1_0_0_1_n_n).contr.Idx) :
    ((dot_S512x64_S64x512_S512x512_1_0_0_1_n_n).rhsIdx j k (1 : Fin 2)).val = (j (1 : Fin 2)).val := by
  unfold DotDims.rhsIdx
  rw [dif_neg (show ¬ (1 : Fin S64x512.rank) ∈ (dot_S512x64_S64x512_S512x512_1_0_0_1_n_n).rhsBatch by decide),
    dif_pos (show (1 : Fin S64x512.rank) ∈ (dot_S512x64_S64x512_S512x512_1_0_0_1_n_n).rhsNonContracting by decide)]
  rfl

/-- The matrix product into a zero accumulator at (l, s): the sum over the 64 contracted coordinates. -/
private theorem matmul_ix (x : FVec Ideal S512x64 .bf16) (y : FVec Ideal S64x512 .bf16) (l s : Fin 512) :
    matmul dot_S512x64_S64x512_S512x512_1_0_0_1_n_n none x y (constant (F := Ideal) S512x512 .f32 0x00000000#32) (ix2 l s)
      = ∑ c : Fin 64, x (ix2 l c) * y (ix2 c s) := by
  simp only [matmul]
  rw [Ideal.matmul_constant_zero_apply,
    ← Equiv.sum_comp (contrEquiv1 dot_S512x64_S64x512_S512x512_1_0_0_1_n_n 64 rfl rfl).symm]
  refine Finset.sum_congr rfl fun c _ => ?_
  have hc := contrEquiv1_symm_val dot_S512x64_S64x512_S512x512_1_0_0_1_n_n 64 rfl rfl c
  have hl : (dot_S512x64_S64x512_S512x512_1_0_0_1_n_n).lhsIdx (ix2 l s)
      ((contrEquiv1 dot_S512x64_S64x512_S512x512_1_0_0_1_n_n 64 rfl rfl).symm c) = ix2 l c := by
    funext ax; apply Fin.ext
    match ax with
    | ⟨0, _⟩ => exact mm_lhs_0 _ _
    | ⟨1, _⟩ => exact (mm_lhs_1 _ _).trans hc
  have hr : (dot_S512x64_S64x512_S512x512_1_0_0_1_n_n).rhsIdx (ix2 l s)
      ((contrEquiv1 dot_S512x64_S64x512_S512x512_1_0_0_1_n_n 64 rfl rfl).symm c) = ix2 c s := by
    funext ax; apply Fin.ext
    match ax with
    | ⟨0, _⟩ => exact (mm_rhs_0 _ _).trans hc
    | ⟨1, _⟩ => exact mm_rhs_1 _ _
  rw [hl, hr]

/-- The sample's similarity matrix at (l, s). -/
theorem pay2_apply (a b : Vec Ideal S1x512x64 .f32) (l s : Fin 512) :
    k0_pay2 (F := Ideal) a b (ix2 l s)
      = Cert.Sharpness.sim (fun l' c => a (ix3 (0 : Fin 1) l' c)) (fun s' c => b (ix3 (0 : Fin 1) s' c)) l s := by
  unfold k0_pay2 Cert.Sharpness.sim
  simp only [mulf_apply, addf_apply, broadcast_apply, matmul_ix]
  refine congrArg (fun t => (Cert.Sharpness.cOne + t) * Cert.Sharpness.cHalf) (Finset.sum_congr rfl fun c _ => ?_)
  refine congrArg₂ (· * ·) ?_ ?_
  · exact shapeCast_1ab_ab_apply a _ l c
  · exact (transpose_ix2_apply _ _ c s).trans (shapeCast_1ab_ab_apply b _ s c)

/-- A sum over the rows of a 512 × 512 matrix, kept as a [1, 512] row, at column s. -/
private theorem colSum_row (x : FVec Ideal S512x512 .f32) (h : S512x512.Reduces [0] S512) (hφ : FKind.Formats .f32)
    (hacc : (0x00000000#32 : BitVec 32) = FKind.add.neutral .f32 hφ) (h' : S512.ShapeCasts S1x512) (u : Fin 1) (s : Fin 512) :
    shapeCast S1x512 (multiReduction .add [0] S512 x 0x00000000#32 h hφ hacc) h' (ix2 u s) = ∑ l : Fin 512, x (ix2 l s) := by
  refine (shapeCast_a_1a_apply _ h' u s).trans ?_
  refine (Ideal.multiReduction_add_single x _ h hφ hacc (ix1 s)).trans ?_
  refine Finset.sum_congr rfl fun l _ => congrArg x ?_
  funext c; apply Fin.ext
  match c with
  | ⟨0, _⟩ => rfl
  | ⟨1, _⟩ => rfl

/-- The maximum over the rows of a 512 × 512 matrix, kept as a [1, 512] row, at column s. -/
private theorem colMax_row (x : FVec Ideal S512x512 .f32) (h : S512x512.Reduces [0] S512) (hφ : FKind.Formats .f32)
    (hacc : (0xFF800000#32 : BitVec 32) = FKind.maximumf.neutral .f32 hφ) (h' : S512.ShapeCasts S1x512) (u : Fin 1) (s : Fin 512) :
    shapeCast S1x512 (multiReduction .maximumf [0] S512 x 0xFF800000#32 h hφ hacc) h' (ix2 u s)
      = (Finset.univ : Finset (Fin 512)).fold max Cert.Sharpness.cNegInf (fun l => x (ix2 l s)) := by
  refine (shapeCast_a_1a_apply _ h' u s).trans ?_
  refine (Ideal.multiReduction_maximumf_single x _ h hφ hacc (ix1 s)).trans ?_
  have e : (x ∘ h.lift (ix1 s) : Fin 512 → EReal) = fun l : Fin 512 => x (ix2 l s) := by
    funext l
    refine congrArg x ?_
    funext c; apply Fin.ext
    match c with
    | ⟨0, _⟩ => rfl
    | ⟨1, _⟩ => rfl
  exact congrArg (fun f : Fin 512 → EReal => (Finset.univ : Finset (Fin 512)).fold max Cert.Sharpness.cNegInf f) e

/-- The sum of a [1, 512] row, kept as [1, 1] and spread back over the row. -/
private theorem rowSum_spread (r : FVec Ideal S1x512 .f32) (h : S1x512.Reduces [1] S1) (hφ : FKind.Formats .f32)
    (hacc : (0x00000000#32 : BitVec 32) = FKind.add.neutral .f32 hφ) (h' : S1.ShapeCasts S1x1) (h'' : S1x1.Broadcasts S1x512)
    (u : Fin 1) (s : Fin 512) :
    broadcastTo S1x512 (shapeCast S1x1 (multiReduction .add [1] S1 r 0x00000000#32 h hφ hacc) h') h'' (ix2 u s)
      = ∑ i : Fin 512, r (ix2 (0 : Fin 1) i) := by
  refine (broadcastTo_apply _ h'' (ix2 u s) (ix2 (0 : Fin 1) (0 : Fin 1)) fun c => ?_).trans ?_
  · match c with
    | ⟨0, _⟩ => rfl
    | ⟨1, _⟩ => rfl
  refine (shapeCast_a_1a_apply _ h' (0 : Fin 1) (0 : Fin 1)).trans ?_
  refine (Ideal.multiReduction_add_single r _ h hφ hacc (ix1 (0 : Fin 1))).trans ?_
  refine Finset.sum_congr rfl fun i _ => congrArg r ?_
  funext c; apply Fin.ext
  match c with
  | ⟨0, _⟩ => rfl
  | ⟨1, _⟩ => rfl

/-- The maximum of a [1, 512] row, kept as [1, 1] and spread back over the row. -/
private theorem rowMax_spread (r : FVec Ideal S1x512 .f32) (h : S1x512.Reduces [1] S1) (hφ : FKind.Formats .f32)
    (hacc : (0xFF800000#32 : BitVec 32) = FKind.maximumf.neutral .f32 hφ) (h' : S1.ShapeCasts S1x1) (h'' : S1x1.Broadcasts S1x512)
    (u : Fin 1) (s : Fin 512) :
    broadcastTo S1x512 (shapeCast S1x1 (multiReduction .maximumf [1] S1 r 0xFF800000#32 h hφ hacc) h') h'' (ix2 u s)
      = (Finset.univ : Finset (Fin 512)).fold max Cert.Sharpness.cNegInf (fun i => r (ix2 (0 : Fin 1) i)) := by
  refine (broadcastTo_apply _ h'' (ix2 u s) (ix2 (0 : Fin 1) (0 : Fin 1)) fun c => ?_).trans ?_
  · match c with
    | ⟨0, _⟩ => rfl
    | ⟨1, _⟩ => rfl
  refine (shapeCast_a_1a_apply _ h' (0 : Fin 1) (0 : Fin 1)).trans ?_
  refine (Ideal.multiReduction_maximumf_single r _ h hφ hacc (ix1 (0 : Fin 1))).trans ?_
  have e : (r ∘ h.lift (ix1 (0 : Fin 1)) : Fin 512 → EReal) = fun i : Fin 512 => r (ix2 (0 : Fin 1) i) := by
    funext i
    refine congrArg r ?_
    funext c; apply Fin.ext
    match c with
    | ⟨0, _⟩ => rfl
    | ⟨1, _⟩ => rfl
  exact congrArg (fun f : Fin 512 → EReal => (Finset.univ : Finset (Fin 512)).fold max Cert.Sharpness.cNegInf f) e

/-- The column means of a 512 × 512 matrix, as a [1, 512] row. -/
private def meanRow (x : FVec Ideal S512x512 .f32) : FVec Ideal S1x512 .f32 :=
  divf (shapeCast S1x512 (multiReduction .add [0] S512 x 0x00000000#32 reduces_S512x512_S512 (.inl rfl) rfl) shapeCasts_S512_S1x512)
    (broadcast S1x512 (Scalar.ofBits .f32 0x44000000#32))

/-- The column maxima, as a [1, 512] row. -/
private def maxRow (x : FVec Ideal S512x512 .f32) : FVec Ideal S1x512 .f32 :=
  shapeCast S1x512 (multiReduction .maximumf [0] S512 x 0xFF800000#32 reduces_S512x512_S512 (.inl rfl) rfl) shapeCasts_S512_S1x512

/-- The squared deviations from the column means. -/
private def devSq (x : FVec Ideal S512x512 .f32) : FVec Ideal S512x512 .f32 :=
  mulf (subf x (broadcastTo S512x512 (meanRow x) broadcasts_S1x512_S512x512))
    (subf x (broadcastTo S512x512 (meanRow x) broadcasts_S1x512_S512x512))

/-- The column standard deviations (divisor 511), as a [1, 512] row. -/
private def stdRow (x : FVec Ideal S512x512 .f32) : FVec Ideal S1x512 .f32 :=
  sqrt (divf (shapeCast S1x512 (multiReduction .add [0] S512 (devSq x) 0x00000000#32 reduces_S512x512_S512 (.inl rfl) rfl) shapeCasts_S512_S1x512)
    (broadcast S1x512 (Scalar.ofBits .f32 0x43FF8000#32)))

/-- (max − mean) / std of every column, as a [1, 512] row. -/
private def peakRow (x : FVec Ideal S512x512 .f32) : FVec Ideal S1x512 .f32 :=
  divf (subf (maxRow x) (meanRow x)) (stdRow x)

/-- A [1, 512] row less its maximum, exponentiated. -/
private def expRow (r : FVec Ideal S1x512 .f32) : FVec Ideal S1x512 .f32 :=
  exp (subf r (broadcastTo S1x512 (shapeCast S1x1 (multiReduction .maximumf [1] S1 r 0xFF800000#32 reduces_S1x512_S1 (.inl rfl) rfl)
    shapeCasts_S1_S1x1) broadcasts_S1x1_S1x512))

/-- The softmax of a [1, 512] row. -/
private def softmaxRow (r : FVec Ideal S1x512 .f32) : FVec Ideal S1x512 .f32 :=
  divf (expRow r) (broadcastTo S1x512 (shapeCast S1x1 (multiReduction .add [1] S1 (expRow r) 0x00000000#32 reduces_S1x512_S1 (.inl rfl) rfl)
    shapeCasts_S1_S1x1) broadcasts_S1x1_S1x512)

/-- The kernel's column-sharpness payload is the softmax of the peak row of its similarity payload. -/
private theorem pay3_eq (a b : Vec Ideal S1x512x64 .f32) : k0_pay3 (F := Ideal) a b = softmaxRow (peakRow (k0_pay2 a b)) := rfl

private theorem meanRow_apply (x : FVec Ideal S512x512 .f32) (u : Fin 1) (s : Fin 512) :
    meanRow x (ix2 u s) = Cert.Sharpness.mean (fun l => x (ix2 l s)) := by
  unfold meanRow Cert.Sharpness.mean
  refine (divf_apply _ _ _).trans ?_
  exact congrArg₂ Ideal.div (colSum_row x _ _ _ _ u s) rfl

private theorem maxRow_apply (x : FVec Ideal S512x512 .f32) (u : Fin 1) (s : Fin 512) :
    maxRow x (ix2 u s) = (Finset.univ : Finset (Fin 512)).fold max Cert.Sharpness.cNegInf (fun l => x (ix2 l s)) :=
  colMax_row x _ _ _ _ u s

private theorem devSq_apply (x : FVec Ideal S512x512 .f32) (l s : Fin 512) :
    devSq x (ix2 l s) = (x (ix2 l s) - Cert.Sharpness.mean (fun l' => x (ix2 l' s)))
      * (x (ix2 l s) - Cert.Sharpness.mean (fun l' => x (ix2 l' s))) := by
  unfold devSq
  have e : broadcastTo S512x512 (meanRow x) broadcasts_S1x512_S512x512 (ix2 l s) = Cert.Sharpness.mean (fun l' => x (ix2 l' s)) :=
    (broadcastTo_1b_ab_apply _ _ l s).trans (meanRow_apply x 0 s)
  refine (mulf_apply _ _ _).trans ?_
  rw [subf_apply, e]

private theorem stdRow_apply (x : FVec Ideal S512x512 .f32) (u : Fin 1) (s : Fin 512) :
    stdRow x (ix2 u s) = Ideal.sqrt (Ideal.div (∑ l : Fin 512, (x (ix2 l s) - Cert.Sharpness.mean (fun l' => x (ix2 l' s)))
      * (x (ix2 l s) - Cert.Sharpness.mean (fun l' => x (ix2 l' s)))) Cert.Sharpness.c511) := by
  unfold stdRow
  show Ideal.sqrt (Ideal.div _ _) = _
  refine congrArg Ideal.sqrt (congrArg₂ Ideal.div ?_ rfl)
  refine (colSum_row (devSq x) _ _ _ _ u s).trans ?_
  exact Finset.sum_congr rfl fun l _ => devSq_apply x l s

private theorem peakRow_apply (x : FVec Ideal S512x512 .f32) (u : Fin 1) (s : Fin 512) :
    peakRow x (ix2 u s) = Cert.Sharpness.peak (fun l => x (ix2 l s)) := by
  unfold peakRow Cert.Sharpness.peak
  refine (divf_apply _ _ _).trans ?_
  rw [subf_apply, maxRow_apply, meanRow_apply, stdRow_apply]

private theorem expRow_apply (r : FVec Ideal S1x512 .f32) (u : Fin 1) (s : Fin 512) :
    expRow r (ix2 u s) = Ideal.exp (r (ix2 u s)
      - (Finset.univ : Finset (Fin 512)).fold max Cert.Sharpness.cNegInf (fun i => r (ix2 (0 : Fin 1) i))) := by
  unfold expRow
  show Ideal.exp (_ - _) = _
  exact congrArg (fun t => Ideal.exp (r (ix2 u s) - t)) (rowMax_spread r _ _ _ _ _ u s)

private theorem softmaxRow_apply (r : FVec Ideal S1x512 .f32) (s : Fin 512) :
    softmaxRow r (ix2 (0 : Fin 1) s) = Cert.Sharpness.softmax (fun i => r (ix2 (0 : Fin 1) i)) s := by
  unfold softmaxRow Cert.Sharpness.softmax
  refine (divf_apply _ _ _).trans ?_
  refine congrArg₂ Ideal.div (expRow_apply r 0 s) ?_
  refine (rowSum_spread (expRow r) _ _ _ _ _ 0 s).trans ?_
  exact Finset.sum_congr rfl fun i _ => expRow_apply r 0 i

/-- The sample's column sharpness at key `s`. -/
theorem sharpK_apply (a b : Vec Ideal S1x512x64 .f32) (s : Fin 512) :
    sharpK (F := Ideal) a b (ix2 (0 : Fin 1) s)
      = Cert.Sharpness.sharp1 (fun l c => a (ix3 (0 : Fin 1) l c)) (fun s' c => b (ix3 (0 : Fin 1) s' c)) s := by
  unfold sharpK Cert.Sharpness.sharp1
  rw [pay3_eq, softmaxRow_apply]
  refine congrArg (fun g => Cert.Sharpness.softmax g s) (funext fun s' => ?_)
  rw [peakRow_apply]
  exact congrArg Cert.Sharpness.peak (funext fun l => pay2_apply a b l s')

end Cert.KernelSample

end
-- ==== Proof.KernelValueB.lean ====
/- One sample of the kernel, second half: the row sharpness, the clipped logarithms, the masks and the loss. -/
import proofs.«419364_j58136677319222_3_alg».proof.Proof.KernelValueA
import Idealize.ShloMosaic.Lib.KernelVsHost

noncomputable section

namespace Cert.KernelSample

open Cert.KernelIdeal Cert.KernelIdeal.Gen Idealize.ShloMosaic Idealize.ShloMosaic.ValueIdx

/-! ## Reductions and layout steps of the row statistics, read at an index

Each is stated for arbitrary witnesses of the operations' shape conditions. -/

/-- A sum along the columns of a 512 × 512 matrix, kept as a [512, 1] column, at row l. -/
private theorem rowSum_col (x : FVec Ideal S512x512 .f32) (h : S512x512.Reduces [1] S512) (hφ : FKind.Formats .f32)
    (hacc : (0x00000000#32 : BitVec 32) = FKind.add.neutral .f32 hφ) (h' : S512.ShapeCasts S512x1) (l : Fin 512) (u : Fin 1) :
    shapeCast S512x1 (multiReduction .add [1] S512 x 0x00000000#32 h hφ hacc) h' (ix2 l u) = ∑ s : Fin 512, x (ix2 l s) := by
  refine (shapeCast_apply _ h' (ix2 l u) (ix1 l) ?_).trans ?_
  · have hu : u.val = 0 := by omega
    rw [Shape.rowMajor_val_two, Shape.rowMajor_val_one]
    show l.val = l.val * 1 + u.val
    omega
  refine (Ideal.multiReduction_add_single x _ h hφ hacc (ix1 l)).trans ?_
  refine Finset.sum_congr rfl fun s _ => congrArg x ?_
  funext c; apply Fin.ext
  match c with
  | ⟨0, _⟩ => rfl
  | ⟨1, _⟩ => rfl

/-- The maximum along the columns of a 512 × 512 matrix, kept as a [512, 1] column, at row l. -/
private theorem rowMax_col (x : FVec Ideal S512x512 .f32) (h : S512x512.Reduces [1] S512) (hφ : FKind.Formats .f32)
    (hacc : (0xFF800000#32 : BitVec 32) = FKind.maximumf.neutral .f32 hφ) (h' : S512.ShapeCasts S512x1) (l : Fin 512) (u : Fin 1) :
    shapeCast S512x1 (multiReduction .maximumf [1] S512 x 0xFF800000#32 h hφ hacc) h' (ix2 l u)
      = (Finset.univ : Finset (Fin 512)).fold max Cert.Sharpness.cNegInf (fun s => x (ix2 l s)) := by
  refine (shapeCast_apply _ h' (ix2 l u) (ix1 l) ?_).trans ?_
  · have hu : u.val = 0 := by omega
    rw [Shape.rowMajor_val_two, Shape.rowMajor_val_one]
    show l.val = l.val * 1 + u.val
    omega
  refine (Ideal.multiReduction_maximumf_single x _ h hφ hacc (ix1 l)).trans ?_
  have e : (x ∘ h.lift (ix1 l) : Fin 512 → EReal) = fun s : Fin 512 => x (ix2 l s) := by
    funext s
    refine congrArg x ?_
    funext c; apply Fin.ext
    match c with
    | ⟨0, _⟩ => rfl
    | ⟨1, _⟩ => rfl
  exact congrArg (fun f : Fin 512 → EReal => (Finset.univ : Finset (Fin 512)).fold max Cert.Sharpness.cNegInf f) e

/-- The sum down a [512, 1] column, kept as [1, 1]. -/
private theorem colSum_unit (w : FVec Ideal S512x1 .f32) (h : S512x1.Reduces [0] S1) (hφ : FKind.Formats .f32)
    (hacc : (0x00000000#32 : BitVec 32) = FKind.add.neutral .f32 hφ) (h' : S1.ShapeCasts S1x1) :
    shapeCast S1x1 (multiReduction .add [0] S1 w 0x00000000#32 h hφ hacc) h' (ix2 (0 : Fin 1) (0 : Fin 1))
      = ∑ i : Fin 512, w (ix2 i (0 : Fin 1)) := by
  refine (shapeCast_a_1a_apply _ h' (0 : Fin 1) (0 : Fin 1)).trans ?_
  refine (Ideal.multiReduction_add_single w _ h hφ hacc (ix1 (0 : Fin 1))).trans ?_
  refine Finset.sum_congr rfl fun i _ => congrArg w ?_
  funext c; apply Fin.ext
  match c with
  | ⟨0, _⟩ => rfl
  | ⟨1, _⟩ => rfl

/-- The maximum down a [512, 1] column, kept as [1, 1]. -/
private theorem colMax_unit (w : FVec Ideal S512x1 .f32) (h : S512x1.Reduces [0] S1) (hφ : FKind.Formats .f32)
    (hacc : (0xFF800000#32 : BitVec 32) = FKind.maximumf.neutral .f32 hφ) (h' : S1.ShapeCasts S1x1) :
    shapeCast S1x1 (multiReduction .maximumf [0] S1 w 0xFF800000#32 h hφ hacc) h' (ix2 (0 : Fin 1) (0 : Fin 1))
      = (Finset.univ : Finset (Fin 512)).fold max Cert.Sharpness.cNegInf (fun i => w (ix2 i (0 : Fin 1))) := by
  refine (shapeCast_a_1a_apply _ h' (0 : Fin 1) (0 : Fin 1)).trans ?_
  refine (Ideal.multiReduction_maximumf_single w _ h hφ hacc (ix1 (0 : Fin 1))).trans ?_
  have e : (w ∘ h.lift (ix1 (0 : Fin 1)) : Fin 512 → EReal) = fun i : Fin 512 => w (ix2 i (0 : Fin 1)) := by
    funext i
    refine congrArg w ?_
    funext c; apply Fin.ext
    match c with
    | ⟨0, _⟩ => rfl
    | ⟨1, _⟩ => rfl
  exact congrArg (fun f : Fin 512 → EReal => (Finset.univ : Finset (Fin 512)).fold max Cert.Sharpness.cNegInf f) e

/-- A [1, 1] entry spread down a [512, 1] column. -/
private theorem spread_col {α : Type} (w : S1x1.Idx → α) (h : S1x1.Broadcasts S512x1) (l : Fin 512) (u : Fin 1) :
    broadcastTo S512x1 w h (ix2 l u) = w (ix2 (0 : Fin 1) (0 : Fin 1)) := by
  refine broadcastTo_apply w h (ix2 l u) (ix2 (0 : Fin 1) (0 : Fin 1)) fun c => ?_
  match c with
  | ⟨0, _⟩ => rfl
  | ⟨1, _⟩ => rfl

/-- A [512, 1] column spread along the rows of a 512 × 512 matrix. -/
private theorem spread_rows {α : Type} (w : S512x1.Idx → α) (h : S512x1.Broadcasts S512x512) (l s : Fin 512) :
    broadcastTo S512x512 w h (ix2 l s) = w (ix2 l (0 : Fin 1)) := by
  refine broadcastTo_apply w h (ix2 l s) (ix2 l (0 : Fin 1)) fun c => ?_
  match c with
  | ⟨0, _⟩ => rfl
  | ⟨1, _⟩ => rfl

/-! ## The row sharpness: the kernel's payload as a composition of named steps -/

/-- The row maxima, as a [512, 1] column. -/
private def maxCol (x : FVec Ideal S512x512 .f32) : FVec Ideal S512x1 .f32 :=
  shapeCast S512x1 (multiReduction .maximumf [1] S512 x 0xFF800000#32 reduces_S512x512_S512_2 (.inl rfl) rfl) shapeCasts_S512_S512x1

/-- The squared deviations from a column m of row means. -/
private def devSqR (x : FVec Ideal S512x512 .f32) (m : FVec Ideal S512x1 .f32) : FVec Ideal S512x512 .f32 :=
  mulf (subf x (broadcastTo S512x512 m broadcasts_S512x1_S512x512))
    (subf x (broadcastTo S512x512 m broadcasts_S512x1_S512x512))

/-- The row standard deviations (divisor 511), as a [512, 1] column. -/
private def stdCol (x : FVec Ideal S512x512 .f32) (m : FVec Ideal S512x1 .f32) : FVec Ideal S512x1 .f32 :=
  sqrt (divf (shapeCast S512x1 (multiReduction .add [1] S512 (devSqR x m) 0x00000000#32 reduces_S512x512_S512_2 (.inl rfl) rfl)
      shapeCasts_S512_S512x1)
    (broadcast S512x1 (Scalar.ofBits .f32 0x43FF8000#32)))

/-- (max − mean) / std of every row, as a [512, 1] column. -/
private def peakCol (x : FVec Ideal S512x512 .f32) (m : FVec Ideal S512x1 .f32) : FVec Ideal S512x1 .f32 :=
  divf (subf (maxCol x) m) (stdCol x m)

/-- A [512, 1] column less its maximum, exponentiated. -/
private def expCol (w : FVec Ideal S512x1 .f32) : FVec Ideal S512x1 .f32 :=
  exp (subf w (broadcastTo S512x1 (shapeCast S1x1 (multiReduction .maximumf [0] S1 w 0xFF800000#32 reduces_S512x1_S1 (.inl rfl) rfl)
    shapeCasts_S1_S1x1) broadcasts_S1x1_S512x1))

/-- The softmax of a [512, 1] column. -/
private def softmaxCol (w : FVec Ideal S512x1 .f32) : FVec Ideal S512x1 .f32 :=
  divf (expCol w) (broadcastTo S512x1 (shapeCast S1x1 (multiReduction .add [0] S1 (expCol w) 0x00000000#32 reduces_S512x1_S1 (.inl rfl) rfl)
    shapeCasts_S1_S1x1) broadcasts_S1x1_S512x1)

/-- The kernel's row-sharpness payload is the softmax of the peak column, the means being the quotient of its last two operands. -/
private theorem pay6_eq (x : FVec Ideal S512x512 .f32) (w4 w5 : FVec Ideal S512x1 .f32) :
    k0_pay6 x w4 w5 = softmaxCol (peakCol x (divf w4 w5)) := rfl

/-- The kernel's row-sum payload is the row sums of its similarity payload, as a column. -/
private theorem pay4_eq (a b : Vec Ideal S1x512x64 .f32) :
    k0_pay4 (F := Ideal) a b
      = shapeCast S512x1 (multiReduction .add [1] S512 (k0_pay2 a b) 0x00000000#32 reduces_S512x512_S512_2 (.inl rfl) rfl)
          shapeCasts_S512_S512x1 := rfl

/-- The quotient of the row sums by 512 is the row means. -/
private theorem meanCol_apply (a b : Vec Ideal S1x512x64 .f32) (l : Fin 512) (u : Fin 1) :
    divf (k0_pay4 (F := Ideal) a b) (k0_pay5 (F := Ideal)) (ix2 l u)
      = Cert.Sharpness.mean (fun s => k0_pay2 (F := Ideal) a b (ix2 l s)) := by
  unfold Cert.Sharpness.mean
  refine (divf_apply _ _ _).trans ?_
  refine congrArg₂ Ideal.div ?_ rfl
  rw [pay4_eq]
  exact rowSum_col (k0_pay2 a b) _ _ _ _ l u

private theorem maxCol_apply (x : FVec Ideal S512x512 .f32) (l : Fin 512) (u : Fin 1) :
    maxCol x (ix2 l u) = (Finset.univ : Finset (Fin 512)).fold max Cert.Sharpness.cNegInf (fun s => x (ix2 l s)) :=
  rowMax_col x _ _ _ _ l u

private theorem devSqR_apply (x : FVec Ideal S512x512 .f32) (m : FVec Ideal S512x1 .f32)
    (hm : ∀ (l : Fin 512) (u : Fin 1), m (ix2 l u) = Cert.Sharpness.mean (fun s => x (ix2 l s))) (l s : Fin 512) :
    devSqR x m (ix2 l s) = (x (ix2 l s) - Cert.Sharpness.mean (fun s' => x (ix2 l s')))
      * (x (ix2 l s) - Cert.Sharpness.mean (fun s' => x (ix2 l s'))) := by
  unfold devSqR
  have e : broadcastTo S512x512 m broadcasts_S512x1_S512x512 (ix2 l s) = Cert.Sharpness.mean (fun s' => x (ix2 l s')) :=
    (spread_rows m _ l s).trans (hm l 0)
  refine (mulf_apply _ _ _).trans ?_
  rw [subf_apply, e]

private theorem stdCol_apply (x : FVec Ideal S512x512 .f32) (m : FVec Ideal S512x1 .f32)
    (hm : ∀ (l : Fin 512) (u : Fin 1), m (ix2 l u) = Cert.Sharpness.mean (fun s => x (ix2 l s))) (l : Fin 512) (u : Fin 1) :
    stdCol x m (ix2 l u) = Ideal.sqrt (Ideal.div (∑ s : Fin 512, (x (ix2 l s) - Cert.Sharpness.mean (fun s' => x (ix2 l s')))
      * (x (ix2 l s) - Cert.Sharpness.mean (fun s' => x (ix2 l s')))) Cert.Sharpness.c511) := by
  unfold stdCol
  show Ideal.sqrt (Ideal.div _ _) = _
  refine congrArg Ideal.sqrt (congrArg₂ Ideal.div ?_ rfl)
  refine (rowSum_col (devSqR x m) _ _ _ _ l u).trans ?_
  exact Finset.sum_congr rfl fun s _ => devSqR_apply x m hm l s

private theorem peakCol_apply (x : FVec Ideal S512x512 .f32) (m : FVec Ideal S512x1 .f32)
    (hm : ∀ (l : Fin 512) (u : Fin 1), m (ix2 l u) = Cert.Sharpness.mean (fun s => x (ix2 l s))) (l : Fin 512) (u : Fin 1) :
    peakCol x m (ix2 l u) = Cert.Sharpness.peak (fun s => x (ix2 l s)) := by
  unfold peakCol Cert.Sharpness.peak
  refine (divf_apply _ _ _).trans ?_
  rw [subf_apply, maxCol_apply, hm, stdCol_apply x m hm]

private theorem expCol_apply (w : FVec Ideal S512x1 .f32) (l : Fin 512) (u : Fin 1) :
    expCol w (ix2 l u) = Ideal.exp (w (ix2 l u)
      - (Finset.univ : Finset (Fin 512)).fold max Cert.Sharpness.cNegInf (fun i => w (ix2 i (0 : Fin 1)))) := by
  unfold expCol
  show Ideal.exp (_ - _) = _
  exact congrArg (fun t => Ideal.exp (w (ix2 l u) - t)) ((spread_col _ _ l u).trans (colMax_unit w _ _ _ _))

private theorem softmaxCol_apply (w : FVec Ideal S512x1 .f32) (l : Fin 512) :
    softmaxCol w (ix2 l (0 : Fin 1)) = Cert.Sharpness.softmax (fun i => w (ix2 i (0 : Fin 1))) l := by
  unfold softmaxCol Cert.Sharpness.softmax
  refine (divf_apply _ _ _).trans ?_
  refine congrArg₂ Ideal.div (expCol_apply w l 0) ?_
  refine ((spread_col _ _ l 0).trans (colSum_unit (expCol w) _ _ _ _)).trans ?_
  exact Finset.sum_congr rfl fun i _ => expCol_apply w i 0

/-- The sample's row sharpness at query l. -/
private theorem rowSharp_apply (a b : Vec Ideal S1x512x64 .f32) (l : Fin 512) :
    k0_pay6 (k0_pay2 (F := Ideal) a b) (k0_pay4 a b) k0_pay5 (ix2 l (0 : Fin 1))
      = Cert.Sharpness.sharp2 (fun l' c => a (ix3 (0 : Fin 1) l' c)) (fun s' c => b (ix3 (0 : Fin 1) s' c)) l := by
  unfold Cert.Sharpness.sharp2
  rw [pay6_eq, softmaxCol_apply]
  refine congrArg (fun g => Cert.Sharpness.softmax g l) (funext fun l' => ?_)
  rw [peakCol_apply (k0_pay2 a b) _ (meanCol_apply a b)]
  exact congrArg Cert.Sharpness.peak (funext fun s => pay2_apply a b l' s)

/-! ## The clipped logarithms, the masks and the spread column sharpness -/

/-- The similarity clipped to [ε, 1 − ε]. -/
private theorem pay7_apply (x : FVec Ideal S512x512 .f32) (i : S512x512.Idx) :
    k0_pay7 x i = Cert.Sharpness.clipOf (x i) := rfl

/-- 0 − log of the clipped similarity is its negated logarithm. -/
private theorem pay8_apply (x : FVec Ideal S512x512 .f32) (i : S512x512.Idx) :
    k0_pay8 x i = -Ideal.log (Cert.Sharpness.clipOf (x i)) := by
  show Ideal.ofBits .f32 0x00000000#32 - Ideal.log (k0_pay7 x i) = _
  rw [Ideal.ofBits_zero_f32, zero_sub, pay7_apply]

/-- 0 − log of one less the clipped similarity. -/
private theorem pay9_apply (x : FVec Ideal S512x512 .f32) (i : S512x512.Idx) :
    k0_pay9 x i = -Ideal.log (Cert.Sharpness.cOne - Cert.Sharpness.clipOf (x i)) := by
  show Ideal.ofBits .f32 0x00000000#32 - Ideal.log (Cert.Sharpness.cOne - k0_pay7 x i) = _
  rw [Ideal.ofBits_zero_f32, zero_sub, pay7_apply]

/-- The label block as a 512 × 512 matrix. -/
private theorem pay10_apply (lab : Vec Ideal S1x512x512 .i32) (l s : Fin 512) :
    k0_pay10 (F := Ideal) lab (ix2 l s) = lab (ix3 (0 : Fin 1) l s) := by
  unfold k0_pay10
  exact shapeCast_1ab_ab_apply lab _ l s

/-- The mask of the entries labelled 1, as 1 or 0. -/
private theorem pay11_apply (lab : Vec Ideal S1x512x512 .i32) (l s : Fin 512) :
    k0_pay11 (F := Ideal) lab (ix2 l s) = Cert.Sharpness.ind (lab (ix3 (0 : Fin 1) l s)) 1#32 := by
  unfold k0_pay11
  refine (congrFun (sitofp_extui_eq_uitofp _ natLt_1_32) (ix2 l s)).trans ?_
  show Cert.Sharpness.ind (k0_pay10 (F := Ideal) lab (ix2 l s)) 1#32 = _
  rw [pay10_apply]

/-- The mask of the entries labelled 0, as 1 or 0. -/
private theorem pay12_apply (lab : Vec Ideal S1x512x512 .i32) (l s : Fin 512) :
    k0_pay12 (F := Ideal) lab (ix2 l s) = Cert.Sharpness.ind (lab (ix3 (0 : Fin 1) l s)) 0#32 := by
  unfold k0_pay12
  refine (congrFun (sitofp_extui_eq_uitofp _ natLt_1_32) (ix2 l s)).trans ?_
  show Cert.Sharpness.ind (k0_pay10 (F := Ideal) lab (ix2 l s)) 0#32 = _
  rw [pay10_apply]

/-- The column sharpness row spread down the 512 rows. -/
private theorem pay13_apply (v : FVec Ideal S1x512 .f32) (l s : Fin 512) :
    k0_pay13 v (ix2 l s) = v (ix2 (0 : Fin 1) s) := by
  unfold k0_pay13
  exact broadcastTo_1b_ab_apply v _ l s

/-! ## The three masked double sums and their combination -/

/-- A 512 × 512 matrix summed along its columns, then down the resulting column, kept as [1, 1]. -/
private def dsum (m : FVec Ideal S512x512 .f32) : FVec Ideal S1x1 .f32 :=
  shapeCast S1x1 (multiReduction .add [0] S1
      (shapeCast S512x1 (multiReduction .add [1] S512 m 0x00000000#32 reduces_S512x512_S512_2 (.inl rfl) rfl) shapeCasts_S512_S512x1)
      0x00000000#32 reduces_S512x1_S1 (.inl rfl) rfl) shapeCasts_S1_S1x1

private theorem dsum_apply (m : FVec Ideal S512x512 .f32) :
    dsum m (ix2 (0 : Fin 1) (0 : Fin 1)) = ∑ l : Fin 512, ∑ s : Fin 512, m (ix2 l s) := by
  unfold dsum
  refine (colSum_unit _ _ _ _ _).trans ?_
  exact Finset.sum_congr rfl fun l _ => rowSum_col m _ _ _ _ l 0

/-- The combination of the three double sums, as [1, 1]. -/
private def combine (v63 : FVec Ideal S512x1 .f32) (v70 v75 v82 v86 v87 : FVec Ideal S512x512 .f32) : FVec Ideal S1x1 .f32 :=
  addf (mulf (addf (dsum (mulf (mulf v70 v87) v82))
        (dsum (mulf (mulf v70 (broadcastTo S512x512 v63 broadcasts_S512x1_S512x512)) v82)))
      (broadcast S1x1 (Scalar.ofBits .f32 0x3F000000#32)))
    (divf (dsum (mulf v75 v86)) (dsum v86))

/-- The kernel's loss payload is the combination's one entry in every lane. -/
private theorem pay14_eq (v63 : FVec Ideal S512x1 .f32) (v70 v75 v82 v86 v87 : FVec Ideal S512x512 .f32) :
    k0_pay14 v63 v70 v75 v82 v86 v87
      = shapeCast S1x128 (broadcast S128 (extractAt ![0, 0] (combine v63 v70 v75 v82 v86 v87) inpos_S1x1_p0_0))
          shapeCasts_S128_S1x128 := rfl

private theorem combine_apply (v63 : FVec Ideal S512x1 .f32) (v70 v75 v82 v86 v87 : FVec Ideal S512x512 .f32) :
    combine v63 v70 v75 v82 v86 v87 (ix2 (0 : Fin 1) (0 : Fin 1))
      = ((∑ l : Fin 512, ∑ s : Fin 512, v70 (ix2 l s) * v87 (ix2 l s) * v82 (ix2 l s))
          + ∑ l : Fin 512, ∑ s : Fin 512, v70 (ix2 l s) * v63 (ix2 l (0 : Fin 1)) * v82 (ix2 l s)) * Cert.Sharpness.cHalf
        + Ideal.div (∑ l : Fin 512, ∑ s : Fin 512, v75 (ix2 l s) * v86 (ix2 l s))
            (∑ l : Fin 512, ∑ s : Fin 512, v86 (ix2 l s)) := by
  unfold combine
  refine (addf_apply _ _ _).trans ?_
  refine congrArg₂ (· + ·) ?_ ?_
  · refine (mulf_apply _ _ _).trans ?_
    refine congrArg₂ (· * ·) ?_ rfl
    refine (addf_apply _ _ _).trans ?_
    refine congrArg₂ (· + ·) (dsum_apply _) ?_
    refine (dsum_apply _).trans ?_
    refine Finset.sum_congr rfl fun l _ => Finset.sum_congr rfl fun s _ => ?_
    show v70 (ix2 l s) * broadcastTo S512x512 v63 broadcasts_S512x1_S512x512 (ix2 l s) * v82 (ix2 l s) = _
    rw [spread_rows]
  · refine (divf_apply _ _ _).trans ?_
    exact congrArg₂ Ideal.div (dsum_apply _) (dsum_apply _)

private theorem pay14_apply (v63 : FVec Ideal S512x1 .f32) (v70 v75 v82 v86 v87 : FVec Ideal S512x512 .f32) (j : Fin 128) :
    k0_pay14 v63 v70 v75 v82 v86 v87 (ix2 (0 : Fin 1) j)
      = ((∑ l : Fin 512, ∑ s : Fin 512, v70 (ix2 l s) * v87 (ix2 l s) * v82 (ix2 l s))
          + ∑ l : Fin 512, ∑ s : Fin 512, v70 (ix2 l s) * v63 (ix2 l (0 : Fin 1)) * v82 (ix2 l s)) * Cert.Sharpness.cHalf
        + Ideal.div (∑ l : Fin 512, ∑ s : Fin 512, v75 (ix2 l s) * v86 (ix2 l s))
            (∑ l : Fin 512, ∑ s : Fin 512, v86 (ix2 l s)) := by
  rw [pay14_eq]
  refine (shapeCast_a_1a_apply _ _ (0 : Fin 1) j).trans ?_
  refine (broadcast_apply _ _).trans ?_
  refine Eq.trans ?_ (combine_apply v63 v70 v75 v82 v86 v87)
  unfold extractAt
  refine congrArg (combine v63 v70 v75 v82 v86 v87) (funext fun c => ?_)
  match c with
  | ⟨0, _⟩ => exact Fin.ext rfl
  | ⟨1, _⟩ => exact Fin.ext rfl

/-- The sample's loss, in every one of the 128 lanes. -/
theorem lossK_apply (a b : Vec Ideal S1x512x64 .f32) (lab : Vec Ideal S1x512x512 .i32) (j : Fin 128) :
    lossK (F := Ideal) a b lab (ix2 (0 : Fin 1) j)
      = Cert.Sharpness.loss (fun l c => a (ix3 (0 : Fin 1) l c)) (fun s c => b (ix3 (0 : Fin 1) s c))
          (fun l s => lab (ix3 (0 : Fin 1) l s)) := by
  unfold lossK Cert.Sharpness.loss Cert.Sharpness.lossOf
  refine (pay14_apply _ _ _ _ _ _ j).trans ?_
  refine congrArg₂ (· + ·) (congrArg (· * Cert.Sharpness.cHalf) (congrArg₂ (· + ·) ?_ ?_)) (congrArg₂ Ideal.div ?_ ?_)
  · refine Finset.sum_congr rfl fun l _ => Finset.sum_congr rfl fun s _ => ?_
    rw [pay8_apply, pay13_apply, pay11_apply, pay2_apply]
    exact congrArg (fun t => _ * t * _) (sharpK_apply a b s)
  · refine Finset.sum_congr rfl fun l _ => Finset.sum_congr rfl fun s _ => ?_
    rw [pay8_apply, pay11_apply, pay2_apply, rowSharp_apply]
  · refine Finset.sum_congr rfl fun l _ => Finset.sum_congr rfl fun s _ => ?_
    rw [pay9_apply, pay12_apply, pay2_apply]
  · refine Finset.sum_congr rfl fun l _ => Finset.sum_congr rfl fun s _ => ?_
    rw [pay12_apply]

end Cert.KernelSample

end
-- ==== Proof.KernelBlocks.lean ====
/- From blocks to arrays: after the run the two output arrays hold the specification's arrays of the three arguments. -/
import proofs.«419364_j58136677319222_3_alg».proof.Proof.KernelPieces
import proofs.«419364_j58136677319222_3_alg».proof.Proof.KernelValueB
import Idealize.ShloMosaic.Lib.Pipeline.Value

noncomputable section

namespace Cert.KernelIdeal.Final

open Cert.KernelIdeal Cert.KernelIdeal.Gen Idealize.ShloMosaic Idealize.ShloMosaic.TcCoe Idealize.ShloMosaic.ValueIdx Idealize.SL.Sem

/-! ## One block: row j of each output block is the specification's value of row j of the input blocks -/

/-- Row `j` of a [8, 512, 64] block, read through the one-row rectangle at row `j`. -/
theorem ld_row64 {Val : EltTy → Type} {e : EltTy} (x : S8x512x64.Idx → Val e) (j : Fin 8) {off : Fin 3 → Nat}
    (inb : ∀ a, off a + S1x512x64.size a ≤ S8x512x64.size a)
    (h0 : off 0 = j.val) (h1 : off 1 = 0) (h2 : off 2 = 0) (l : Fin 512) (c : Fin 64) :
    View.ld x (Rect.unit (s := S8x512x64) off S1x512x64.size inb) (ix3 (0 : Fin 1) l c) = x (ix3 j l c) := by
  show x _ = x _
  congr 1
  funext a
  apply Fin.ext
  match a with
  | ⟨0, _⟩ => show off 0 + 1 * 0 = j.val; omega
  | ⟨1, _⟩ => show off 1 + 1 * l.val = l.val; omega
  | ⟨2, _⟩ => show off 2 + 1 * c.val = c.val; omega

/-- Row `j` of a [8, 512, 512] block, read through the one-row rectangle at row `j`. -/
theorem ld_row512 {Val : EltTy → Type} {e : EltTy} (x : S8x512x512.Idx → Val e) (j : Fin 8) {off : Fin 3 → Nat}
    (inb : ∀ a, off a + S1x512x512.size a ≤ S8x512x512.size a)
    (h0 : off 0 = j.val) (h1 : off 1 = 0) (h2 : off 2 = 0) (l s : Fin 512) :
    View.ld x (Rect.unit (s := S8x512x512) off S1x512x512.size inb) (ix3 (0 : Fin 1) l s) = x (ix3 j l s) := by
  show x _ = x _
  congr 1
  funext a
  apply Fin.ext
  match a with
  | ⟨0, _⟩ => show off 0 + 1 * 0 = j.val; omega
  | ⟨1, _⟩ => show off 1 + 1 * l.val = l.val; omega
  | ⟨2, _⟩ => show off 2 + 1 * s.val = s.val; omega

/-- The sharpness block as one function of the q and k blocks: entry (j, s) is sample j's column sharpness at s. -/
def sharpBlk (x0 x1 : Vec Ideal S8x512x64 .f32) : Vec Ideal S8x512 .f32 :=
  fun y => Cert.Sharpness.sharp1 (fun l c => x0 (ix3 (y 0 : Fin 8) l c)) (fun s c => x1 (ix3 (y 0 : Fin 8) s c)) (y 1 : Fin 512)

/-- The loss block as one function of the q, k and label blocks: row j holds sample j's loss in every lane. -/
def lossBlk (x0 x1 : Vec Ideal S8x512x64 .f32) (x2 : Vec Ideal S8x512x512 .i32) : Vec Ideal S8x128 .f32 :=
  fun y => Cert.Sharpness.loss (fun l c => x0 (ix3 (y 0 : Fin 8) l c)) (fun s c => x1 (ix3 (y 0 : Fin 8) s c))
    (fun l s => x2 (ix3 (y 0 : Fin 8) l s))

/-- One stored sharpness row is row `j` of `sharpBlk`. -/
theorem sharpRow_apply (x0 x1 : Vec Ideal S8x512x64 .f32) (j : Fin 8)
    {off : Fin 3 → Nat} (inb : ∀ a, off a + S1x512x64.size a ≤ S8x512x64.size a)
    {off' : Fin 2 → Nat} (inb' : ∀ a, off' a + S1x512.size a ≤ S8x512.size a)
    (h0 : off 0 = j.val) (h1 : off 1 = 0) (h2 : off 2 = 0) (h0' : off' 0 = j.val) (h1' : off' 1 = 0)
    (x : S1x512.Idx) :
    Cert.KernelSample.sharpK (F := Ideal) (View.ld x0 (Rect.unit (s := S8x512x64) off S1x512x64.size inb))
        (View.ld x1 (Rect.unit (s := S8x512x64) off S1x512x64.size inb)) x
      = sharpBlk x0 x1 ((Rect.unit (s := S8x512) off' S1x512.size inb').emb x) := by
  obtain ⟨z, s, rfl⟩ : ∃ (z : Fin 1) (s : Fin 512), x = ix2 z s := ⟨x 0, x 1, eq_ix2 x⟩
  obtain rfl : z = 0 := Subsingleton.elim _ _
  rw [Cert.KernelSample.sharpK_apply]
  unfold sharpBlk
  have e0 : (((Rect.unit (s := S8x512) off' S1x512.size inb').emb (ix2 (0 : Fin 1) s)) 0 : Fin 8) = j :=
    Fin.ext (by show off' 0 + 1 * 0 = j.val; omega)
  have e1 : (((Rect.unit (s := S8x512) off' S1x512.size inb').emb (ix2 (0 : Fin 1) s)) 1 : Fin 512) = s :=
    Fin.ext (by show off' 1 + 1 * s.val = s.val; omega)
  rw [e0, e1]
  exact congrArg₂ (fun A B => Cert.Sharpness.sharp1 A B s)
    (funext fun l => funext fun c => ld_row64 x0 j inb h0 h1 h2 l c)
    (funext fun l => funext fun c => ld_row64 x1 j inb h0 h1 h2 l c)

/-- One stored loss row is row `j` of `lossBlk`. -/
theorem lossRow_apply (x0 x1 : Vec Ideal S8x512x64 .f32) (x2 : Vec Ideal S8x512x512 .i32) (j : Fin 8)
    {off : Fin 3 → Nat} (inb : ∀ a, off a + S1x512x64.size a ≤ S8x512x64.size a)
    {off2 : Fin 3 → Nat} (inb2 : ∀ a, off2 a + S1x512x512.size a ≤ S8x512x512.size a)
    {off' : Fin 2 → Nat} (inb' : ∀ a, off' a + S1x128.size a ≤ S8x128.size a)
    (h0 : off 0 = j.val) (h1 : off 1 = 0) (h2 : off 2 = 0)
    (k0 : off2 0 = j.val) (k1 : off2 1 = 0) (k2 : off2 2 = 0) (h0' : off' 0 = j.val) (h1' : off' 1 = 0)
    (x : S1x128.Idx) :
    Cert.KernelSample.lossK (F := Ideal) (View.ld x0 (Rect.unit (s := S8x512x64) off S1x512x64.size inb))
        (View.ld x1 (Rect.unit (s := S8x512x64) off S1x512x64.size inb))
        (View.ld x2 (Rect.unit (s := S8x512x512) off2 S1x512x512.size inb2)) x
      = lossBlk x0 x1 x2 ((Rect.unit (s := S8x128) off' S1x128.size inb').emb x) := by
  obtain ⟨z, s, rfl⟩ : ∃ (z : Fin 1) (s : Fin 128), x = ix2 z s := ⟨x 0, x 1, eq_ix2 x⟩
  obtain rfl : z = 0 := Subsingleton.elim _ _
  rw [Cert.KernelSample.lossK_apply]
  unfold lossBlk
  have e0 : (((Rect.unit (s := S8x128) off' S1x128.size inb').emb (ix2 (0 : Fin 1) s)) 0 : Fin 8) = j :=
    Fin.ext (by show off' 0 + 1 * 0 = j.val; omega)
  rw [e0]
  refine congr (congr (congrArg Cert.Sharpness.loss ?_) ?_) ?_
  · exact funext fun l => funext fun c => ld_row64 x0 j inb h0 h1 h2 l c
  · exact funext fun l => funext fun c => ld_row64 x1 j inb h0 h1 h2 l c
  · exact funext fun l => funext fun s => ld_row512 x2 j inb2 k0 k1 k2 l s

/-- The sharpness block the body leaves is `sharpBlk` of the q and k blocks. -/
theorem out3_block (x0 x1 : Vec Ideal S8x512x64 .f32) (x2 : Vec Ideal S8x512x512 .i32) :
    out0_3 x0 x1 x2 = sharpBlk x0 x1 := by
  rw [Cert.KernelSample.out3_eq]
  funext y
  refine View.canon_apply_of_pieces (Val := Elt Ideal) (sharpBlk x0 x1) _ ?_ y (cover0_3 _ _ _ _ _ _ _ _ y)
  intro p hp
  simp only [List.mem_cons, List.mem_nil_iff, or_false] at hp
  rcases hp with rfl | rfl | rfl | rfl | rfl | rfl | rfl | rfl
  · exact sharpRow_apply x0 x1 7 inb_S8x512x64_S1x512x64_7_0_0 inb_S8x512_S1x512_7_0 rfl rfl rfl rfl rfl
  · exact sharpRow_apply x0 x1 6 inb_S8x512x64_S1x512x64_6_0_0 inb_S8x512_S1x512_6_0 rfl rfl rfl rfl rfl
  · exact sharpRow_apply x0 x1 5 inb_S8x512x64_S1x512x64_5_0_0 inb_S8x512_S1x512_5_0 rfl rfl rfl rfl rfl
  · exact sharpRow_apply x0 x1 4 inb_S8x512x64_S1x512x64_4_0_0 inb_S8x512_S1x512_4_0 rfl rfl rfl rfl rfl
  · exact sharpRow_apply x0 x1 3 inb_S8x512x64_S1x512x64_3_0_0 inb_S8x512_S1x512_3_0 rfl rfl rfl rfl rfl
  · exact sharpRow_apply x0 x1 2 inb_S8x512x64_S1x512x64_2_0_0 inb_S8x512_S1x512_2_0 rfl rfl rfl rfl rfl
  · exact sharpRow_apply x0 x1 1 inb_S8x512x64_S1x512x64_1_0_0 inb_S8x512_S1x512_1_0 rfl rfl rfl rfl rfl
  · exact sharpRow_apply x0 x1 0 inb_S8x512x64_S1x512x64_0_0_0 inb_S8x512_S1x512_0_0 rfl rfl rfl rfl rfl

/-- The loss block the body leaves is `lossBlk` of the q, k and label blocks. -/
theorem out4_block (x0 x1 : Vec Ideal S8x512x64 .f32) (x2 : Vec Ideal S8x512x512 .i32) :
    out0_4 x0 x1 x2 = lossBlk x0 x1 x2 := by
  rw [Cert.KernelSample.out4_eq]
  funext y
  refine View.canon_apply_of_pieces (Val := Elt Ideal) (lossBlk x0 x1 x2) _ ?_ y (cover0_4 _ _ _ _ _ _ _ _ y)
  intro p hp
  simp only [List.mem_cons, List.mem_nil_iff, or_false] at hp
  rcases hp with rfl | rfl | rfl | rfl | rfl | rfl | rfl | rfl
  · exact lossRow_apply x0 x1 x2 7 inb_S8x512x64_S1x512x64_7_0_0 inb_S8x512x512_S1x512x512_7_0_0 inb_S8x128_S1x128_7_0 rfl rfl rfl rfl rfl rfl rfl rfl
  · exact lossRow_apply x0 x1 x2 6 inb_S8x512x64_S1x512x64_6_0_0 inb_S8x512x512_S1x512x512_6_0_0 inb_S8x128_S1x128_6_0 rfl rfl rfl rfl rfl rfl rfl rfl
  · exact lossRow_apply x0 x1 x2 5 inb_S8x512x64_S1x512x64_5_0_0 inb_S8x512x512_S1x512x512_5_0_0 inb_S8x128_S1x128_5_0 rfl rfl rfl rfl rfl rfl rfl rfl
  · exact lossRow_apply x0 x1 x2 4 inb_S8x512x64_S1x512x64_4_0_0 inb_S8x512x512_S1x512x512_4_0_0 inb_S8x128_S1x128_4_0 rfl rfl rfl rfl rfl rfl rfl rfl
  · exact lossRow_apply x0 x1 x2 3 inb_S8x512x64_S1x512x64_3_0_0 inb_S8x512x512_S1x512x512_3_0_0 inb_S8x128_S1x128_3_0 rfl rfl rfl rfl rfl rfl rfl rfl
  · exact lossRow_apply x0 x1 x2 2 inb_S8x512x64_S1x512x64_2_0_0 inb_S8x512x512_S1x512x512_2_0_0 inb_S8x128_S1x128_2_0 rfl rfl rfl rfl rfl rfl rfl rfl
  · exact lossRow_apply x0 x1 x2 1 inb_S8x512x64_S1x512x64_1_0_0 inb_S8x512x512_S1x512x512_1_0_0 inb_S8x128_S1x128_1_0 rfl rfl rfl rfl rfl rfl rfl rfl
  · exact lossRow_apply x0 x1 x2 0 inb_S8x512x64_S1x512x64_0_0_0 inb_S8x512x512_S1x512x512_0_0_0 inb_S8x128_S1x128_0_0 rfl rfl rfl rfl rfl rfl rfl rfl

/-! ## From the blocks to the arrays -/

variable (m : (ℓ : Loc nD τ sig) → Buf (Elt Ideal) ℓ)

/-- The index maps, decided once over the sixteen grid points: every window's block index is (t, 0, …). -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The q block at point `t` is rows 8t … 8t + 7 of the q argument. -/
theorem qblk_apply (c : Dev nD) (t : Fin cfg0.N) (x : S8x512x64.Idx) (k : S128x512x64.Idx)
    (hk0 : (k 0).val = 8 * t.val + (x 0).val) (hk1 : (k 1).val = (x 1).val) (hk2 : (k 2).val = (x 2).val) :
    (iblk m c 0 t : Vec Ideal S8x512x64 .f32) x = (m ((c.tc : Thread nD τ).loc main_arg0) : S128x512x64.Idx → EReal) k := by
  obtain ⟨e0, e1, e2, -⟩ := index_facts t
  unfold iblk
  rw [View.read_apply]
  show V m c main_arg0 _ = m (c.tc.loc main_arg0) _
  unfold V
  congr 1
  funext a
  apply Fin.ext
  match a with
  | ⟨0, _⟩ => show win0_0.index t 0 * 8 + 1 * (x 0).val = (k 0).val; rw [e0, hk0]; omega
  | ⟨1, _⟩ => show win0_0.index t 1 * 512 + 1 * (x 1).val = (k 1).val; rw [e1, hk1]; omega
  | ⟨2, _⟩ => show win0_0.index t 2 * 64 + 1 * (x 2).val = (k 2).val; rw [e2, hk2]; omega

/-- The k block at point `t` is rows 8t … 8t + 7 of the k argument. -/
theorem kblk_apply (c : Dev nD) (t : Fin cfg0.N) (x : S8x512x64.Idx) (k : S128x512x64.Idx)
    (hk0 : (k 0).val = 8 * t.val + (x 0).val) (hk1 : (k 1).val = (x 1).val) (hk2 : (k 2).val = (x 2).val) :
    (iblk m c 1 t : Vec Ideal S8x512x64 .f32) x = (m ((c.tc : Thread nD τ).loc main_arg1) : S128x512x64.Idx → EReal) k := by
  obtain ⟨-, -, -, e0, e1, e2, -⟩ := index_facts t
  unfold iblk
  rw [View.read_apply]
  show V m c main_arg1 _ = m (c.tc.loc main_arg1) _
  unfold V
  congr 1
  funext a
  apply Fin.ext
  match a with
  | ⟨0, _⟩ => show win0_1.index t 0 * 8 + 1 * (x 0).val = (k 0).val; rw [e0, hk0]; omega
  | ⟨1, _⟩ => show win0_1.index t 1 * 512 + 1 * (x 1).val = (k 1).val; rw [e1, hk1]; omega
  | ⟨2, _⟩ => show win0_1.index t 2 * 64 + 1 * (x 2).val = (k 2).val; rw [e2, hk2]; omega

/-- The label block at point `t` is rows 8t … 8t + 7 of the label argument. -/
theorem labblk_apply (c : Dev nD) (t : Fin cfg0.N) (x : S8x512x512.Idx) (k : S128x512x512.Idx)
    (hk0 : (k 0).val = 8 * t.val + (x 0).val) (hk1 : (k 1).val = (x 1).val) (hk2 : (k 2).val = (x 2).val) :
    (iblk m c 2 t : Vec Ideal S8x512x512 .i32) x = (m ((c.tc : Thread nD τ).loc main_arg2) : S128x512x512.Idx → BitVec 32) k := by
  obtain ⟨-, -, -, -, -, -, e0, e1, e2, -⟩ := index_facts t
  unfold iblk
  rw [View.read_apply]
  show V m c main_arg2 _ = m (c.tc.loc main_arg2) _
  unfold V
  congr 1
  funext a
  apply Fin.ext
  match a with
  | ⟨0, _⟩ => show win0_2.index t 0 * 8 + 1 * (x 0).val = (k 0).val; rw [e0, hk0]; omega
  | ⟨1, _⟩ => show win0_2.index t 1 * 512 + 1 * (x 1).val = (k 1).val; rw [e1, hk1]; omega
  | ⟨2, _⟩ => show win0_2.index t 2 * 512 + 1 * (x 2).val = (k 2).val; rw [e2, hk2]; omega

/-- A block of `sharpBlk` whose input rows are rows of two arrays is the specification's sharpness array of them there. -/
theorem sharpBlk_eq_arr (x0 x1 : Vec Ideal S8x512x64 .f32) (A0 A1 : S128x512x64.Idx → EReal) (y : S8x512.Idx) (i : S128x512.Idx)
    (h0 : ∀ l c, x0 (ix3 (y 0 : Fin 8) l c) = A0 (ix3 (i 0 : Fin 128) l c))
    (h1 : ∀ l c, x1 (ix3 (y 0 : Fin 8) l c) = A1 (ix3 (i 0 : Fin 128) l c))
    (hs : (y 1 : Fin 512) = (i 1 : Fin 512)) :
    sharpBlk x0 x1 y = Cert.Sharpness.sharpArr A0 A1 i := by
  unfold sharpBlk Cert.Sharpness.sharpArr
  rw [hs]
  exact congrArg₂ (fun A B => Cert.Sharpness.sharp1 A B (i 1 : Fin 512))
    (funext fun l => funext fun c => h0 l c) (funext fun l => funext fun c => h1 l c)

/-- A block of `lossBlk` whose input rows are rows of three arrays is the specification's padded loss array of them there. -/
theorem lossBlk_eq_arr (x0 x1 : Vec Ideal S8x512x64 .f32) (x2 : Vec Ideal S8x512x512 .i32)
    (A0 A1 : S128x512x64.Idx → EReal) (A2 : S128x512x512.Idx → BitVec 32) (y : S8x128.Idx) (i : S128x128.Idx)
    (h0 : ∀ l c, x0 (ix3 (y 0 : Fin 8) l c) = A0 (ix3 (i 0 : Fin 128) l c))
    (h1 : ∀ l c, x1 (ix3 (y 0 : Fin 8) l c) = A1 (ix3 (i 0 : Fin 128) l c))
    (h2 : ∀ l s, x2 (ix3 (y 0 : Fin 8) l s) = A2 (ix3 (i 0 : Fin 128) l s)) :
    lossBlk x0 x1 x2 y = Cert.Sharpness.lossPad A0 A1 A2 i := by
  unfold lossBlk Cert.Sharpness.lossPad
  refine congr (congr (congrArg Cert.Sharpness.loss ?_) ?_) ?_
  · exact funext fun l => funext fun c => h0 l c
  · exact funext fun l => funext fun c => h1 l c
  · exact funext fun l => funext fun s => h2 l s

/-- What point `t` writes back to the sharpness array is block `t` of the specification's array. -/
theorem flushed_eq3 (c : Dev nD) (t : Fin cfg0.N) :
    (dats m 0 c).flushed 3 t = ((cfg0.win 3).blk t).view.read (Elt Ideal)
      (Cert.Sharpness.sharpArr (m ((c.tc : Thread nD τ).loc main_arg0)) (m ((c.tc : Thread nD τ).loc main_arg1))) := by
  show (cfg0.win 3).cut (grid0.coords t) ((dats m 0 c).after 3 t) = _
  rw [after0_3, out3_block]
  obtain ⟨-, -, -, -, -, -, -, -, -, e0, e1, -⟩ := index_facts t
  funext y
  show sharpBlk (iblk m c 0 t) (iblk m c 1 t) y
    = Cert.Sharpness.sharpArr (m ((c.tc : Thread nD τ).loc main_arg0)) (m ((c.tc : Thread nD τ).loc main_arg1))
        (((cfg0.win 3).blk t).view.emb y)
  have hr : ((((cfg0.win 3).blk t).view.emb y) 0 : Fin 128).val = 8 * t.val + (y 0).val := by
    show win0_3.index t 0 * 8 + 1 * (y 0).val = _
    rw [e0]; omega
  refine sharpBlk_eq_arr _ _ _ _ y _ (fun l c' => qblk_apply m c t _ _ hr rfl rfl)
    (fun l c' => kblk_apply m c t _ _ hr rfl rfl) (Fin.ext ?_)
  show (y 1).val = win0_3.index t 1 * 512 + 1 * (y 1).val
  rw [e1]; omega

/-- What point `t` writes back to the loss array is block `t` of the specification's padded array. -/
theorem flushed_eq4 (c : Dev nD) (t : Fin cfg0.N) :
    (dats m 0 c).flushed 4 t = ((cfg0.win 4).blk t).view.read (Elt Ideal)
      (Cert.Sharpness.lossPad (m ((c.tc : Thread nD τ).loc main_arg0)) (m ((c.tc : Thread nD τ).loc main_arg1))
        (m ((c.tc : Thread nD τ).loc main_arg2))) := by
  show (cfg0.win 4).cut (grid0.coords t) ((dats m 0 c).after 4 t) = _
  rw [after0_4, out4_block]
  obtain ⟨-, -, -, -, -, -, -, -, -, -, -, e0, e1⟩ := index_facts t
  funext y
  show lossBlk (iblk m c 0 t) (iblk m c 1 t) (iblk m c 2 t) y
    = Cert.Sharpness.lossPad (m ((c.tc : Thread nD τ).loc main_arg0)) (m ((c.tc : Thread nD τ).loc main_arg1))
        (m ((c.tc : Thread nD τ).loc main_arg2)) (((cfg0.win 4).blk t).view.emb y)
  have hr : ((((cfg0.win 4).blk t).view.emb y) 0 : Fin 128).val = 8 * t.val + (y 0).val := by
    show win0_4.index t 0 * 8 + 1 * (y 0).val = _
    rw [e0]; omega
  exact lossBlk_eq_arr _ _ _ _ _ _ y _ (fun l c' => qblk_apply m c t _ _ hr rfl rfl)
    (fun l c' => kblk_apply m c t _ _ hr rfl rfl) (fun l s => labblk_apply m c t _ _ hr rfl rfl)

/-- A row index of the sharpness array is in point `t`'s block iff each coordinate is in the block's range. -/
theorem mem_blk3 (t : Fin cfg0.N) (i : S128x512.Idx) :
    i ∈ ((cfg0.win 3).blk t).view.set ↔ ∀ a : Fin 2, win0_3.index t a * S8x512.size a ≤ (i a).val
      ∧ (i a).val < win0_3.index t a * S8x512.size a + S8x512.size a := by
  show i ∈ ((View.whole main_v0_0).slice (win0_3.rect t)).set ↔ _
  rw [View.set_slice_whole, Rect.mem_set_unit]
  exact Iff.rfl

/-- The same for the loss array. -/
theorem mem_blk4 (t : Fin cfg0.N) (i : S128x128.Idx) :
    i ∈ ((cfg0.win 4).blk t).view.set ↔ ∀ a : Fin 2, win0_4.index t a * S8x128.size a ≤ (i a).val
      ∧ (i a).val < win0_4.index t a * S8x128.size a + S8x128.size a := by
  show i ∈ ((View.whole main_v0_1).slice (win0_4.rect t)).set ↔ _
  rw [View.set_slice_whole, Rect.mem_set_unit]
  exact Iff.rfl

/-- Row r of the sharpness array is covered by the block of point r / 8. -/
theorem cover3 (i : S128x512.Idx) :
    ∃ t : Fin cfg0.N, (cfg0.win 3).flush t = true ∧ i ∈ ((cfg0.win 3).blk t).view.set := by
  have hi0 : (i 0).val < 128 := (i 0).isLt
  have hi1 : (i 1).val < 512 := (i 1).isLt
  have hN : cfg0.N = 16 := N_0
  obtain ⟨t, ht⟩ : ∃ t : Fin cfg0.N, t.val = (i 0).val / 8 := ⟨⟨(i 0).val / 8, by rw [hN]; omega⟩, rfl⟩
  obtain ⟨-, -, -, -, -, -, -, -, -, e0, e1, -⟩ := index_facts t
  refine ⟨t, flush0_3 t, ?_⟩
  rw [mem_blk3]
  intro a
  match a with
  | ⟨0, _⟩ =>
    show win0_3.index t (0 : Fin 2) * 8 ≤ (i 0).val ∧ (i 0).val < win0_3.index t (0 : Fin 2) * 8 + 8
    rw [e0, ht]; omega
  | ⟨1, _⟩ =>
    show win0_3.index t (1 : Fin 2) * 512 ≤ (i 1).val ∧ (i 1).val < win0_3.index t (1 : Fin 2) * 512 + 512
    rw [e1]; omega

/-- Row r of the loss array is covered by the block of point r / 8. -/
theorem cover4 (i : S128x128.Idx) :
    ∃ t : Fin cfg0.N, (cfg0.win 4).flush t = true ∧ i ∈ ((cfg0.win 4).blk t).view.set := by
  have hi0 : (i 0).val < 128 := (i 0).isLt
  have hi1 : (i 1).val < 128 := (i 1).isLt
  have hN : cfg0.N = 16 := N_0
  obtain ⟨t, ht⟩ : ∃ t : Fin cfg0.N, t.val = (i 0).val / 8 := ⟨⟨(i 0).val / 8, by rw [hN]; omega⟩, rfl⟩
  obtain ⟨-, -, -, -, -, -, -, -, -, -, -, e0, e1⟩ := index_facts t
  refine ⟨t, flush0_4 t, ?_⟩
  rw [mem_blk4]
  intro a
  match a with
  | ⟨0, _⟩ =>
    show win0_4.index t (0 : Fin 2) * 8 ≤ (i 0).val ∧ (i 0).val < win0_4.index t (0 : Fin 2) * 8 + 8
    rw [e0, ht]; omega
  | ⟨1, _⟩ =>
    show win0_4.index t (1 : Fin 2) * 128 ≤ (i 1).val ∧ (i 1).val < win0_4.index t (1 : Fin 2) * 128 + 128
    rw [e1]; omega

/-- The first output array after the run: every sample's column sharpness. -/
theorem final3 (c : Dev nD) :
    (dats m 0 c).arrAt 3 cfg0.N
      = Cert.Sharpness.sharpArr (m ((c.tc : Thread nD τ).loc main_arg0)) (m ((c.tc : Thread nD τ).loc main_arg1)) :=
  (dats m 0 c).arrAt_eq_of_cover 3
    (Cert.Sharpness.sharpArr (m ((c.tc : Thread nD τ).loc main_arg0)) (m ((c.tc : Thread nD τ).loc main_arg1)))
    (fun t _ => flushed_eq3 m c t) cover3

/-- The second output array after the run: every sample's loss, in every lane of its row. -/
theorem final4 (c : Dev nD) :
    (dats m 0 c).arrAt 4 cfg0.N
      = Cert.Sharpness.lossPad (m ((c.tc : Thread nD τ).loc main_arg0)) (m ((c.tc : Thread nD τ).loc main_arg1))
          (m ((c.tc : Thread nD τ).loc main_arg2)) :=
  (dats m 0 c).arrAt_eq_of_cover 4
    (Cert.Sharpness.lossPad (m ((c.tc : Thread nD τ).loc main_arg0)) (m ((c.tc : Thread nD τ).loc main_arg1))
      (m ((c.tc : Thread nD τ).loc main_arg2)))
    (fun t _ => flushed_eq4 m c t) cover4

end Cert.KernelIdeal.Final

end
-- ==== Proof.KernelRun.lean ====
/- The idealized kernel's run with its results named: the sharpness array, and the mean of column 0 of the loss array
   taken by the host lines after the region (slice column 0, reshape to [128], sum, divide by 128). -/
import proofs.«419364_j58136677319222_3_alg».proof.Proof.KernelBlocks
import Idealize.ShloMosaic.Lib.StableHlo.Run
import Idealize.ShloMosaic.Lib.IdealHost
import Idealize.ShloMosaic.Lib.ValueIdxRank1
import Idealize.ShloMosaic.PureOps.Ideal.Laws

noncomputable section

namespace Cert.KernelIdeal.Final

open Cert.KernelIdeal Cert.KernelIdeal.Gen Idealize.ShloMosaic Idealize.ShloMosaic.TcCoe Idealize.ShloMosaic.ValueIdx Idealize.SL.Sem Idealize.ShloMosaic.StableHlo

/-- Column 0 of a [128, 128] array, as a [128] vector, at `b`. -/
theorem col0_apply (X : FVec Ideal S128x128 .f32) (b : Fin 128) :
    shapeCast S128 (extractStridedSlice S128x1 ![0, 0] X slices_S128x128_S128x1_0_0) shapeCasts_S128x1_S128 (ix1 b)
      = X (ix2 b (0 : Fin 128)) := by
  rw [shapeCast_apply _ _ (ix1 b) (ix2 b (0 : Fin 1)) (by rw [Shape.rowMajor_val_two, Shape.rowMajor_val_one]; show b.val * 1 + 0 = b.val; omega)]
  exact extractStridedSlice_apply _ _ _ _ (ix2 b (0 : Fin 128)) (fun a => by match a with | ⟨0, _⟩ => simp | ⟨1, _⟩ => simp)

/-- The host lines after the region, of a [128, 128] array: the sum of its column 0 over 128. -/
theorem tail_value (X : FVec Ideal S128x128 .f32) :
    Host.divf (F := Ideal)
        (Host.reduceAdd (shapeCast S128 (extractStridedSlice S128x1 ![0, 0] X slices_S128x128_S128x1_0_0) shapeCasts_S128x1_S128)
          (constant S_ .f32 0x00000000#32) reducesTo_S128_S_d0 h_S_)
        (constant S_ .f32 0x43000000#32)
      = fun _ => Ideal.div (∑ b : Fin 128, X (ix2 b (0 : Fin 128))) Cert.Sharpness.c128 := by
  funext i
  rw [hostDivf_apply, hostReduceAdd_apply, Ideal.hostReduceAdd_total reducesTo_S128_S_d0 (fun b => b.elim0)]
  show Ideal.div (Ideal.ofBits .f32 0x00000000#32 + _) _ = _
  rw [Ideal.ofBits_zero_f32, zero_add, ← Equiv.sum_comp (idxEquiv1 (n := 128)).symm]
  refine congrArg (Ideal.div · _) (Finset.sum_congr rfl fun b _ => ?_)
  exact col0_apply X b

variable (m : (ℓ : Loc nD τ sig) → Buf (Elt Ideal) ℓ)

/-- The scalar result is no window's array: it is left as the lines after the region compute it. -/
theorem v4_mem : main_v4 ∈ Pipeline.restRefs sig (cfgs 0).spec :=
  Pipeline.mem_restRefs_of main_v4 rfl (fun w => by fin_cases w <;> decide)

/-- What the lines after the region leave in the scalar result: the mean of the 128 losses. -/
theorem tail_eq (c : Dev nD) :
    Pipeline.afterTail₀ cfgs (dats m) 0 (V0 m) [hostOps1] c main_v4
      = Cert.Sharpness.lossArr (m ((c.tc : Thread nD τ).loc main_arg0)) (m ((c.tc : Thread nD τ).loc main_arg1))
          (m ((c.tc : Thread nD τ).loc main_arg2)) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v0_1)
      = Cert.Sharpness.lossPad (m ((c.tc : Thread nD τ).loc main_arg0)) (m ((c.tc : Thread nD τ).loc main_arg1))
          (m ((c.tc : Thread nD τ).loc main_arg2)) :=
    (Pipeline.withArrays_arr spec0 launch0.win.arr_inj c _ _ 4).trans (final4 m c)
  rw [e]
  exact tail_value _

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0)
          = Cert.Sharpness.sharpArr (m ((c.tc : Thread nD τ).loc main_arg0)) (m ((c.tc : Thread nD τ).loc main_arg1))
      ∧ r.2.mem ((c.tc : Thread nD τ).loc main_v4)
          = Cert.Sharpness.lossArr (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 3).trans (final3 m c),
      ((h c).2 main_v4 v4_mem).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Final

end
-- ==== Proof.RefTerm.lean ====
/-
  The reference's two results as terms of its three arguments: its host operations composed, in the order the
  program applies them, grouped by what they compute — the similarity, a peak statistic down the columns and one along
  the rows (each with the unbiased standard deviation jnp computes through its variance, whose guard "511 > 0" selects
  the variance), the softmax along the last axis, the clip, and the masked sums. Generic in the float instance.
-/
import proofs.«419364_j58136677319222_3_alg».proof.Proof.Gen.ReferenceIdeal

noncomputable section

namespace Cert.RefTerm

open Cert.ReferenceIdeal Cert.ReferenceIdeal.Gen Idealize.ShloMosaic

variable {F : FTy → Type} [FloatOps F]

/-- A scalar constant splat over a shape. -/
abbrev splat3 (b : BitVec 32) : FVec F S128x512x512 .f32 :=
  broadcastInDim S128x512x512 ![] bcast_S_S128x512x512 (constant S_ .f32 b)
abbrev splat2 (b : BitVec 32) : FVec F S128x512 .f32 :=
  broadcastInDim S128x512 ![] bcast_S_S128x512 (constant S_ .f32 b)
abbrev splat1 (b : BitVec 32) : FVec F S128 .f32 :=
  broadcastInDim S128 ![] bcast_S_S128 (constant S_ .f32 b)

/-- (1 + q·kᵀ) · ½, batched. -/
def sim (q k : FVec F S128x512x64 .f32) : FVec F S128x512x512 .f32 :=
  mulf (addf (splat3 0x3F800000#32) (Host.dotGeneral dot_S128x512x64_S128x512x64_S128x512x512_2_2_1_1_0_0 none q k))
    (splat3 0x3F000000#32)

/-- 512 − 1 as the program computes it: the f32 512 less the converted integer 1. -/
def ddof : FVec F S_ .f32 := subf (constant S_ .f32 0x44000000#32) (sitofp .f32 (constantI S_ 32 1#32))

/-- jnp's unbiased variance down axis 1, under its guard, then the square root. -/
def stdCol (x : FVec F S128x512x512 .f32) : FVec F S128x512 .f32 :=
  Host.sqrt
    (select (broadcastInDim S128x512 ![] bcast_S_S128x512 (cmpf .ogt (ddof (F := F)) (constant S_ .f32 0x00000000#32)))
      (Host.divf
        (Host.reduceAdd
          (mulf
            (subf x (broadcastInDim S128x512x512 ![0, 1, 2] bcast_S128x1x512_S128x512x512_0_1_2
              (Host.divf (broadcastInDim S128x1x512 ![0, 2] bcast_S128x512_S128x1x512_0_2
                  (Host.reduceAdd x (constant S_ .f32 0x00000000#32) reducesTo_S128x512x512_S128x512_d1 h_S_))
                (broadcastInDim S128x1x512 ![] bcast_S_S128x1x512 (constant S_ .f32 0x44000000#32)))))
            (subf x (broadcastInDim S128x512x512 ![0, 1, 2] bcast_S128x1x512_S128x512x512_0_1_2
              (Host.divf (broadcastInDim S128x1x512 ![0, 2] bcast_S128x512_S128x1x512_0_2
                  (Host.reduceAdd x (constant S_ .f32 0x00000000#32) reducesTo_S128x512x512_S128x512_d1 h_S_))
                (broadcastInDim S128x1x512 ![] bcast_S_S128x1x512 (constant S_ .f32 0x44000000#32))))))
          (constant S_ .f32 0x00000000#32) reducesTo_S128x512x512_S128x512_d1 h_S_)
        (broadcastInDim S128x512 ![] bcast_S_S128x512 (ddof (F := F))))
      (broadcastInDim S128x512 ![] bcast_S_S128x512 (id (constant S_ .f32 0x7FC00000#32))))

/-- The same along axis 2. -/
def stdRow (x : FVec F S128x512x512 .f32) : FVec F S128x512 .f32 :=
  Host.sqrt
    (select (broadcastInDim S128x512 ![] bcast_S_S128x512 (cmpf .ogt (ddof (F := F)) (constant S_ .f32 0x00000000#32)))
      (Host.divf
        (Host.reduceAdd
          (mulf
            (subf x (broadcastInDim S128x512x512 ![0, 1, 2] bcast_S128x512x1_S128x512x512_0_1_2
              (Host.divf (broadcastInDim S128x512x1 ![0, 1] bcast_S128x512_S128x512x1_0_1
                  (Host.reduceAdd x (constant S_ .f32 0x00000000#32) reducesTo_S128x512x512_S128x512_d2 h_S_))
                (broadcastInDim S128x512x1 ![] bcast_S_S128x512x1 (constant S_ .f32 0x44000000#32)))))
            (subf x (broadcastInDim S128x512x512 ![0, 1, 2] bcast_S128x512x1_S128x512x512_0_1_2
              (Host.divf (broadcastInDim S128x512x1 ![0, 1] bcast_S128x512_S128x512x1_0_1
                  (Host.reduceAdd x (constant S_ .f32 0x00000000#32) reducesTo_S128x512x512_S128x512_d2 h_S_))
                (broadcastInDim S128x512x1 ![] bcast_S_S128x512x1 (constant S_ .f32 0x44000000#32))))))
          (constant S_ .f32 0x00000000#32) reducesTo_S128x512x512_S128x512_d2 h_S_)
        (broadcastInDim S128x512 ![] bcast_S_S128x512 (ddof (F := F))))
      (broadcastInDim S128x512 ![] bcast_S_S128x512 (id (constant S_ .f32 0x7FC00000#32))))

/-- (max − mean)/std down axis 1: one value per (sample, key). -/
def peakCol (x : FVec F S128x512x512 .f32) : FVec F S128x512 .f32 :=
  Host.divf
    (subf (Host.reduce FloatOps.maximumf x (constant S_ .f32 0xFF800000#32) reducesTo_S128x512x512_S128x512_d1 h_S_)
      (Host.divf (Host.reduceAdd x (constant S_ .f32 0x00000000#32) reducesTo_S128x512x512_S128x512_d1 h_S_)
        (splat2 0x44000000#32)))
    (stdCol x)

/-- (max − mean)/std along axis 2: one value per (sample, query). -/
def peakRow (x : FVec F S128x512x512 .f32) : FVec F S128x512 .f32 :=
  Host.divf
    (subf (Host.reduce FloatOps.maximumf x (constant S_ .f32 0xFF800000#32) reducesTo_S128x512x512_S128x512_d2 h_S_)
      (Host.divf (Host.reduceAdd x (constant S_ .f32 0x00000000#32) reducesTo_S128x512x512_S128x512_d2 h_S_)
        (splat2 0x44000000#32)))
    (stdRow x)

/-- jax.nn.softmax along the last axis of a [128, 512] array. -/
def softmax (x : FVec F S128x512 .f32) : FVec F S128x512 .f32 :=
  Host.divf
    (Host.exp (subf x (broadcastInDim S128x512 ![0, 1] bcast_S128x1_S128x512_0_1 (broadcastInDim S128x1 ![0] bcast_S128_S128x1_0
      (maximumf (splat1 0xFF800000#32)
        (Host.reduce FloatOps.maximumf x (constant S_ .f32 0xFF800000#32) reducesTo_S128x512_S128_d1 h_S_))))))
    (broadcastInDim S128x512 ![0, 1] bcast_S128x1_S128x512_0_1 (broadcastInDim S128x1 ![0] bcast_S128_S128x1_0
      (Host.reduceAdd
        (Host.exp (subf x (broadcastInDim S128x512 ![0, 1] bcast_S128x1_S128x512_0_1 (broadcastInDim S128x1 ![0] bcast_S128_S128x1_0
          (maximumf (splat1 0xFF800000#32)
            (Host.reduce FloatOps.maximumf x (constant S_ .f32 0xFF800000#32) reducesTo_S128x512_S128_d1 h_S_))))))
        (constant S_ .f32 0x00000000#32) reducesTo_S128x512_S128_d1 h_S_)))

/-- The first result: the column sharpness of every sample. -/
def sharp (q k : FVec F S128x512x64 .f32) : FVec F S128x512 .f32 := softmax (peakCol (sim q k))

/-- jnp.clip to [ε, 1 − ε]. -/
def clip (x : FVec F S128x512x512 .f32) : FVec F S128x512x512 .f32 :=
  minimumf (broadcastInDim S128x512x512 ![] bcast_S_S128x512x512 (id (constant S_ .f32 0x3F7FFFEF#32)))
    (maximumf (broadcastInDim S128x512x512 ![] bcast_S_S128x512x512 (id (constant S_ .f32 0x358637BD#32))) x)

/-- The indicator of `lab = v` as a float array. -/
def mask (lab : IVec S128x512x512 32) (v : BitVec 32) : FVec F S128x512x512 .f32 :=
  uitofp .f32 (cmpi .eq lab (broadcastInDim S128x512x512 ![] bcast_S_S128x512x512 (constantI S_ 32 v)))

/-- The per-sample losses from the similarity, the two sharpness arrays and the labels. -/
def losses (x : FVec F S128x512x512 .f32) (s1 s2 : FVec F S128x512 .f32) (lab : IVec S128x512x512 32) : FVec F S128 .f32 :=
  addf
    (mulf
      (addf
        (Host.reduceAdd
          (mulf (mulf (Host.negf (Host.log (clip x)))
              (broadcastInDim S128x512x512 ![0, 1, 2] bcast_S128x1x512_S128x512x512_0_1_2
                (broadcastInDim S128x1x512 ![0, 2] bcast_S128x512_S128x1x512_0_2 s1)))
            (mask lab 1#32))
          (constant S_ .f32 0x00000000#32) reducesTo_S128x512x512_S128_d1_2 h_S_)
        (Host.reduceAdd
          (mulf (mulf (Host.negf (Host.log (clip x)))
              (broadcastInDim S128x512x512 ![0, 1, 2] bcast_S128x512x1_S128x512x512_0_1_2
                (broadcastInDim S128x512x1 ![0, 1] bcast_S128x512_S128x512x1_0_1 s2)))
            (mask lab 1#32))
          (constant S_ .f32 0x00000000#32) reducesTo_S128x512x512_S128_d1_2 h_S_))
      (splat1 0x3F000000#32))
    (Host.divf
      (Host.reduceAdd (mulf (Host.negf (Host.log (subf (splat3 0x3F800000#32) (clip x)))) (mask lab 0#32))
        (constant S_ .f32 0x00000000#32) reducesTo_S128x512x512_S128_d1_2 h_S_)
      (Host.reduceAdd (mask (F := F) lab 0#32) (constant S_ .f32 0x00000000#32) reducesTo_S128x512x512_S128_d1_2 h_S_))

/-- The second result: the mean of the 128 losses. -/
def lossMean (q k : FVec F S128x512x64 .f32) (lab : IVec S128x512x512 32) : FVec F S_ .f32 :=
  Host.divf
    (Host.reduceAdd (losses (sim q k) (softmax (peakCol (sim q k))) (softmax (peakRow (sim q k))) lab)
      (constant S_ .f32 0x00000000#32) reducesTo_S128_S_d0 h_S_)
    (constant S_ .f32 0x43000000#32)

end Cert.RefTerm

end
-- ==== Proof.RefRun.lean ====
/- The reference's run read back: @main as the list of its host operations, the called functions' bodies in place,
   and every execution's results at the composed terms of the arguments. -/
import proofs.«419364_j58136677319222_3_alg».proof.Proof.RefTerm
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 151 host operations in program order, each called function's operations in place at its call over that
    call's buffer record: the column standard deviation's twenty-three after the scalar 1 it takes, the row one's
    twenty-three likewise, the clip's six after its two bounds. -/
abbrev ops : List (HloOp τ sig (Elt F)) :=
  [ StableHlo.binary main_arg0 main_arg1 main_v0 ((fun l r => Host.dotGeneral dot_S128x512x64_S128x512x64_S128x512x512_2_2_1_1_0_0 none l r) : (⟨S128x512x64, .f32⟩ : BufTy).Contents (Elt F) → (⟨S128x512x64, .f32⟩ : BufTy).Contents (Elt F) → (⟨S128x512x512, .f32⟩ : BufTy).Contents (Elt F)),
    StableHlo.nullary main_cst (constant S_ .f32 0x3F800000#32),
    StableHlo.unary main_cst main_v1 (broadcastInDim S128x512x512 ![] bcast_S_S128x512x512 : (⟨S_, .f32⟩ : BufTy).Contents (Elt F) → (⟨S128x512x512, .f32⟩ : BufTy).Contents (Elt F)),
    StableHlo.binary main_v1 main_v0 main_v2 (addf : (⟨S128x512x512, .f32⟩ : BufTy).Contents (Elt F) → (⟨S128x512x512, .f32⟩ : BufTy).Contents (Elt F) → (⟨S128x512x512, .f32⟩ : BufTy).Contents (Elt F)),
    StableHlo.nullary main_cst_0 (constant S_ .f32 0x3F000000#32),
    StableHlo.unary main_cst_0 main_v3 (broadcastInDim S128x512x512 ![] bcast_S_S128x512x512 : (⟨S_, .f32⟩ : BufTy).Contents (Elt F) → (⟨S128x512x512, .f32⟩ : BufTy).Contents (Elt F)),
    StableHlo.binary main_v2 main_v3 main_v4 (mulf : (⟨S128x512x512, .f32⟩ : BufTy).Contents (Elt F) → (⟨S128x512x512, .f32⟩ : BufTy).Contents (Elt F) → (⟨S128x512x512, .f32⟩ : BufTy).Contents (Elt F)),
    StableHlo.nullary main_cst_1 (constant S_ .f32 0xFF800000#32),
    StableHlo.binary main_v4 main_cst_1 main_v5 ((fun x v => Host.reduce FloatOps.maximumf x v reducesTo_S128x512x512_S128x512_d1 h_S_) : (⟨S128x512x512, .f32⟩ : BufTy).Contents (Elt F) → (⟨S_, .f32⟩ : BufTy).Contents (Elt F) → (⟨S128x512, .f32⟩ : BufTy).Contents (Elt F)),
    StableHlo.nullary main_cst_2 (constant S_ .f32 0x00000000#32),
    StableHlo.binary main_v4 main_cst_2 main_v6 ((fun x v => Host.reduceAdd x v reducesTo_S128x512x512_S128x512_d1 h_S_) : (⟨S128x512x512, .f32⟩ : BufTy).Contents (Elt F) → (⟨S_, .f32⟩ : BufTy).Contents (Elt F) → (⟨S128x512, .f32⟩ : BufTy).Contents (Elt F)),
    StableHlo.nullary main_cst_3 (constant S_ .f32 0x44000000#32),
    StableHlo.unary main_cst_3 main_v7 (broadcastInDim S128x512 ![] bcast_S_S128x512 : (⟨S_, .f32⟩ : BufTy).Contents (Elt F) → (⟨S128x512, .f32⟩ : BufTy).Contents (Elt F)),
    StableHlo.binary main_v6 main_v7 main_v8 (Host.divf : (⟨S128x512, .f32⟩ : BufTy).Contents (Elt F) → (⟨S128x512, .f32⟩ : BufTy).Contents (Elt F) → (⟨S128x512, .f32⟩ : BufTy).Contents (Elt F)),
    StableHlo.binary main_v5 main_v8 main_v9 (subf : (⟨S128x512, .f32⟩ : BufTy).Contents (Elt F) → (⟨S128x512, .f32⟩ : BufTy).Contents (Elt F) → (⟨S128x512, .f32⟩ : BufTy).Contents (Elt F)),
    StableHlo.nullary main_c (constantI S_ 32 1#32),
    StableHlo.TRef.nullary main_call0.call0.cst (constant S_ .f32 0x00000000#32),
    StableHlo.TRef.binary (.of main_v4 : TRef sig ⟨S128x512x512, .f32⟩) main_call0.call0.cst main_call0.call0.v0 (fun x v => Host.reduceAdd x v reducesTo_S128x512x512_S128x512_d1 h_S_),
    StableHlo.TRef.unary main_call0.call0.v0 main_call0.call0.v1 (broadcastInDim S128x1x512 ![0, 2] bcast_S128x512_S128x1x512_0_2),
    StableHlo.TRef.nullary main_call0.call0.cst_0 (constant S_ .f32 0x44000000#32),
    StableHlo.TRef.unary main_call0.call0.cst_0 main_call0.call0.v2 (broadcastInDim S128x1x512 ![] bcast_S_S128x1x512),
    StableHlo.TRef.binary main_call0.call0.v1 main_call0.call0.v2 main_call0.call0.v3 Host.divf,
    StableHlo.TRef.unary main_call0.call0.v3 main_call0.call0.v4 (broadcastInDim S128x512x512 ![0, 1, 2] bcast_S128x1x512_S128x512x512_0_1_2),
    StableHlo.TRef.binary (.of main_v4 : TRef sig ⟨S128x512x512, .f32⟩) main_call0.call0.v4 main_call0.call0.v5 subf,
    StableHlo.TRef.binary main_call0.call0.v5 main_call0.call0.v5 main_call0.call0.v6 mulf,
    StableHlo.TRef.unary (.of main_c : TRef sig ⟨S_, .i32⟩) main_call0.call0.v7 (sitofp .f32),
    StableHlo.TRef.nullary main_call0.call0.cst_1 (constant S_ .f32 0x44000000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S128x512x512_S128x512_d1 h_S_),
    StableHlo.TRef.unary main_call0.call0.v8 main_call0.call0.v10 (broadcastInDim S128x512 ![] bcast_S_S128x512),
    StableHlo.TRef.binary main_call0.call0.v9 main_call0.call0.v10 main_call0.call0.v11 Host.divf,
    StableHlo.TRef.nullary main_call0.call0.cst_3 (constant S_ .f32 0x00000000#32),
    StableHlo.TRef.binary main_call0.call0.v8 main_call0.call0.cst_3 main_call0.call0.v12 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S128x512 ![] bcast_S_S128x512),
    StableHlo.TRef.ternary main_call0.call0.v12 main_call0.call0.v11 main_call0.call0.call0.v1 main_call0.call0.call0.v2 (fun p a b => select (broadcastInDim S128x512 ![] bcast_S_S128x512 p) a b),
    StableHlo.TRef.unary main_call0.call0.call0.v2 main_call0.v1 Host.sqrt,
    StableHlo.binary main_v9 main_v10 main_v11 (Host.divf : (⟨S128x512, .f32⟩ : BufTy).Contents (Elt F) → (⟨S128x512, .f32⟩ : BufTy).Contents (Elt F) → (⟨S128x512, .f32⟩ : BufTy).Contents (Elt F)),
    StableHlo.nullary main_cst_4 (constant S_ .f32 0xFF800000#32),
    StableHlo.binary main_v11 main_cst_4 main_v12 ((fun x v => Host.reduce FloatOps.maximumf x v reducesTo_S128x512_S128_d1 h_S_) : (⟨S128x512, .f32⟩ : BufTy).Contents (Elt F) → (⟨S_, .f32⟩ : BufTy).Contents (Elt F) → (⟨S128, .f32⟩ : BufTy).Contents (Elt F)),
    StableHlo.nullary main_cst_5 (constant S_ .f32 0xFF800000#32),
    StableHlo.unary main_cst_5 main_v13 (broadcastInDim S128 ![] bcast_S_S128 : (⟨S_, .f32⟩ : BufTy).Contents (Elt F) → (⟨S128, .f32⟩ : BufTy).Contents (Elt F)),
    StableHlo.binary main_v13 main_v12 main_v14 (maximumf : (⟨S128, .f32⟩ : BufTy).Contents (Elt F) → (⟨S128, .f32⟩ : BufTy).Contents (Elt F) → (⟨S128, .f32⟩ : BufTy).Contents (Elt F)),
    StableHlo.unary main_v14 main_v15 (broadcastInDim S128x1 ![0] bcast_S128_S128x1_0 : (⟨S128, .f32⟩ : BufTy).Contents (Elt F) → (⟨S128x1, .f32⟩ : BufTy).Contents (Elt F)),
    StableHlo.unary main_v15 main_v16 (broadcastInDim S128x512 ![0, 1] bcast_S128x1_S128x512_0_1 : (⟨S128x1, .f32⟩ : BufTy).Contents (Elt F) → (⟨S128x512, .f32⟩ : BufTy).Contents (Elt F)),
    StableHlo.binary main_v11 main_v16 main_v17 (subf : (⟨S128x512, .f32⟩ : BufTy).Contents (Elt F) → (⟨S128x512, .f32⟩ : BufTy).Contents (Elt F) → (⟨S128x512, .f32⟩ : BufTy).Contents (Elt F)),
    StableHlo.unary main_v17 main_v18 (Host.exp : (⟨S128x512, .f32⟩ : BufTy).Contents (Elt F) → (⟨S128x512, .f32⟩ : BufTy).Contents (Elt F)),
    StableHlo.nullary main_cst_6 (constant S_ .f32 0x00000000#32),
    StableHlo.binary main_v18 main_cst_6 main_v19 ((fun x v => Host.reduceAdd x v reducesTo_S128x512_S128_d1 h_S_) : (⟨S128x512, .f32⟩ : BufTy).Contents (Elt F) → (⟨S_, .f32⟩ : BufTy).Contents (Elt F) → (⟨S128, .f32⟩ : BufTy).Contents (Elt F)),
    StableHlo.unary main_v19 main_v20 (broadcastInDim S128x1 ![0] bcast_S128_S128x1_0 : (⟨S128, .f32⟩ : BufTy).Contents (Elt F) → (⟨S128x1, .f32⟩ : BufTy).Contents (Elt F)),
    StableHlo.unary main_v20 main_v21 (broadcastInDim S128x512 ![0, 1] bcast_S128x1_S128x512_0_1 : (⟨S128x1, .f32⟩ : BufTy).Contents (Elt F) → (⟨S128x512, .f32⟩ : BufTy).Contents (Elt F)),
    StableHlo.binary main_v18 main_v21 main_v22 (Host.divf : (⟨S128x512, .f32⟩ : BufTy).Contents (Elt F) → (⟨S128x512, .f32⟩ : BufTy).Contents (Elt F) → (⟨S128x512, .f32⟩ : BufTy).Contents (Elt F)),
    StableHlo.nullary main_cst_7 (constant S_ .f32 0xFF800000#32),
    StableHlo.binary main_v4 main_cst_7 main_v23 ((fun x v => Host.reduce FloatOps.maximumf x v reducesTo_S128x512x512_S128x512_d2 h_S_) : (⟨S128x512x512, .f32⟩ : BufTy).Contents (Elt F) → (⟨S_, .f32⟩ : BufTy).Contents (Elt F) → (⟨S128x512, .f32⟩ : BufTy).Contents (Elt F)),
    StableHlo.nullary main_cst_8 (constant S_ .f32 0x00000000#32),
    StableHlo.binary main_v4 main_cst_8 main_v24 ((fun x v => Host.reduceAdd x v reducesTo_S128x512x512_S128x512_d2 h_S_) : (⟨S128x512x512, .f32⟩ : BufTy).Contents (Elt F) → (⟨S_, .f32⟩ : BufTy).Contents (Elt F) → (⟨S128x512, .f32⟩ : BufTy).Contents (Elt F)),
    StableHlo.nullary main_cst_9 (constant S_ .f32 0x44000000#32),
    StableHlo.unary main_cst_9 main_v25 (broadcastInDim S128x512 ![] bcast_S_S128x512 : (⟨S_, .f32⟩ : BufTy).Contents (Elt F) → (⟨S128x512, .f32⟩ : BufTy).Contents (Elt F)),
    StableHlo.binary main_v24 main_v25 main_v26 (Host.divf : (⟨S128x512, .f32⟩ : BufTy).Contents (Elt F) → (⟨S128x512, .f32⟩ : BufTy).Contents (Elt F) → (⟨S128x512, .f32⟩ : BufTy).Contents (Elt F)),
    StableHlo.binary main_v23 main_v26 main_v27 (subf : (⟨S128x512, .f32⟩ : BufTy).Contents (Elt F) → (⟨S128x512, .f32⟩ : BufTy).Contents (Elt F) → (⟨S128x512, .f32⟩ : BufTy).Contents (Elt F)),
    StableHlo.nullary main_c_10 (constantI S_ 32 1#32),
    StableHlo.TRef.nullary main_call1.call0.cst (constant S_ .f32 0x00000000#32),
    StableHlo.TRef.binary (.of main_v4 : TRef sig ⟨S128x512x512, .f32⟩) main_call1.call0.cst main_call1.call0.v0 (fun x v => Host.reduceAdd x v reducesTo_S128x512x512_S128x512_d2 h_S_),
    StableHlo.TRef.unary main_call1.call0.v0 main_call1.call0.v1 (broadcastInDim S128x512x1 ![0, 1] bcast_S128x512_S128x512x1_0_1),
    StableHlo.TRef.nullary main_call1.call0.cst_0 (constant S_ .f32 0x44000000#32),
    StableHlo.TRef.unary main_call1.call0.cst_0 main_call1.call0.v2 (broadcastInDim S128x512x1 ![] bcast_S_S128x512x1),
    StableHlo.TRef.binary main_call1.call0.v1 main_call1.call0.v2 main_call1.call0.v3 Host.divf,
    StableHlo.TRef.unary main_call1.call0.v3 main_call1.call0.v4 (broadcastInDim S128x512x512 ![0, 1, 2] bcast_S128x512x1_S128x512x512_0_1_2),
    StableHlo.TRef.binary (.of main_v4 : TRef sig ⟨S128x512x512, .f32⟩) main_call1.call0.v4 main_call1.call0.v5 subf,
    StableHlo.TRef.binary main_call1.call0.v5 main_call1.call0.v5 main_call1.call0.v6 mulf,
    StableHlo.TRef.unary (.of main_c_10 : TRef sig ⟨S_, .i32⟩) main_call1.call0.v7 (sitofp .f32),
    StableHlo.TRef.nullary main_call1.call0.cst_1 (constant S_ .f32 0x44000000#32),
    StableHlo.TRef.binary main_call1.call0.cst_1 main_call1.call0.v7 main_call1.call0.v8 subf,
    StableHlo.TRef.nullary main_call1.call0.cst_2 (constant S_ .f32 0x00000000#32),
    StableHlo.TRef.binary main_call1.call0.v6 main_call1.call0.cst_2 main_call1.call0.v9 (fun x v => Host.reduceAdd x v reducesTo_S128x512x512_S128x512_d2 h_S_),
    StableHlo.TRef.unary main_call1.call0.v8 main_call1.call0.v10 (broadcastInDim S128x512 ![] bcast_S_S128x512),
    StableHlo.TRef.binary main_call1.call0.v9 main_call1.call0.v10 main_call1.call0.v11 Host.divf,
    StableHlo.TRef.nullary main_call1.call0.cst_3 (constant S_ .f32 0x00000000#32),
    StableHlo.TRef.binary main_call1.call0.v8 main_call1.call0.cst_3 main_call1.call0.v12 (cmpf .ogt),
    StableHlo.TRef.nullary main_call1.call0.cst_4 (constant S_ .f32 0x7FC00000#32),
    StableHlo.TRef.unary main_call1.call0.cst_4 main_call1.call0.call0.v0 id,
    StableHlo.TRef.unary main_call1.call0.call0.v0 main_call1.call0.call0.v1 (broadcastInDim S128x512 ![] bcast_S_S128x512),
    StableHlo.TRef.ternary main_call1.call0.v12 main_call1.call0.v11 main_call1.call0.call0.v1 main_call1.call0.call0.v2 (fun p a b => select (broadcastInDim S128x512 ![] bcast_S_S128x512 p) a b),
    StableHlo.TRef.unary main_call1.call0.call0.v2 main_call1.v1 Host.sqrt,
    StableHlo.binary main_v27 main_v28 main_v29 (Host.divf : (⟨S128x512, .f32⟩ : BufTy).Contents (Elt F) → (⟨S128x512, .f32⟩ : BufTy).Contents (Elt F) → (⟨S128x512, .f32⟩ : BufTy).Contents (Elt F)),
    StableHlo.nullary main_cst_11 (constant S_ .f32 0xFF800000#32),
    StableHlo.binary main_v29 main_cst_11 main_v30 ((fun x v => Host.reduce FloatOps.maximumf x v reducesTo_S128x512_S128_d1 h_S_) : (⟨S128x512, .f32⟩ : BufTy).Contents (Elt F) → (⟨S_, .f32⟩ : BufTy).Contents (Elt F) → (⟨S128, .f32⟩ : BufTy).Contents (Elt F)),
    StableHlo.nullary main_cst_12 (constant S_ .f32 0xFF800000#32),
    StableHlo.unary main_cst_12 main_v31 (broadcastInDim S128 ![] bcast_S_S128 : (⟨S_, .f32⟩ : BufTy).Contents (Elt F) → (⟨S128, .f32⟩ : BufTy).Contents (Elt F)),
    StableHlo.binary main_v31 main_v30 main_v32 (maximumf : (⟨S128, .f32⟩ : BufTy).Contents (Elt F) → (⟨S128, .f32⟩ : BufTy).Contents (Elt F) → (⟨S128, .f32⟩ : BufTy).Contents (Elt F)),
    StableHlo.unary main_v32 main_v33 (broadcastInDim S128x1 ![0] bcast_S128_S128x1_0 : (⟨S128, .f32⟩ : BufTy).Contents (Elt F) → (⟨S128x1, .f32⟩ : BufTy).Contents (Elt F)),
    StableHlo.unary main_v33 main_v34 (broadcastInDim S128x512 ![0, 1] bcast_S128x1_S128x512_0_1 : (⟨S128x1, .f32⟩ : BufTy).Contents (Elt F) → (⟨S128x512, .f32⟩ : BufTy).Contents (Elt F)),
    StableHlo.binary main_v29 main_v34 main_v35 (subf : (⟨S128x512, .f32⟩ : BufTy).Contents (Elt F) → (⟨S128x512, .f32⟩ : BufTy).Contents (Elt F) → (⟨S128x512, .f32⟩ : BufTy).Contents (Elt F)),
    StableHlo.unary main_v35 main_v36 (Host.exp : (⟨S128x512, .f32⟩ : BufTy).Contents (Elt F) → (⟨S128x512, .f32⟩ : BufTy).Contents (Elt F)),
    StableHlo.nullary main_cst_13 (constant S_ .f32 0x00000000#32),
    StableHlo.binary main_v36 main_cst_13 main_v37 ((fun x v => Host.reduceAdd x v reducesTo_S128x512_S128_d1 h_S_) : (⟨S128x512, .f32⟩ : BufTy).Contents (Elt F) → (⟨S_, .f32⟩ : BufTy).Contents (Elt F) → (⟨S128, .f32⟩ : BufTy).Contents (Elt F)),
    StableHlo.unary main_v37 main_v38 (broadcastInDim S128x1 ![0] bcast_S128_S128x1_0 : (⟨S128, .f32⟩ : BufTy).Contents (Elt F) → (⟨S128x1, .f32⟩ : BufTy).Contents (Elt F)),
    StableHlo.unary main_v38 main_v39 (broadcastInDim S128x512 ![0, 1] bcast_S128x1_S128x512_0_1 : (⟨S128x1, .f32⟩ : BufTy).Contents (Elt F) → (⟨S128x512, .f32⟩ : BufTy).Contents (Elt F)),
    StableHlo.binary main_v36 main_v39 main_v40 (Host.divf : (⟨S128x512, .f32⟩ : BufTy).Contents (Elt F) → (⟨S128x512, .f32⟩ : BufTy).Contents (Elt F) → (⟨S128x512, .f32⟩ : BufTy).Contents (Elt F)),
    StableHlo.nullary main_cst_14 (constant S_ .f32 0x358637BD#32),
    StableHlo.nullary main_cst_15 (constant S_ .f32 0x3F7FFFEF#32),
    StableHlo.TRef.unary (.of main_cst_14 : TRef sig ⟨S_, .f32⟩) main_call2.v0 id,
    StableHlo.TRef.unary main_call2.v0 main_call2.v1 (broadcastInDim S128x512x512 ![] bcast_S_S128x512x512),
    StableHlo.TRef.binary main_call2.v1 (.of main_v4 : TRef sig ⟨S128x512x512, .f32⟩) main_call2.v2 maximumf,
    StableHlo.TRef.unary (.of main_cst_15 : TRef sig ⟨S_, .f32⟩) main_call2.v3 id,
    StableHlo.TRef.unary main_call2.v3 main_call2.v4 (broadcastInDim S128x512x512 ![] bcast_S_S128x512x512),
    StableHlo.TRef.binary main_call2.v4 main_call2.v2 main_call2.v5 minimumf,
    StableHlo.unary main_v41 main_v42 (Host.log : (⟨S128x512x512, .f32⟩ : BufTy).Contents (Elt F) → (⟨S128x512x512, .f32⟩ : BufTy).Contents (Elt F)),
    StableHlo.unary main_v42 main_v43 (Host.negf : (⟨S128x512x512, .f32⟩ : BufTy).Contents (Elt F) → (⟨S128x512x512, .f32⟩ : BufTy).Contents (Elt F)),
    StableHlo.nullary main_cst_16 (constant S_ .f32 0x3F800000#32),
    StableHlo.unary main_cst_16 main_v44 (broadcastInDim S128x512x512 ![] bcast_S_S128x512x512 : (⟨S_, .f32⟩ : BufTy).Contents (Elt F) → (⟨S128x512x512, .f32⟩ : BufTy).Contents (Elt F)),
    StableHlo.binary main_v44 main_v41 main_v45 (subf : (⟨S128x512x512, .f32⟩ : BufTy).Contents (Elt F) → (⟨S128x512x512, .f32⟩ : BufTy).Contents (Elt F) → (⟨S128x512x512, .f32⟩ : BufTy).Contents (Elt F)),
    StableHlo.unary main_v45 main_v46 (Host.log : (⟨S128x512x512, .f32⟩ : BufTy).Contents (Elt F) → (⟨S128x512x512, .f32⟩ : BufTy).Contents (Elt F)),
    StableHlo.unary main_v46 main_v47 (Host.negf : (⟨S128x512x512, .f32⟩ : BufTy).Contents (Elt F) → (⟨S128x512x512, .f32⟩ : BufTy).Contents (Elt F)),
    StableHlo.nullary main_c_17 (constantI S_ 32 1#32),
    StableHlo.unary main_c_17 main_v48 (broadcastInDim S128x512x512 ![] bcast_S_S128x512x512 : (⟨S_, .i32⟩ : BufTy).Contents (Elt F) → (⟨S128x512x512, .i32⟩ : BufTy).Contents (Elt F)),
    StableHlo.binary main_arg2 main_v48 main_v49 (cmpi .eq : (⟨S128x512x512, .i32⟩ : BufTy).Contents (Elt F) → (⟨S128x512x512, .i32⟩ : BufTy).Contents (Elt F) → (⟨S128x512x512, .i1⟩ : BufTy).Contents (Elt F)),
    StableHlo.unary main_v49 main_v50 (uitofp .f32 : (⟨S128x512x512, .i1⟩ : BufTy).Contents (Elt F) → (⟨S128x512x512, .f32⟩ : BufTy).Contents (Elt F)),
    StableHlo.nullary main_c_18 (constantI S_ 32 0#32),
    StableHlo.unary main_c_18 main_v51 (broadcastInDim S128x512x512 ![] bcast_S_S128x512x512 : (⟨S_, .i32⟩ : BufTy).Contents (Elt F) → (⟨S128x512x512, .i32⟩ : BufTy).Contents (Elt F)),
    StableHlo.binary main_arg2 main_v51 main_v52 (cmpi .eq : (⟨S128x512x512, .i32⟩ : BufTy).Contents (Elt F) → (⟨S128x512x512, .i32⟩ : BufTy).Contents (Elt F) → (⟨S128x512x512, .i1⟩ : BufTy).Contents (Elt F)),
    StableHlo.unary main_v52 main_v53 (uitofp .f32 : (⟨S128x512x512, .i1⟩ : BufTy).Contents (Elt F) → (⟨S128x512x512, .f32⟩ : BufTy).Contents (Elt F)),
    StableHlo.unary main_v22 main_v54 (broadcastInDim S128x1x512 ![0, 2] bcast_S128x512_S128x1x512_0_2 : (⟨S128x512, .f32⟩ : BufTy).Contents (Elt F) → (⟨S128x1x512, .f32⟩ : BufTy).Contents (Elt F)),
    StableHlo.unary main_v54 main_v55 (broadcastInDim S128x512x512 ![0, 1, 2] bcast_S128x1x512_S128x512x512_0_1_2 : (⟨S128x1x512, .f32⟩ : BufTy).Contents (Elt F) → (⟨S128x512x512, .f32⟩ : BufTy).Contents (Elt F)),
    StableHlo.binary main_v43 main_v55 main_v56 (mulf : (⟨S128x512x512, .f32⟩ : BufTy).Contents (Elt F) → (⟨S128x512x512, .f32⟩ : BufTy).Contents (Elt F) → (⟨S128x512x512, .f32⟩ : BufTy).Contents (Elt F)),
    StableHlo.binary main_v56 main_v50 main_v57 (mulf : (⟨S128x512x512, .f32⟩ : BufTy).Contents (Elt F) → (⟨S128x512x512, .f32⟩ : BufTy).Contents (Elt F) → (⟨S128x512x512, .f32⟩ : BufTy).Contents (Elt F)),
    StableHlo.nullary main_cst_19 (constant S_ .f32 0x00000000#32),
    StableHlo.binary main_v57 main_cst_19 main_v58 ((fun x v => Host.reduceAdd x v reducesTo_S128x512x512_S128_d1_2 h_S_) : (⟨S128x512x512, .f32⟩ : BufTy).Contents (Elt F) → (⟨S_, .f32⟩ : BufTy).Contents (Elt F) → (⟨S128, .f32⟩ : BufTy).Contents (Elt F)),
    StableHlo.unary main_v40 main_v59 (broadcastInDim S128x512x1 ![0, 1] bcast_S128x512_S128x512x1_0_1 : (⟨S128x512, .f32⟩ : BufTy).Contents (Elt F) → (⟨S128x512x1, .f32⟩ : BufTy).Contents (Elt F)),
    StableHlo.unary main_v59 main_v60 (broadcastInDim S128x512x512 ![0, 1, 2] bcast_S128x512x1_S128x512x512_0_1_2 : (⟨S128x512x1, .f32⟩ : BufTy).Contents (Elt F) → (⟨S128x512x512, .f32⟩ : BufTy).Contents (Elt F)),
    StableHlo.binary main_v43 main_v60 main_v61 (mulf : (⟨S128x512x512, .f32⟩ : BufTy).Contents (Elt F) → (⟨S128x512x512, .f32⟩ : BufTy).Contents (Elt F) → (⟨S128x512x512, .f32⟩ : BufTy).Contents (Elt F)),
    StableHlo.binary main_v61 main_v50 main_v62 (mulf : (⟨S128x512x512, .f32⟩ : BufTy).Contents (Elt F) → (⟨S128x512x512, .f32⟩ : BufTy).Contents (Elt F) → (⟨S128x512x512, .f32⟩ : BufTy).Contents (Elt F)),
    StableHlo.nullary main_cst_20 (constant S_ .f32 0x00000000#32),
    StableHlo.binary main_v62 main_cst_20 main_v63 ((fun x v => Host.reduceAdd x v reducesTo_S128x512x512_S128_d1_2 h_S_) : (⟨S128x512x512, .f32⟩ : BufTy).Contents (Elt F) → (⟨S_, .f32⟩ : BufTy).Contents (Elt F) → (⟨S128, .f32⟩ : BufTy).Contents (Elt F)),
    StableHlo.binary main_v47 main_v53 main_v64 (mulf : (⟨S128x512x512, .f32⟩ : BufTy).Contents (Elt F) → (⟨S128x512x512, .f32⟩ : BufTy).Contents (Elt F) → (⟨S128x512x512, .f32⟩ : BufTy).Contents (Elt F)),
    StableHlo.nullary main_cst_21 (constant S_ .f32 0x00000000#32),
    StableHlo.binary main_v64 main_cst_21 main_v65 ((fun x v => Host.reduceAdd x v reducesTo_S128x512x512_S128_d1_2 h_S_) : (⟨S128x512x512, .f32⟩ : BufTy).Contents (Elt F) → (⟨S_, .f32⟩ : BufTy).Contents (Elt F) → (⟨S128, .f32⟩ : BufTy).Contents (Elt F)),
    StableHlo.nullary main_cst_22 (constant S_ .f32 0x00000000#32),
    StableHlo.binary main_v53 main_cst_22 main_v66 ((fun x v => Host.reduceAdd x v reducesTo_S128x512x512_S128_d1_2 h_S_) : (⟨S128x512x512, .f32⟩ : BufTy).Contents (Elt F) → (⟨S_, .f32⟩ : BufTy).Contents (Elt F) → (⟨S128, .f32⟩ : BufTy).Contents (Elt F)),
    StableHlo.binary main_v65 main_v66 main_v67 (Host.divf : (⟨S128, .f32⟩ : BufTy).Contents (Elt F) → (⟨S128, .f32⟩ : BufTy).Contents (Elt F) → (⟨S128, .f32⟩ : BufTy).Contents (Elt F)),
    StableHlo.binary main_v58 main_v63 main_v68 (addf : (⟨S128, .f32⟩ : BufTy).Contents (Elt F) → (⟨S128, .f32⟩ : BufTy).Contents (Elt F) → (⟨S128, .f32⟩ : BufTy).Contents (Elt F)),
    StableHlo.nullary main_cst_23 (constant S_ .f32 0x3F000000#32),
    StableHlo.unary main_cst_23 main_v69 (broadcastInDim S128 ![] bcast_S_S128 : (⟨S_, .f32⟩ : BufTy).Contents (Elt F) → (⟨S128, .f32⟩ : BufTy).Contents (Elt F)),
    StableHlo.binary main_v68 main_v69 main_v70 (mulf : (⟨S128, .f32⟩ : BufTy).Contents (Elt F) → (⟨S128, .f32⟩ : BufTy).Contents (Elt F) → (⟨S128, .f32⟩ : BufTy).Contents (Elt F)),
    StableHlo.binary main_v70 main_v67 main_v71 (addf : (⟨S128, .f32⟩ : BufTy).Contents (Elt F) → (⟨S128, .f32⟩ : BufTy).Contents (Elt F) → (⟨S128, .f32⟩ : BufTy).Contents (Elt F)),
    StableHlo.nullary main_cst_24 (constant S_ .f32 0x00000000#32),
    StableHlo.binary main_v71 main_cst_24 main_v72 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.nullary main_cst_25 (constant S_ .f32 0x43000000#32),
    StableHlo.binary main_v72 main_cst_25 main_v73 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- @main is that straight line: the two windows and the called functions unfolded at their calls, the records at
    their fields, and the sequencing reassociated, both sides are one chain of the same steps. -/
theorem main_eq (c : Dev nD) : main (F := F) c = seq ops := by
  simp only [main, main_part0, main_part1, fn_std.body, fn_var.body, fn_std_0.body, fn_var_1.body, fn_where.body, fn_clip.body,
    seq, bind_assoc, pure_bind]

/-- The signature scopes no buffer. -/
theorem scopedRefs_eq : (Finset.univ.filter fun b : Ref sig .tc => b.isScoped) = ∅ := by decide
/-- It has no semaphore, so none is scoped. -/
theorem scopedSems_eq : (Finset.univ.filter fun sm : SemLoc sig => sm.isScoped .tc) = ∅ := by decide

/-- Every operation touches only TensorCore buffers of the device. -/
theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., nullary_bufs_sub .., binary_bufs_sub .., nullary_bufs_sub .., binary_bufs_sub .., nullary_bufs_sub ..,
    unary_bufs_sub .., binary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    nullary_bufs_sub .., binary_bufs_sub .., nullary_bufs_sub .., binary_bufs_sub .., nullary_bufs_sub .., unary_bufs_sub ..,
    binary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., nullary_bufs_sub .., unary_bufs_sub .., binary_bufs_sub ..,
    unary_bufs_sub .., unary_bufs_sub .., nullary_bufs_sub .., unary_bufs_sub .., binary_bufs_sub .., unary_bufs_sub ..,
    nullary_bufs_sub .., unary_bufs_sub .., binary_bufs_sub .., unary_bufs_sub .., unary_bufs_sub .., unary_bufs_sub ..,
    binary_bufs_sub .., binary_bufs_sub .., nullary_bufs_sub .., binary_bufs_sub .., unary_bufs_sub .., unary_bufs_sub ..,
    binary_bufs_sub .., binary_bufs_sub .., nullary_bufs_sub .., binary_bufs_sub .., binary_bufs_sub .., nullary_bufs_sub ..,
    binary_bufs_sub .., nullary_bufs_sub .., binary_bufs_sub .., binary_bufs_sub .., binary_bufs_sub .., nullary_bufs_sub ..,
    unary_bufs_sub .., binary_bufs_sub .., binary_bufs_sub .., nullary_bufs_sub .., binary_bufs_sub .., nullary_bufs_sub ..,
    binary_bufs_sub ..⟩

attribute [local irreducible] Host.reduce Host.reduceAdd in
set_option maxRecDepth 8192 in
set_option maxHeartbeats 4000000 in
/-- The first result: folding the 151 operations over any contents and reading the buffer of the last softmax quotient
    gives the composed term `sharp` of the two float arguments. The fold is unrolled, each operation's result read at
    the buffer it writes and skipped at every other, which leaves the operations composed in program order; the
    reductions stay folded meanwhile, and the typed references' transports are the identity at literal buffers. -/
theorem sharp_eq (V : Valuation τ sig (Elt F)) :
    after ops V (main_v22 : DevRef τ sig)
      = Cert.RefTerm.sharp (V (main_arg0 : DevRef τ sig)) (V (main_arg1 : DevRef τ sig)) := by
  after_results_simp
  rfl

attribute [local irreducible] Host.reduce Host.reduceAdd in
set_option maxRecDepth 8192 in
set_option maxHeartbeats 4000000 in
/-- The second result: the same fold read at the buffer of the final quotient is the composed term `lossMean` of the
    three arguments (the similarity feeds both peak statistics, the clip and the three masked sums). -/
theorem lossMean_eq (V : Valuation τ sig (Elt F)) :
    after ops V (main_v73 : DevRef τ sig)
      = Cert.RefTerm.lossMean (V (main_arg0 : DevRef τ sig)) (V (main_arg1 : DevRef τ sig)) (V (main_arg2 : DevRef τ sig)) := by
  after_results_simp
  rfl

set_option maxRecDepth 8192 in
/-- No operation writes argument 0's buffer: the fold leaves it as it was. -/
theorem arg0_eq (V : Valuation τ sig (Elt F)) :
    after ops V (main_arg0 : DevRef τ sig) = V (main_arg0 : DevRef τ sig) := by
  after_results_simp

set_option maxRecDepth 8192 in
/-- No operation writes argument 1's buffer: the fold leaves it as it was. -/
theorem arg1_eq (V : Valuation τ sig (Elt F)) :
    after ops V (main_arg1 : DevRef τ sig) = V (main_arg1 : DevRef τ sig) := by
  after_results_simp

set_option maxRecDepth 8192 in
/-- No operation writes argument 2's buffer: the fold leaves it as it was. -/
theorem arg2_eq (V : Valuation τ sig (Elt F)) :
    after ops V (main_arg2 : DevRef τ sig) = V (main_arg2 : DevRef τ sig) := by
  after_results_simp

set_option maxRecDepth 8192 in
set_option maxHeartbeats 4000000 in
/-- On every device, for any float values, from any memory with zero counters: every weakly fair execution of @main
    terminates with the two results at the composed terms of the arguments' launch contents and the three arguments
    unchanged — the straight-line run of the operation list, read at the five buffers. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22)
          = Cert.RefTerm.sharp (m ((c.tc : Thread nD τ).loc main_arg0)) (m ((c.tc : Thread nD τ).loc main_arg1))
      ∧ r.2.mem ((c.tc : Thread nD τ).loc main_v73)
          = Cert.RefTerm.lossMean (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v22).trans (sharp_eq _), (h c main_v73).trans (lossMean_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.RefRun

end
-- ==== Proof.RefValueA.lean ====
/- The reference's stages read index by index, first half: the similarity, the two peak statistics, the softmax. -/
import proofs.«419364_j58136677319222_3_alg».proof.Proof.Spec
import proofs.«419364_j58136677319222_3_alg».proof.Proof.RefTerm
import Idealize.ShloMosaic.Lib.ValueIdx
import Idealize.ShloMosaic.Lib.Pipeline.Value
import Idealize.ShloMosaic.Lib.IdealHost
import Idealize.ShloMosaic.PureOps.Ideal.Laws

noncomputable section

namespace Cert.RefValue

open Cert.ReferenceIdeal Cert.ReferenceIdeal.Gen Idealize.ShloMosaic Idealize.ShloMosaic.ValueIdx

/-! ## Constants splat over a shape -/

theorem splat3_apply (w : BitVec 32) (i : S128x512x512.Idx) :
    Cert.RefTerm.splat3 (F := Ideal) w i = Ideal.ofBits .f32 w := by
  show broadcastInDim S128x512x512 ![] bcast_S_S128x512x512 (constant (F := Ideal) S_ .f32 w) i = _
  rw [broadcastInDim_scalar_apply]; rfl

theorem splat2_apply (w : BitVec 32) (i : S128x512.Idx) :
    Cert.RefTerm.splat2 (F := Ideal) w i = Ideal.ofBits .f32 w := by
  show broadcastInDim S128x512 ![] bcast_S_S128x512 (constant (F := Ideal) S_ .f32 w) i = _
  rw [broadcastInDim_scalar_apply]; rfl

theorem splat1_apply (w : BitVec 32) (i : S128.Idx) :
    Cert.RefTerm.splat1 (F := Ideal) w i = Ideal.ofBits .f32 w := by
  show broadcastInDim S128 ![] bcast_S_S128 (constant (F := Ideal) S_ .f32 w) i = _
  rw [broadcastInDim_scalar_apply]; rfl

/-! ## The batched product: sample b's entry (l, s) is the inner product of query row l and key row s -/

theorem dot_apply (q k : FVec Ideal S128x512x64 .f32) (b : Fin 128) (l s : Fin 512) :
    Host.dotGeneral dot_S128x512x64_S128x512x64_S128x512x512_2_2_1_1_0_0 none q k (ix3 b l s)
      = ∑ c : Fin 64, q (ix3 b l c) * k (ix3 b s c) := by
  show FloatOps.dotGeneral _ none _ q k (ix3 b l s) = _
  rw [Ideal.dotGeneral_apply,
    ← Equiv.sum_comp (contrEquiv1 dot_S128x512x64_S128x512x64_S128x512x512_2_2_1_1_0_0 64 rfl rfl).symm]
  refine Finset.sum_congr rfl fun c _ => ?_
  have c3 := contrEquiv1_symm_val dot_S128x512x64_S128x512x64_S128x512x512_2_2_1_1_0_0 64 rfl rfl c
  have l3 : dot_S128x512x64_S128x512x64_S128x512x512_2_2_1_1_0_0.lhsIdx (ix3 b l s)
      ((contrEquiv1 _ 64 rfl rfl).symm c) = ix3 b l c := by
    funext ax; apply Fin.ext
    match ax with
    | ⟨0, _⟩ => simp [DotDims.lhsIdx, dot_S128x512x64_S128x512x64_S128x512x512_2_2_1_1_0_0]; rfl
    | ⟨1, _⟩ => simp [DotDims.lhsIdx, dot_S128x512x64_S128x512x64_S128x512x512_2_2_1_1_0_0]; rfl
    | ⟨2, _⟩ => simp [DotDims.lhsIdx, dot_S128x512x64_S128x512x64_S128x512x512_2_2_1_1_0_0]; exact c3
  have r3 : dot_S128x512x64_S128x512x64_S128x512x512_2_2_1_1_0_0.rhsIdx (ix3 b l s)
      ((contrEquiv1 _ 64 rfl rfl).symm c) = ix3 b s c := by
    funext ax; apply Fin.ext
    match ax with
    | ⟨0, _⟩ => simp [DotDims.rhsIdx, dot_S128x512x64_S128x512x64_S128x512x512_2_2_1_1_0_0]; rfl
    | ⟨1, _⟩ => simp [DotDims.rhsIdx, dot_S128x512x64_S128x512x64_S128x512x512_2_2_1_1_0_0]; rfl
    | ⟨2, _⟩ => simp [DotDims.rhsIdx, dot_S128x512x64_S128x512x64_S128x512x512_2_2_1_1_0_0]; exact c3
  rw [l3, r3]

theorem sim_apply (q k : FVec Ideal S128x512x64 .f32) (b : Fin 128) (l s : Fin 512) :
    Cert.RefTerm.sim (F := Ideal) q k (ix3 b l s)
      = Cert.Sharpness.sim (fun l' c => q (ix3 b l' c)) (fun s' c => k (ix3 b s' c)) l s := by
  unfold Cert.RefTerm.sim Cert.Sharpness.sim
  rw [mulf_apply, addf_apply, splat3_apply, splat3_apply, dot_apply]

/-! ## Reductions down the columns (axis 1) and along the rows (axis 2) of a [128, 512, 512] array -/

theorem lift_d1 (h : S128x512x512.Reduces [1] S128x512) (b : Fin 128) (s l : Fin 512) :
    h.lift (ix2 b s) l = ix3 b l s := by
  funext a; apply Fin.ext
  match a with
  | ⟨0, _⟩ => rfl
  | ⟨1, _⟩ => rfl
  | ⟨2, _⟩ => rfl

theorem lift_d2 (h : S128x512x512.Reduces [2] S128x512) (b : Fin 128) (l s : Fin 512) :
    h.lift (ix2 b l) s = ix3 b l s := by
  funext a; apply Fin.ext
  match a with
  | ⟨0, _⟩ => rfl
  | ⟨1, _⟩ => rfl
  | ⟨2, _⟩ => rfl

/-- The sum down column s of sample b. -/
theorem sumCol_apply (x : FVec Ideal S128x512x512 .f32) (b : Fin 128) (s : Fin 512) :
    Host.reduceAdd x (constant (F := Ideal) S_ .f32 0x00000000#32) reducesTo_S128x512x512_S128x512_d1 h_S_ (ix2 b s)
      = ∑ l : Fin 512, x (ix3 b l s) := by
  rw [hostReduceAdd_apply,
    Ideal.hostReduceAdd_single reducesTo_S128x512x512_S128x512_d1 (by decide : S128x512x512.Reduces [1] S128x512),
    constant_apply, Ideal.ofBits_zero_f32, zero_add]
  exact Finset.sum_congr rfl fun l _ => congrArg x (lift_d1 _ b s l)

/-- The sum along row l of sample b. -/
theorem sumRow_apply (x : FVec Ideal S128x512x512 .f32) (b : Fin 128) (l : Fin 512) :
    Host.reduceAdd x (constant (F := Ideal) S_ .f32 0x00000000#32) reducesTo_S128x512x512_S128x512_d2 h_S_ (ix2 b l)
      = ∑ s : Fin 512, x (ix3 b l s) := by
  rw [hostReduceAdd_apply,
    Ideal.hostReduceAdd_single reducesTo_S128x512x512_S128x512_d2 (by decide : S128x512x512.Reduces [2] S128x512),
    constant_apply, Ideal.ofBits_zero_f32, zero_add]
  exact Finset.sum_congr rfl fun s _ => congrArg x (lift_d2 _ b l s)

/-- The maximum down column s of sample b, from −∞. -/
theorem maxCol_apply (x : FVec Ideal S128x512x512 .f32) (b : Fin 128) (s : Fin 512) :
    Host.reduce (FloatOps.maximumf (F := Ideal) (φ := .f32)) x (constant (F := Ideal) S_ .f32 0xFF800000#32)
        reducesTo_S128x512x512_S128x512_d1 h_S_ (ix2 b s)
      = (Finset.univ : Finset (Fin 512)).fold max Cert.Sharpness.cNegInf (fun l => x (ix3 b l s)) := by
  rw [Host.reduce_eq_fold_single (FloatOps.maximumf (F := Ideal) (φ := .f32)) x _ reducesTo_S128x512x512_S128x512_d1
    (by decide : S128x512x512.Reduces [1] S128x512) h_S_, constant_apply]
  have e : (x ∘ (by decide : S128x512x512.Reduces [1] S128x512).lift (ix2 b s)) = fun l : Fin 512 => x (ix3 b l s) :=
    funext fun l => congrArg x (lift_d1 _ b s l)
  rw [e]; rfl

/-- The maximum along row l of sample b, from −∞. -/
theorem maxRow_apply (x : FVec Ideal S128x512x512 .f32) (b : Fin 128) (l : Fin 512) :
    Host.reduce (FloatOps.maximumf (F := Ideal) (φ := .f32)) x (constant (F := Ideal) S_ .f32 0xFF800000#32)
        reducesTo_S128x512x512_S128x512_d2 h_S_ (ix2 b l)
      = (Finset.univ : Finset (Fin 512)).fold max Cert.Sharpness.cNegInf (fun s => x (ix3 b l s)) := by
  rw [Host.reduce_eq_fold_single (FloatOps.maximumf (F := Ideal) (φ := .f32)) x _ reducesTo_S128x512x512_S128x512_d2
    (by decide : S128x512x512.Reduces [2] S128x512) h_S_, constant_apply]
  have e : (x ∘ (by decide : S128x512x512.Reduces [2] S128x512).lift (ix2 b l)) = fun s : Fin 512 => x (ix3 b l s) :=
    funext fun s => congrArg x (lift_d2 _ b l s)
  rw [e]; rfl

/-! ## A per-column (per-row) statistic divided by 512 and spread back over the array -/

theorem keepCol_apply (m : FVec Ideal S128x512 .f32) (b : Fin 128) (l s : Fin 512) :
    broadcastInDim S128x512x512 ![0, 1, 2] bcast_S128x1x512_S128x512x512_0_1_2
        (Host.divf (broadcastInDim S128x1x512 ![0, 2] bcast_S128x512_S128x1x512_0_2 m)
          (broadcastInDim S128x1x512 ![] bcast_S_S128x1x512 (constant (F := Ideal) S_ .f32 0x44000000#32))) (ix3 b l s)
      = Ideal.div (m (ix2 b s)) Cert.Sharpness.c512 := by
  rw [broadcastInDim_apply _ _ _ (ix3 b l s) (ix3 b (0 : Fin 1) s)
      (fun a => by match a with | ⟨0, _⟩ => rfl | ⟨1, _⟩ => rfl | ⟨2, _⟩ => rfl),
    hostDivf_apply,
    broadcastInDim_apply _ _ m (ix3 b (0 : Fin 1) s) (ix2 b s)
      (fun a => by match a with | ⟨0, _⟩ => rfl | ⟨1, _⟩ => rfl),
    broadcastInDim_scalar_apply, constant_apply]

theorem keepRow_apply (m : FVec Ideal S128x512 .f32) (b : Fin 128) (l s : Fin 512) :
    broadcastInDim S128x512x512 ![0, 1, 2] bcast_S128x512x1_S128x512x512_0_1_2
        (Host.divf (broadcastInDim S128x512x1 ![0, 1] bcast_S128x512_S128x512x1_0_1 m)
          (broadcastInDim S128x512x1 ![] bcast_S_S128x512x1 (constant (F := Ideal) S_ .f32 0x44000000#32))) (ix3 b l s)
      = Ideal.div (m (ix2 b l)) Cert.Sharpness.c512 := by
  rw [broadcastInDim_apply _ _ _ (ix3 b l s) (ix3 b l (0 : Fin 1))
      (fun a => by match a with | ⟨0, _⟩ => rfl | ⟨1, _⟩ => rfl | ⟨2, _⟩ => rfl),
    hostDivf_apply,
    broadcastInDim_apply _ _ m (ix3 b l (0 : Fin 1)) (ix2 b l)
      (fun a => by match a with | ⟨0, _⟩ => rfl | ⟨1, _⟩ => rfl),
    broadcastInDim_scalar_apply, constant_apply]

/-! ## The divisor 512 − 1 and the variance's guard -/

theorem c512_eq : Ideal.ofBits .f32 0x44000000#32 = ((512 : ℝ) : EReal) := by
  simp [Ideal.ofBits, Ideal.ieee, -EReal.coe_mul]; norm_num

theorem c511_eq : Ideal.ofBits .f32 0x43FF8000#32 = ((511 : ℝ) : EReal) := by
  simp [Ideal.ofBits, Ideal.ieee, -EReal.coe_mul]; norm_num

/-- 512 less the converted integer 1 is the f32 word of 511. -/
theorem ddof_eq : Cert.RefTerm.ddof (F := Ideal) ix0 = Ideal.ofBits .f32 0x43FF8000#32 := by
  unfold Cert.RefTerm.ddof
  rw [subf_apply, constant_apply, sitofp_apply, c512_eq, c511_eq]
  show ((512 : ℝ) : EReal) - ((((1#32 : BitVec 32).toInt : ℤ) : ℝ) : EReal) = ((511 : ℝ) : EReal)
  rw [show ((1#32 : BitVec 32).toInt : ℤ) = 1 by decide, ← EReal.coe_sub]
  norm_num

/-- 511 > 0: the guard selects the variance. -/
theorem guard_eq : cmpf .ogt (Cert.RefTerm.ddof (F := Ideal)) (constant (F := Ideal) S_ .f32 0x00000000#32) ix0 = 1#1 := by
  rw [cmpf_apply, Ideal.cmpf_def, ddof_eq, constant_apply, Ideal.ofBits_zero_f32, c511_eq]
  unfold Ideal.cmp
  have h : (0 : EReal) < ((511 : ℝ) : EReal) := by exact_mod_cast (by norm_num : (0 : ℝ) < 511)
  simp [h]

/-! ## The host's square root and exponential at an index -/

theorem hostSqrt_apply {s : Shape} {φ : FTy} (a : FVec Ideal s φ) (i : s.Idx) : Host.sqrt a i = Ideal.sqrt (a i) := rfl

theorem hostExp_apply {s : Shape} {φ : FTy} (a : FVec Ideal s φ) (i : s.Idx) : Host.exp a i = Ideal.exp (a i) := rfl

/-! ## The standard deviation and the peak statistic, down the columns -/

/-- An entry less its column's mean. -/
theorem devCol_apply (x : FVec Ideal S128x512x512 .f32) (b : Fin 128) (l s : Fin 512) :
    subf x (broadcastInDim S128x512x512 ![0, 1, 2] bcast_S128x1x512_S128x512x512_0_1_2
        (Host.divf (broadcastInDim S128x1x512 ![0, 2] bcast_S128x512_S128x1x512_0_2
            (Host.reduceAdd x (constant (F := Ideal) S_ .f32 0x00000000#32) reducesTo_S128x512x512_S128x512_d1 h_S_))
          (broadcastInDim S128x1x512 ![] bcast_S_S128x1x512 (constant (F := Ideal) S_ .f32 0x44000000#32)))) (ix3 b l s)
      = x (ix3 b l s) - Cert.Sharpness.mean (fun l' => x (ix3 b l' s)) := by
  rw [subf_apply, keepCol_apply, sumCol_apply]; rfl

/-- The standard deviation down column s of sample b, its variance unbiased. -/
theorem stdCol_apply (x : FVec Ideal S128x512x512 .f32) (b : Fin 128) (s : Fin 512) :
    Cert.RefTerm.stdCol (F := Ideal) x (ix2 b s)
      = Ideal.sqrt (Ideal.div (∑ l : Fin 512, (x (ix3 b l s) - Cert.Sharpness.mean (fun l' => x (ix3 b l' s)))
            * (x (ix3 b l s) - Cert.Sharpness.mean (fun l' => x (ix3 b l' s)))) Cert.Sharpness.c511) := by
  unfold Cert.RefTerm.stdCol
  rw [hostSqrt_apply, select_apply, broadcastInDim_scalar_apply, guard_eq, select_one, hostDivf_apply, sumCol_apply,
    broadcastInDim_scalar_apply, ddof_eq]
  refine congrArg Ideal.sqrt (congrArg (fun t => Ideal.div t _) (Finset.sum_congr rfl fun l _ => ?_))
  rw [mulf_apply, devCol_apply]

theorem peakCol_apply (x : FVec Ideal S128x512x512 .f32) (b : Fin 128) (s : Fin 512) :
    Cert.RefTerm.peakCol (F := Ideal) x (ix2 b s) = Cert.Sharpness.peak (fun l => x (ix3 b l s)) := by
  unfold Cert.RefTerm.peakCol Cert.Sharpness.peak
  rw [hostDivf_apply, subf_apply, maxCol_apply, hostDivf_apply, sumCol_apply, splat2_apply, stdCol_apply]
  rfl

/-! ## The same along the rows -/

/-- An entry less its row's mean. -/
theorem devRow_apply (x : FVec Ideal S128x512x512 .f32) (b : Fin 128) (l s : Fin 512) :
    subf x (broadcastInDim S128x512x512 ![0, 1, 2] bcast_S128x512x1_S128x512x512_0_1_2
        (Host.divf (broadcastInDim S128x512x1 ![0, 1] bcast_S128x512_S128x512x1_0_1
            (Host.reduceAdd x (constant (F := Ideal) S_ .f32 0x00000000#32) reducesTo_S128x512x512_S128x512_d2 h_S_))
          (broadcastInDim S128x512x1 ![] bcast_S_S128x512x1 (constant (F := Ideal) S_ .f32 0x44000000#32)))) (ix3 b l s)
      = x (ix3 b l s) - Cert.Sharpness.mean (fun s' => x (ix3 b l s')) := by
  rw [subf_apply, keepRow_apply, sumRow_apply]; rfl

/-- The standard deviation along row l of sample b, its variance unbiased. -/
theorem stdRow_apply (x : FVec Ideal S128x512x512 .f32) (b : Fin 128) (l : Fin 512) :
    Cert.RefTerm.stdRow (F := Ideal) x (ix2 b l)
      = Ideal.sqrt (Ideal.div (∑ s : Fin 512, (x (ix3 b l s) - Cert.Sharpness.mean (fun s' => x (ix3 b l s')))
            * (x (ix3 b l s) - Cert.Sharpness.mean (fun s' => x (ix3 b l s')))) Cert.Sharpness.c511) := by
  unfold Cert.RefTerm.stdRow
  rw [hostSqrt_apply, select_apply, broadcastInDim_scalar_apply, guard_eq, select_one, hostDivf_apply, sumRow_apply,
    broadcastInDim_scalar_apply, ddof_eq]
  refine congrArg Ideal.sqrt (congrArg (fun t => Ideal.div t _) (Finset.sum_congr rfl fun s _ => ?_))
  rw [mulf_apply, devRow_apply]

theorem peakRow_apply (x : FVec Ideal S128x512x512 .f32) (b : Fin 128) (l : Fin 512) :
    Cert.RefTerm.peakRow (F := Ideal) x (ix2 b l) = Cert.Sharpness.peak (fun s => x (ix3 b l s)) := by
  unfold Cert.RefTerm.peakRow Cert.Sharpness.peak
  rw [hostDivf_apply, subf_apply, maxRow_apply, hostDivf_apply, sumRow_apply, splat2_apply, stdRow_apply]
  rfl

/-! ## The softmax along the last axis of a [128, 512] array -/

theorem lift2_d1 (h : S128x512.Reduces [1] S128) (b : Fin 128) (j : Fin 512) :
    h.lift (ix1 b) j = ix2 b j := by
  funext a; apply Fin.ext
  match a with
  | ⟨0, _⟩ => rfl
  | ⟨1, _⟩ => rfl

/-- The sum along row b. -/
theorem sumLast_apply (y : FVec Ideal S128x512 .f32) (b : Fin 128) :
    Host.reduceAdd y (constant (F := Ideal) S_ .f32 0x00000000#32) reducesTo_S128x512_S128_d1 h_S_ (ix1 b)
      = ∑ j : Fin 512, y (ix2 b j) := by
  rw [hostReduceAdd_apply,
    Ideal.hostReduceAdd_single reducesTo_S128x512_S128_d1 (by decide : S128x512.Reduces [1] S128),
    constant_apply, Ideal.ofBits_zero_f32, zero_add]
  exact Finset.sum_congr rfl fun j _ => congrArg y (lift2_d1 _ b j)

/-- The maximum along row b, from −∞. -/
theorem maxLast_apply (y : FVec Ideal S128x512 .f32) (b : Fin 128) :
    Host.reduce (FloatOps.maximumf (F := Ideal) (φ := .f32)) y (constant (F := Ideal) S_ .f32 0xFF800000#32)
        reducesTo_S128x512_S128_d1 h_S_ (ix1 b)
      = (Finset.univ : Finset (Fin 512)).fold max Cert.Sharpness.cNegInf (fun j => y (ix2 b j)) := by
  rw [Host.reduce_eq_fold_single (FloatOps.maximumf (F := Ideal) (φ := .f32)) y _ reducesTo_S128x512_S128_d1
    (by decide : S128x512.Reduces [1] S128) h_S_, constant_apply]
  have e : (y ∘ (by decide : S128x512.Reduces [1] S128).lift (ix1 b)) = fun j : Fin 512 => y (ix2 b j) :=
    funext fun j => congrArg y (lift2_d1 _ b j)
  rw [e]; rfl

/-- The row maximum the softmax subtracts: taking the maximum with −∞ once more changes nothing. -/
theorem shift_apply (y : FVec Ideal S128x512 .f32) (b : Fin 128) :
    maximumf (Cert.RefTerm.splat1 (F := Ideal) 0xFF800000#32)
        (Host.reduce (FloatOps.maximumf (F := Ideal) (φ := .f32)) y (constant (F := Ideal) S_ .f32 0xFF800000#32)
          reducesTo_S128x512_S128_d1 h_S_) (ix1 b)
      = (Finset.univ : Finset (Fin 512)).fold max Cert.Sharpness.cNegInf (fun j => y (ix2 b j)) := by
  rw [maximumf_apply, splat1_apply, maxLast_apply]
  exact max_eq_right ((Finset.le_fold_max _).mpr (Or.inl le_rfl))

/-- A per-row value spread back along the row. -/
theorem keepLast_apply (m : FVec Ideal S128 .f32) (b : Fin 128) (j : Fin 512) :
    broadcastInDim S128x512 ![0, 1] bcast_S128x1_S128x512_0_1 (broadcastInDim S128x1 ![0] bcast_S128_S128x1_0 m) (ix2 b j)
      = m (ix1 b) := by
  rw [broadcastInDim_apply _ _ _ (ix2 b j) (ix2 b (0 : Fin 1))
      (fun a => by match a with | ⟨0, _⟩ => rfl | ⟨1, _⟩ => rfl),
    broadcastInDim_apply _ _ m (ix2 b (0 : Fin 1)) (ix1 b)
      (fun a => by match a with | ⟨0, _⟩ => rfl)]

/-- A shifted entry's exponential. -/
theorem expShift_apply (x : FVec Ideal S128x512 .f32) (b : Fin 128) (j : Fin 512) :
    Host.exp (subf x (broadcastInDim S128x512 ![0, 1] bcast_S128x1_S128x512_0_1 (broadcastInDim S128x1 ![0] bcast_S128_S128x1_0
        (maximumf (Cert.RefTerm.splat1 (F := Ideal) 0xFF800000#32)
          (Host.reduce (FloatOps.maximumf (F := Ideal) (φ := .f32)) x (constant (F := Ideal) S_ .f32 0xFF800000#32)
            reducesTo_S128x512_S128_d1 h_S_))))) (ix2 b j)
      = Ideal.exp (x (ix2 b j) - (Finset.univ : Finset (Fin 512)).fold max Cert.Sharpness.cNegInf (fun j' => x (ix2 b j'))) := by
  rw [hostExp_apply, subf_apply, keepLast_apply, shift_apply]

theorem softmax_apply (x : FVec Ideal S128x512 .f32) (b : Fin 128) (j : Fin 512) :
    Cert.RefTerm.softmax (F := Ideal) x (ix2 b j) = Cert.Sharpness.softmax (fun j' => x (ix2 b j')) j := by
  unfold Cert.RefTerm.softmax Cert.Sharpness.softmax
  rw [hostDivf_apply, keepLast_apply, sumLast_apply, expShift_apply]
  refine congrArg (Ideal.div _) (Finset.sum_congr rfl fun i _ => ?_)
  rw [expShift_apply]

/-- The first result is the specification's array. -/
theorem sharp_eq (q k : FVec Ideal S128x512x64 .f32) :
    Cert.RefTerm.sharp (F := Ideal) q k = Cert.Sharpness.sharpArr q k := by
  funext i
  obtain ⟨b, s, rfl⟩ : ∃ (b : Fin 128) (s : Fin 512), i = ix2 b s := ⟨i 0, i 1, eq_ix2 i⟩
  unfold Cert.RefTerm.sharp
  rw [softmax_apply]
  show _ = Cert.Sharpness.softmax (fun s' => Cert.Sharpness.peak fun l =>
    Cert.Sharpness.sim (fun l' c => q (ix3 b l' c)) (fun s'' c => k (ix3 b s'' c)) l s') s
  refine congrArg (fun g => Cert.Sharpness.softmax g s) (funext fun s' => ?_)
  rw [peakCol_apply]
  refine congrArg Cert.Sharpness.peak (funext fun l => ?_)
  rw [sim_apply]

end Cert.RefValue

end
-- ==== Proof.RefValueB.lean ====
/- The reference's stages read index by index, second half: the masked sums over both axes at once, and the mean. -/
import proofs.«419364_j58136677319222_3_alg».proof.Proof.RefValueA
import Idealize.ShloMosaic.Lib.KernelVsHost

noncomputable section

namespace Cert.RefValue

open Cert.ReferenceIdeal Cert.ReferenceIdeal.Gen Idealize.ShloMosaic Idealize.ShloMosaic.ValueIdx

namespace MaskedSums

/-- Dropping axes 1 and 2 of a [128, 512, 512] index leaves its sample coordinate. -/
theorem drop_d12_eq_iff (h' : S128x512x512.ReducesTo [1, 2] S128) (i : S128x512x512.Idx) (b : Fin 128) :
    h'.drop i = ix1 b ↔ (i 0 : Fin 128) = b := by
  constructor
  · intro h
    refine Fin.ext ?_
    have h0 := congrArg Fin.val (congrFun h 0)
    rw [Shape.ReducesTo.drop_apply_val_of_eq h' i 0 0] at h0
    exact h0
  · intro h
    funext d
    match d with
    | ⟨0, _⟩ =>
      exact Fin.ext ((Shape.ReducesTo.drop_apply_val_of_eq h' i 0 0).trans (congrArg Fin.val h))

/-- The indices of [128, 512, 512] that reduce to sample `b` over axes 1 and 2 are the pairs (l, s): the sum over them
    is the double sum, rows outside. -/
theorem sum_filter_drop_d12 (h' : S128x512x512.ReducesTo [1, 2] S128) (y : S128x512x512.Idx → EReal) (b : Fin 128) :
    ∑ i ∈ Finset.univ.filter (fun i => h'.drop i = ix1 b), y i = ∑ l : Fin 512, ∑ s : Fin 512, y (ix3 b l s) := by
  rw [← Finset.sum_product' Finset.univ Finset.univ (fun l s => y (ix3 b l s))]
  refine Finset.sum_bij' (fun i _ => ((i 1 : Fin 512), (i 2 : Fin 512))) (fun p _ => ix3 b p.1 p.2) ?_ ?_ ?_ ?_ ?_
  · intro i _; exact Finset.mem_product.mpr ⟨Finset.mem_univ _, Finset.mem_univ _⟩
  · intro p _
    exact Finset.mem_filter.mpr ⟨Finset.mem_univ _, (drop_d12_eq_iff h' _ b).mpr rfl⟩
  · intro i hi
    have hb : (i 0 : Fin 128) = b := (drop_d12_eq_iff h' i b).mp (Finset.mem_filter.mp hi).2
    subst hb
    exact (eq_ix3 i).symm
  · intro p _; rfl
  · intro i hi
    have hb : (i 0 : Fin 128) = b := (drop_d12_eq_iff h' i b).mp (Finset.mem_filter.mp hi).2
    subst hb
    exact congrArg y (eq_ix3 i)

/-- The host's sum over axes 1 and 2 from the zero word, read at sample `b`: the double sum over (l, s). -/
theorem hostReduceAdd_d12 (h' : S128x512x512.ReducesTo [1, 2] S128) (y : FVec Ideal S128x512x512 .f32) (b : Fin 128) :
    Host.reduceAdd y (constant (F := Ideal) S_ .f32 0x00000000#32) h' h_S_ (ix1 b)
      = ∑ l : Fin 512, ∑ s : Fin 512, y (ix3 b l s) := by
  rw [hostReduceAdd_apply]
  unfold Ideal.hostReduceAdd
  rw [constant_apply, Ideal.ofBits_zero_f32, zero_add]
  exact sum_filter_drop_d12 h' y b

/-- A [128, 512] array spread along axis 1 of [128, 512, 512] (through [128, 1, 512]) reads its (sample, key) entry. -/
theorem bcCol_apply (s1 : FVec Ideal S128x512 .f32) (b : Fin 128) (l s : Fin 512) :
    broadcastInDim S128x512x512 ![0, 1, 2] bcast_S128x1x512_S128x512x512_0_1_2
        (broadcastInDim S128x1x512 ![0, 2] bcast_S128x512_S128x1x512_0_2 s1) (ix3 b l s) = s1 (ix2 b s) :=
  (broadcastInDim_apply _ _ _ (ix3 b l s) (ix3 b (0 : Fin 1) s)
    (fun a => match a with | ⟨0, _⟩ => rfl | ⟨1, _⟩ => rfl | ⟨2, _⟩ => rfl)).trans
  (broadcastInDim_apply _ _ _ (ix3 b (0 : Fin 1) s) (ix2 b s)
    (fun a => match a with | ⟨0, _⟩ => rfl | ⟨1, _⟩ => rfl))

/-- A [128, 512] array spread along axis 2 of [128, 512, 512] (through [128, 512, 1]) reads its (sample, query) entry. -/
theorem bcRow_apply (s2 : FVec Ideal S128x512 .f32) (b : Fin 128) (l s : Fin 512) :
    broadcastInDim S128x512x512 ![0, 1, 2] bcast_S128x512x1_S128x512x512_0_1_2
        (broadcastInDim S128x512x1 ![0, 1] bcast_S128x512_S128x512x1_0_1 s2) (ix3 b l s) = s2 (ix2 b l) :=
  (broadcastInDim_apply _ _ _ (ix3 b l s) (ix3 b l (0 : Fin 1))
    (fun a => match a with | ⟨0, _⟩ => rfl | ⟨1, _⟩ => rfl | ⟨2, _⟩ => rfl)).trans
  (broadcastInDim_apply _ _ _ (ix3 b l (0 : Fin 1)) (ix2 b l)
    (fun a => match a with | ⟨0, _⟩ => rfl | ⟨1, _⟩ => rfl))

/-- The clip at an index is the specification's clip of the element. -/
theorem clip_apply (x : FVec Ideal S128x512x512 .f32) (i : S128x512x512.Idx) :
    Cert.RefTerm.clip (F := Ideal) x i = Cert.Sharpness.clipOf (x i) := by
  unfold Cert.RefTerm.clip Cert.Sharpness.clipOf
  rw [minimumf_apply, maximumf_apply, broadcastInDim_scalar_apply, broadcastInDim_scalar_apply]
  rfl

/-- The label mask at an index is the indicator of the element. -/
theorem mask_apply (lab : IVec S128x512x512 32) (v : BitVec 32) (i : S128x512x512.Idx) :
    Cert.RefTerm.mask (F := Ideal) lab v i = Cert.Sharpness.ind (lab i) v := by
  unfold Cert.RefTerm.mask Cert.Sharpness.ind
  show (((IntOp.cmpi .eq (lab i) (broadcastInDim S128x512x512 ![] bcast_S_S128x512x512 (constantI S_ 32 v) i)).toNat : ℝ) : EReal) = _
  rw [broadcastInDim_scalar_apply]
  rfl

/-- A scalar word spread over [128, 512, 512] reads that word everywhere. -/
theorem splat3_apply (w : BitVec 32) (i : S128x512x512.Idx) :
    Cert.RefTerm.splat3 (F := Ideal) w i = Ideal.ofBits .f32 w :=
  broadcastInDim_scalar_apply _ _ _

/-- A scalar word spread over [128] reads that word everywhere. -/
theorem splat1_apply (w : BitVec 32) (i : S128.Idx) :
    Cert.RefTerm.splat1 (F := Ideal) w i = Ideal.ofBits .f32 w :=
  broadcastInDim_scalar_apply _ _ _

/-- The integrand of the first sum at (b, l, s): −log (clip x) · s1 s · [lab = 1]. -/
theorem term1_apply (x : FVec Ideal S128x512x512 .f32) (s1 : FVec Ideal S128x512 .f32) (lab : IVec S128x512x512 32)
    (b : Fin 128) (l s : Fin 512) :
    mulf (mulf (Host.negf (Host.log (Cert.RefTerm.clip (F := Ideal) x)))
          (broadcastInDim S128x512x512 ![0, 1, 2] bcast_S128x1x512_S128x512x512_0_1_2
            (broadcastInDim S128x1x512 ![0, 2] bcast_S128x512_S128x1x512_0_2 s1)))
        (Cert.RefTerm.mask lab 1#32) (ix3 b l s)
      = -Ideal.log (Cert.Sharpness.clipOf (x (ix3 b l s))) * s1 (ix2 b s) * Cert.Sharpness.ind (lab (ix3 b l s)) 1#32 := by
  rw [mulf_apply, mulf_apply, bcCol_apply, mask_apply]
  show -Ideal.log (Cert.RefTerm.clip (F := Ideal) x (ix3 b l s)) * _ * _ = _
  rw [clip_apply]

/-- The integrand of the second sum at (b, l, s): −log (clip x) · s2 l · [lab = 1]. -/
theorem term2_apply (x : FVec Ideal S128x512x512 .f32) (s2 : FVec Ideal S128x512 .f32) (lab : IVec S128x512x512 32)
    (b : Fin 128) (l s : Fin 512) :
    mulf (mulf (Host.negf (Host.log (Cert.RefTerm.clip (F := Ideal) x)))
          (broadcastInDim S128x512x512 ![0, 1, 2] bcast_S128x512x1_S128x512x512_0_1_2
            (broadcastInDim S128x512x1 ![0, 1] bcast_S128x512_S128x512x1_0_1 s2)))
        (Cert.RefTerm.mask lab 1#32) (ix3 b l s)
      = -Ideal.log (Cert.Sharpness.clipOf (x (ix3 b l s))) * s2 (ix2 b l) * Cert.Sharpness.ind (lab (ix3 b l s)) 1#32 := by
  rw [mulf_apply, mulf_apply, bcRow_apply, mask_apply]
  show -Ideal.log (Cert.RefTerm.clip (F := Ideal) x (ix3 b l s)) * _ * _ = _
  rw [clip_apply]

/-- The integrand of the third sum at (b, l, s): −log (1 − clip x) · [lab = 0]. -/
theorem term3_apply (x : FVec Ideal S128x512x512 .f32) (lab : IVec S128x512x512 32) (b : Fin 128) (l s : Fin 512) :
    mulf (Host.negf (Host.log (subf (Cert.RefTerm.splat3 0x3F800000#32) (Cert.RefTerm.clip (F := Ideal) x))))
        (Cert.RefTerm.mask lab 0#32) (ix3 b l s)
      = -Ideal.log (Cert.Sharpness.cOne - Cert.Sharpness.clipOf (x (ix3 b l s))) * Cert.Sharpness.ind (lab (ix3 b l s)) 0#32 := by
  rw [mulf_apply, mask_apply]
  show -Ideal.log (Cert.RefTerm.splat3 (F := Ideal) 0x3F800000#32 (ix3 b l s) - Cert.RefTerm.clip (F := Ideal) x (ix3 b l s)) * _ = _
  rw [clip_apply, splat3_apply]

/-- A sum over the indices of a rank-1 shape is the sum over its coordinate. -/
theorem sum_idx1 {n : Nat} (f : (⟨1, ![n]⟩ : Shape).Idx → EReal) : ∑ i, f i = ∑ a : Fin n, f (ix1 a) :=
  Fintype.sum_equiv ⟨fun i => (i 0 : Fin n), fun a => ix1 a, fun i => (eq_ix1 i).symm, fun _ => rfl⟩ _ _
    (fun i => congrArg f (eq_ix1 i))

/-- One sample's loss depends only on its four arguments. -/
theorem lossOf_congr {X X' : Fin 512 → Fin 512 → EReal} {A A' B B' : Fin 512 → EReal} (L : Fin 512 → Fin 512 → BitVec 32)
    (hX : X = X') (hA : A = A') (hB : B = B') : Cert.Sharpness.lossOf X A B L = Cert.Sharpness.lossOf X' A' B' L := by
  subst hX hA hB; rfl

end MaskedSums

/-- Sample `b`'s loss from the batched similarity, the two batched sharpness arrays and the labels. -/
theorem losses_apply (x : FVec Ideal S128x512x512 .f32) (s1 s2 : FVec Ideal S128x512 .f32) (lab : IVec S128x512x512 32)
    (b : Fin 128) :
    Cert.RefTerm.losses (F := Ideal) x s1 s2 lab (ix1 b)
      = Cert.Sharpness.lossOf (fun l s => x (ix3 b l s)) (fun s => s1 (ix2 b s)) (fun l => s2 (ix2 b l))
          (fun l s => lab (ix3 b l s)) := by
  unfold Cert.RefTerm.losses Cert.Sharpness.lossOf
  rw [addf_apply, mulf_apply, addf_apply, hostDivf_apply, MaskedSums.hostReduceAdd_d12, MaskedSums.hostReduceAdd_d12, MaskedSums.hostReduceAdd_d12,
    MaskedSums.hostReduceAdd_d12, MaskedSums.splat1_apply]
  refine congrArg₂ (· + ·) (congrArg₂ (· * ·) (congrArg₂ (· + ·) ?_ ?_) rfl) (congrArg₂ Ideal.div ?_ ?_)
  · exact Finset.sum_congr rfl fun l _ => Finset.sum_congr rfl fun s _ => MaskedSums.term1_apply x s1 lab b l s
  · exact Finset.sum_congr rfl fun l _ => Finset.sum_congr rfl fun s _ => MaskedSums.term2_apply x s2 lab b l s
  · exact Finset.sum_congr rfl fun l _ => Finset.sum_congr rfl fun s _ => MaskedSums.term3_apply x lab b l s
  · exact Finset.sum_congr rfl fun l _ => Finset.sum_congr rfl fun s _ => MaskedSums.mask_apply lab 0#32 (ix3 b l s)

/-- The second result is the specification's scalar. -/
theorem lossMean_eq (q k : FVec Ideal S128x512x64 .f32) (lab : IVec S128x512x512 32) :
    Cert.RefTerm.lossMean (F := Ideal) q k lab = Cert.Sharpness.lossArr q k lab := by
  funext i
  unfold Cert.RefTerm.lossMean Cert.Sharpness.lossArr Cert.Sharpness.lossMean
  rw [hostDivf_apply, hostReduceAdd_apply, Ideal.hostReduceAdd_total _ (fun b => b.elim0), constant_apply, constant_apply,
    Ideal.ofBits_zero_f32, zero_add, MaskedSums.sum_idx1]
  refine congrArg (fun t => Ideal.div t Cert.Sharpness.c128) (Finset.sum_congr rfl fun b _ => ?_)
  have hsim : ∀ l s, Cert.RefTerm.sim (F := Ideal) q k (ix3 b l s)
      = Cert.Sharpness.sim (fun l' c => q (ix3 b l' c)) (fun s' c => k (ix3 b s' c)) l s := sim_apply q k b
  have h1 : ∀ s, Cert.RefTerm.softmax (F := Ideal) (Cert.RefTerm.peakCol (Cert.RefTerm.sim q k)) (ix2 b s)
      = Cert.Sharpness.sharp1 (fun l' c => q (ix3 b l' c)) (fun s' c => k (ix3 b s' c)) s := fun s => by
    rw [softmax_apply]
    unfold Cert.Sharpness.sharp1
    refine congrArg (fun g => Cert.Sharpness.softmax g s) (funext fun s' => ?_)
    rw [peakCol_apply]
    exact congrArg Cert.Sharpness.peak (funext fun l => hsim l s')
  have h2 : ∀ l, Cert.RefTerm.softmax (F := Ideal) (Cert.RefTerm.peakRow (Cert.RefTerm.sim q k)) (ix2 b l)
      = Cert.Sharpness.sharp2 (fun l' c => q (ix3 b l' c)) (fun s' c => k (ix3 b s' c)) l := fun l => by
    rw [softmax_apply]
    unfold Cert.Sharpness.sharp2
    refine congrArg (fun g => Cert.Sharpness.softmax g l) (funext fun l' => ?_)
    rw [peakRow_apply]
    exact congrArg Cert.Sharpness.peak (funext fun s => hsim l' s)
  exact (losses_apply _ _ _ lab b).trans
    (MaskedSums.lossOf_congr _ (funext fun l => funext fun s => hsim l s) (funext h1) (funext h2))

end Cert.RefValue

end
-- ==== Proof.lean ====
/-
  Equivalence over the extended reals of a Pallas "sharpness loss" kernel and its jnp reference.

  Per sample b (128 of them, eight per grid point) both programs form the similarity sim = (1 + q_b k_bᵀ)/2 ∈ ℝ^{512×512},
  the softmax over the keys of the column statistic (max − mean)/std (sharp1, the first result), the softmax over the
  queries of the same statistic along rows (sharp2), and the loss
    ½ (Σ nll·sharp1·[lab = 1] + Σ nll·sharp2·[lab = 1]) + (Σ nllNeg·[lab = 0]) / (Σ [lab = 0])
  with nll = −log clip(sim), nllNeg = −log(1 − clip(sim)); the second result is the mean of the 128 losses.
  The kernel computes a sample at a time on [512, 512] blocks (sums row by row, then down the column of row sums; the
  mean of the losses by host lines after the region); the reference on the whole [128, 512, 512] batch (sums over both
  axes at once; the standard deviation through jnp's guarded variance, whose divisor 512 − 1 is the kernel's 511).
  At the ideal instance both are the one function `Cert.Sharpness.sharpArr` / `lossArr` of the three argument arrays
  (Proof/Spec.lean): the kernel's by reading its body's per-sample functions index by index and covering the output
  arrays by the grid's blocks, the reference's by reading its composed host operations index by index. No law of the
  extended reals beyond commutativity and associativity of the sums is used, so the precondition is never opened.
-/
import proofs.«419364_j58136677319222_3_alg».proof.Defs
import proofs.«419364_j58136677319222_3_alg».proof.Proof.Gen.Kernel
import proofs.«419364_j58136677319222_3_alg».proof.Proof.Gen.Kernel.Skeleton
import proofs.«419364_j58136677319222_3_alg».proof.Proof.Gen.Kernel.Launch
import proofs.«419364_j58136677319222_3_alg».proof.Proof.Gen.Kernel.Points
import proofs.«419364_j58136677319222_3_alg».proof.Proof.Gen.Kernel.Frame
import proofs.«419364_j58136677319222_3_alg».proof.Proof.Gen.KernelIdeal
import proofs.«419364_j58136677319222_3_alg».proof.Proof.Gen.KernelIdeal.Skeleton
import proofs.«419364_j58136677319222_3_alg».proof.Proof.Gen.KernelIdeal.Launch
import proofs.«419364_j58136677319222_3_alg».proof.Proof.Gen.KernelIdeal.Points
import proofs.«419364_j58136677319222_3_alg».proof.Proof.Gen.KernelIdeal.Frame
import proofs.«419364_j58136677319222_3_alg».proof.Proof.Gen.ReferenceIdeal
import proofs.«419364_j58136677319222_3_alg».proof.Proof.Gen.Pre_finite_inputs
import proofs.«419364_j58136677319222_3_alg».proof.Proof.KernelRun
import proofs.«419364_j58136677319222_3_alg».proof.Proof.RefRun
import proofs.«419364_j58136677319222_3_alg».proof.Proof.RefValueB
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the results dropped. -/
theorem frame_ri : Cert.frame_ReferenceIdeal := fun m ρ _ =>
  (θ_run Cert.ReferenceIdeal.defs _ _).mono (fun _ h c => (h c).2.2) (Cert.RefRun.run (F := Ideal) m ρ)

/-- Both runs end with the specification's two arrays of the (agreeing) arguments. -/
theorem algebraic : Cert.algebraic_KernelIdeal_ReferenceIdeal := by
  intro m ρ m' ρ' _ hagree
  refine ⟨_, _, Cert.KernelIdeal.Final.run m ρ, ?_⟩
  refine (θ_run Cert.ReferenceIdeal.defs _ _).mono (fun _ h c => ⟨?_, ?_, (h c).2.2⟩) (Cert.RefRun.run (F := Ideal) m' ρ')
  · rw [(h c).1, Cert.RefValue.sharp_eq, (hagree c).1, (hagree c).2.1]
  · rw [(h c).2.1, Cert.RefValue.lossMean_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
